-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x256 : Shape := ⟨2, ![32768, 256]⟩
abbrev S32768x32x3 : Shape := ⟨3, ![32768, 32, 3]⟩
abbrev S32768x1 : Shape := ⟨2, ![32768, 1]⟩
abbrev S256x512 : Shape := ⟨2, ![256, 512]⟩
abbrev S512x512 : Shape := ⟨2, ![512, 512]⟩
abbrev S512x128 : Shape := ⟨2, ![512, 128]⟩
abbrev S512x2 : Shape := ⟨2, ![512, 2]⟩
abbrev S32x4x1 : Shape := ⟨3, ![32, 4, 1]⟩
abbrev S_ : Shape := ⟨0, ![]⟩

class Facts : Prop where
  bcast_S_S32768x256 : S_.BroadcastsInDim S32768x256 (![] : Fin 0 → Fin S32768x256.rank)
  reducesTo_S32768x256_S_d0_1 : S32768x256.ReducesTo [0, 1] S_
  h_S_ : 0 < S_.numel
  bcast_S_S32768x32x3 : S_.BroadcastsInDim S32768x32x3 (![] : Fin 0 → Fin S32768x32x3.rank)
  reducesTo_S32768x32x3_S_d0_1_2 : S32768x32x3.ReducesTo [0, 1, 2] S_
  bcast_S_S256x512 : S_.BroadcastsInDim S256x512 (![] : Fin 0 → Fin S256x512.rank)
  reducesTo_S256x512_S_d0_1 : S256x512.ReducesTo [0, 1] S_
  bcast_S_S512x512 : S_.BroadcastsInDim S512x512 (![] : Fin 0 → Fin S512x512.rank)
  reducesTo_S512x512_S_d0_1 : S512x512.ReducesTo [0, 1] S_
  bcast_S_S512x128 : S_.BroadcastsInDim S512x128 (![] : Fin 0 → Fin S512x128.rank)
  reducesTo_S512x128_S_d0_1 : S512x128.ReducesTo [0, 1] S_
  bcast_S_S512x2 : S_.BroadcastsInDim S512x2 (![] : Fin 0 → Fin S512x2.rank)
  reducesTo_S512x2_S_d0_1 : S512x2.ReducesTo [0, 1] S_
  bcast_S_S32x4x1 : S_.BroadcastsInDim S32x4x1 (![] : Fin 0 → Fin S32x4x1.rank)
  reducesTo_S32x4x1_S_d0_1_2 : S32x4x1.ReducesTo [0, 1, 2] S_
  bcast_S_S32768x1 : S_.BroadcastsInDim S32768x1 (![] : Fin 0 → Fin S32768x1.rank)
  reducesTo_S32768x1_S_d0_1 : S32768x1.ReducesTo [0, 1] S_

variable [Facts]

def fn_part3 {F : FTy → Type} [FloatOps F] (main_v47 : IVec S_ 1) (main_v49 : IVec S32768x1 1) (main_c_19 : IVec S_ 1) : IVec S_ 1 :=
  let main_v50 : IVec S_ 1 := (fun x v => Host.reduce IntOp.andi x v reducesTo_S32768x1_S_d0_1 h_S_) main_v49 main_c_19
  let main_v51 : IVec S_ 1 := andi main_v47 main_v50
  main_v51

def fn_part2 {F : FTy → Type} [FloatOps F] (main_arg2 : IVec S32768x1 32) (main_arg8 : FVec F S512x2 .f32) (main_arg9 : FVec F S32x4x1 .f32) (main_v33 : IVec S_ 1) : IVec S_ 1 :=
  let main_v34 : FVec F S512x2 .f32 := Host.absf main_arg8
  let main_cst_12 : FVec F S_ .f32 := constant S_ .f32 0x7F800000#32
  let main_v35 : FVec F S512x2 .f32 := broadcastInDim S512x2 ![] bcast_S_S512x2 main_cst_12
  let main_v36 : IVec S512x2 1 := cmpf .olt main_v34 main_v35
  let main_c_13 : IVec S_ 1 := constantI S_ 1 1#1
  let main_v37 : IVec S_ 1 := (fun x v => Host.reduce IntOp.andi x v reducesTo_S512x2_S_d0_1 h_S_) main_v36 main_c_13
  let main_v38 : IVec S_ 1 := andi main_v33 main_v37
  let main_v39 : FVec F S32x4x1 .f32 := Host.absf main_arg9
  let main_cst_14 : FVec F S_ .f32 := constant S_ .f32 0x7F800000#32
  let main_v40 : FVec F S32x4x1 .f32 := broadcastInDim S32x4x1 ![] bcast_S_S32x4x1 main_cst_14
  let main_v41 : IVec S32x4x1 1 := cmpf .olt main_v39 main_v40
  let main_c_15 : IVec S_ 1 := constantI S_ 1 1#1
  let main_v42 : IVec S_ 1 := (fun x v => Host.reduce IntOp.andi x v reducesTo_S32x4x1_S_d0_1_2 h_S_) main_v41 main_c_15
  let main_v43 : IVec S_ 1 := andi main_v38 main_v42
  let main_c_16 : IVec S_ 32 := constantI S_ 32 0#32
  let main_v44 : IVec S32768x1 32 := broadcastInDim S32768x1 ![] bcast_S_S32768x1 main_c_16
  let main_v45 : IVec S32768x1 1 := cmpi .sge main_arg2 main_v44
  let main_c_17 : IVec S_ 1 := constantI S_ 1 1#1
  let main_v46 : IVec S_ 1 := (fun x v => Host.reduce IntOp.andi x v reducesTo_S32768x1_S_d0_1 h_S_) main_v45 main_c_17
  let main_v47 : IVec S_ 1 := andi main_v43 main_v46
  let main_c_18 : IVec S_ 32 := constantI S_ 32 32#32
  let main_v48 : IVec S32768x1 32 := broadcastInDim S32768x1 ![] bcast_S_S32768x1 main_c_18
  let main_v49 : IVec S32768x1 1 := cmpi .slt main_arg2 main_v48
  let main_c_19 : IVec S_ 1 := constantI S_ 1 1#1
  fn_part3 (F := F) main_v47 main_v49 main_c_19

def fn_part1 {F : FTy → Type} [FloatOps F] (main_arg2 : IVec S32768x1 32) (main_arg5 : FVec F S512x128 .f32) (main_arg6 : FVec F S256x512 .f32) (main_arg7 : FVec F S512x512 .f32) (main_arg8 : FVec F S512x2 .f32) (main_arg9 : FVec F S32x4x1 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x128 .f32 := Host.absf main_arg5
  let main_cst_6 : FVec F S_ .f32 := constant S_ .f32 0x7F800000#32
  let main_v20 : FVec F S512x128 .f32 := broadcastInDim S512x128 ![] bcast_S_S512x128 main_cst_6
  let main_v21 : IVec S512x128 1 := cmpf .olt main_v19 main_v20
  let main_c_7 : IVec S_ 1 := constantI S_ 1 1#1
  let main_v22 : IVec S_ 1 := (fun x v => Host.reduce IntOp.andi x v reducesTo_S512x128_S_d0_1 h_S_) main_v21 main_c_7
  let main_v23 : IVec S_ 1 := andi main_v18 main_v22
  let main_v24 : FVec F S256x512 .f32 := Host.absf main_arg6
  let main_cst_8 : FVec F S_ .f32 := constant S_ .f32 0x7F800000#32
  let main_v25 : FVec F S256x512 .f32 := broadcastInDim S256x512 ![] bcast_S_S256x512 main_cst_8
  let main_v26 : IVec S256x512 1 := cmpf .olt main_v24 main_v25
  let main_c_9 : IVec S_ 1 := constantI S_ 1 1#1
  let main_v27 : IVec S_ 1 := (fun x v => Host.reduce IntOp.andi x v reducesTo_S256x512_S_d0_1 h_S_) main_v26 main_c_9
  let main_v28 : IVec S_ 1 := andi main_v23 main_v27
  let main_v29 : FVec F S512x512 .f32 := Host.absf main_arg7
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg2 main_arg8 main_arg9 main_v33

def fn {F : FTy → Type} [FloatOps F] (main_arg0 : FVec F S32768x256 .f32) (main_arg1 : FVec F S32768x32x3 .f32) (main_arg2 : IVec S32768x1 32) (main_arg3 : FVec F S256x512 .f32) (main_arg4 : FVec F S512x512 .f32) (main_arg5 : FVec F S512x128 .f32) (main_arg6 : FVec F S256x512 .f32) (main_arg7 : FVec F S512x512 .f32) (main_arg8 : FVec F S512x2 .f32) (main_arg9 : FVec F S32x4x1 .f32) : IVec S_ 1 :=
  let main_v0 : FVec F S32768x256 .f32 := Host.absf main_arg0
  let main_cst : FVec F S_ .f32 := constant S_ .f32 0x7F800000#32
  let main_v1 : FVec F S32768x256 .f32 := broadcastInDim S32768x256 ![] bcast_S_S32768x256 main_cst
  let main_v2 : IVec S32768x256 1 := cmpf .olt main_v0 main_v1
  let main_c : IVec S_ 1 := constantI S_ 1 1#1
  let main_v3 : IVec S_ 1 := (fun x v => Host.reduce IntOp.andi x v reducesTo_S32768x256_S_d0_1 h_S_) main_v2 main_c
  let main_v4 : FVec F S32768x32x3 .f32 := Host.absf main_arg1
  let main_cst_0 : FVec F S_ .f32 := constant S_ .f32 0x7F800000#32
  let main_v5 : FVec F S32768x32x3 .f32 := broadcastInDim S32768x32x3 ![] bcast_S_S32768x32x3 main_cst_0
  let main_v6 : IVec S32768x32x3 1 := cmpf .olt main_v4 main_v5
  let main_c_1 : IVec S_ 1 := constantI S_ 1 1#1
  let main_v7 : IVec S_ 1 := (fun x v => Host.reduce IntOp.andi x v reducesTo_S32768x32x3_S_d0_1_2 h_S_) main_v6 main_c_1
  let main_v8 : IVec S_ 1 := andi main_v3 main_v7
  let main_v9 : FVec F S256x512 .f32 := Host.absf main_arg3
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S512x512 .f32 := Host.absf main_arg4
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg2 main_arg5 main_arg6 main_arg7 main_arg8 main_arg9 main_v13 main_v16
-- ==== Kernel.lean ====
abbrev S32768x256 : Shape := ⟨2, ![32768, 256]⟩
abbrev S32768x32x3 : Shape := ⟨3, ![32768, 32, 3]⟩
abbrev S32768x1 : Shape := ⟨2, ![32768, 1]⟩
abbrev S256x512 : Shape := ⟨2, ![256, 512]⟩
abbrev S512x512 : Shape := ⟨2, ![512, 512]⟩
abbrev S512x128 : Shape := ⟨2, ![512, 128]⟩
abbrev S512x2 : Shape := ⟨2, ![512, 2]⟩
abbrev S32x4x1 : Shape := ⟨3, ![32, 4, 1]⟩
abbrev S128 : Shape := ⟨1, ![128]⟩
abbrev S_ : Shape := ⟨0, ![]⟩
abbrev S128x1 : Shape := ⟨2, ![128, 1]⟩
abbrev S2x512 : Shape := ⟨2, ![2, 512]⟩
abbrev S32x4 : Shape := ⟨2, ![32, 4]⟩
abbrev S4x32 : Shape := ⟨2, ![4, 32]⟩
abbrev S32768x3x32 : Shape := ⟨3, ![32768, 3, 32]⟩
abbrev S32768x96 : Shape := ⟨2, ![32768, 96]⟩
abbrev S32768x2 : Shape := ⟨2, ![32768, 2]⟩
abbrev S32768x12 : Shape := ⟨2, ![32768, 12]⟩
abbrev S2048x256 : Shape := ⟨2, ![2048, 256]⟩
abbrev S2048x96 : Shape := ⟨2, ![2048, 96]⟩
abbrev S2048x1 : Shape := ⟨2, ![2048, 1]⟩
abbrev S2048x2 : Shape := ⟨2, ![2048, 2]⟩
abbrev S2048x12 : Shape := ⟨2, ![2048, 12]⟩
abbrev S2048x512 : Shape := ⟨2, ![2048, 512]⟩
abbrev S2048x128 : Shape := ⟨2, ![2048, 128]⟩
abbrev S1x512 : Shape := ⟨2, ![1, 512]⟩
abbrev S2048 : Shape := ⟨1, ![2048]⟩
abbrev S2048x32 : Shape := ⟨2, ![2048, 32]⟩
abbrev S1x32 : Shape := ⟨2, ![1, 32]⟩
abbrev S2048x3 : Shape := ⟨2, ![2048, 3]⟩
abbrev S32768x4x3 : Shape := ⟨3, ![32768, 4, 3]⟩

abbrev nBuf : Space → Nat
  | .hbm => 31
  | .vmem => 17
  | .smem => 0
  | _ => 0

abbrev bufTy : (tb : Table) → Fin (tcTables nBuf tb) → BufTy
  | .hbm, ⟨0, _⟩ => ⟨S32768x256, .f32⟩
  | .hbm, ⟨1, _⟩ => ⟨S32768x32x3, .f32⟩
  | .hbm, ⟨2, _⟩ => ⟨S32768x1, .i32⟩
  | .hbm, ⟨3, _⟩ => ⟨S256x512, .f32⟩
  | .hbm, ⟨4, _⟩ => ⟨S512x512, .f32⟩
  | .hbm, ⟨5, _⟩ => ⟨S512x128, .f32⟩
  | .hbm, ⟨6, _⟩ => ⟨S256x512, .f32⟩
  | .hbm, ⟨7, _⟩ => ⟨S512x512, .f32⟩
  | .hbm, ⟨8, _⟩ => ⟨S512x2, .f32⟩
  | .hbm, ⟨9, _⟩ => ⟨S32x4x1, .f32⟩
  | .hbm, ⟨10, _⟩ => ⟨S128, .i32⟩
  | .hbm, ⟨11, _⟩ => ⟨S128, .i1⟩
  | .hbm, ⟨12, _⟩ => ⟨S_, .i32⟩
  | .hbm, ⟨13, _⟩ => ⟨S128, .i32⟩
  | .hbm, ⟨14, _⟩ => ⟨S128, .i32⟩
  | .hbm, ⟨15, _⟩ => ⟨S128, .i32⟩
  | .hbm, ⟨16, _⟩ => ⟨S128x1, .i32⟩
  | .hbm, ⟨17, _⟩ => ⟨S512x128, .f32⟩
  | .hbm, ⟨18, _⟩ => ⟨S256x512, .bf16⟩
  | .hbm, ⟨19, _⟩ => ⟨S512x512, .bf16⟩
  | .hbm, ⟨20, _⟩ => ⟨S512x128, .bf16⟩
  | .hbm, ⟨21, _⟩ => ⟨S256x512, .bf16⟩
  | .hbm, ⟨22, _⟩ => ⟨S512x512, .bf16⟩
  | .hbm, ⟨23, _⟩ => ⟨S2x512, .f32⟩
  | .hbm, ⟨24, _⟩ => ⟨S32x4, .f32⟩
  | .hbm, ⟨25, _⟩ => ⟨S4x32, .f32⟩
  | .hbm, ⟨26, _⟩ => ⟨S32768x3x32, .f32⟩
  | .hbm, ⟨27, _⟩ => ⟨S32768x96, .f32⟩
  | .hbm, ⟨28, _⟩ => ⟨S32768x2, .f32⟩
  | .hbm, ⟨29, _⟩ => ⟨S32768x12, .f32⟩
  | .hbm, ⟨30, _⟩ => ⟨S32768x4x3, .f32⟩
  | .local _ .vmem, ⟨0, _⟩ => ⟨S2048x256, .f32⟩
  | .local _ .vmem, ⟨1, _⟩ => ⟨S2048x256, .f32⟩
  | .local _ .vmem, ⟨2, _⟩ => ⟨S2048x96, .f32⟩
  | .local _ .vmem, ⟨3, _⟩ => ⟨S2048x96, .f32⟩
  | .local _ .vmem, ⟨4, _⟩ => ⟨S2048x1, .i32⟩
  | .local _ .vmem, ⟨5, _⟩ => ⟨S2048x1, .i32⟩
  | .local _ .vmem, ⟨6, _⟩ => ⟨S256x512, .bf16⟩
  | .local _ .vmem, ⟨7, _⟩ => ⟨S512x512, .bf16⟩
  | .local _ .vmem, ⟨8, _⟩ => ⟨S512x128, .bf16⟩
  | .local _ .vmem, ⟨9, _⟩ => ⟨S256x512, .bf16⟩
  | .local _ .vmem, ⟨10, _⟩ => ⟨S512x512, .bf16⟩
  | .local _ .vmem, ⟨11, _⟩ => ⟨S2x512, .f32⟩
  | .local _ .vmem, ⟨12, _⟩ => ⟨S4x32, .f32⟩
  | .local _ .vmem, ⟨13, _⟩ => ⟨S2048x2, .f32⟩
  | .local _ .vmem, ⟨14, _⟩ => ⟨S2048x2, .f32⟩
  | .local _ .vmem, ⟨15, _⟩ => ⟨S2048x12, .f32⟩
  | .local _ .vmem, ⟨16, _⟩ => ⟨S2048x12, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_c_0 : Ref sig .tc := ⟨.hbm, 11, rfl⟩
abbrev main_c_1 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15_0 : Ref sig .tc := ⟨.hbm, 28, rfl⟩
abbrev main_v15_1 : Ref sig .tc := ⟨.hbm, 29, rfl⟩
abbrev main_v16 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2048x2 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x12 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bcast_S_S128 : S_.BroadcastsInDim S128 (![] : Fin 0 → Fin S128.rank)
  bcast_S128_S128x1_0 : S128.BroadcastsInDim S128x1 (![0] : Fin 1 → Fin S128x1.rank)
  bitsLt_bf16_f32 : FTy.bits .bf16 < FTy.bits .f32
  transposes_S512x2_S2x512_1_0 : S512x2.Transposes [1, 0] S2x512
  shapeCasts_S32x4x1_S32x4 : S32x4x1.ShapeCasts S32x4
  transposes_S32x4_S4x32_1_0 : S32x4.Transposes [1, 0] S4x32
  transposes_S32768x32x3_S32768x3x32_0_2_1 : S32768x32x3.Transposes [0, 2, 1] S32768x3x32
  shapeCasts_S32768x3x32_S32768x96 : S32768x3x32.ShapeCasts S32768x96
  inb_S2048x256_S2048x256_0_0 : ∀ a, (![0, 0] : Fin 2 → Nat) a + S2048x256.size a ≤ S2048x256.size a
  h_S2048x256 : 0 < S2048x256.numel
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S2x512_S2x512_0_0 : ∀ a, (![0, 0] : Fin 2 → Nat) a + S2x512.size a ≤ S2x512.size a
  h_S2x512 : 0 < S2x512.numel
  shapeCasts_S2x512_S2x512 : S2x512.ShapeCasts S2x512
  slices_S2x512_o0_0_S1x512 : S2x512.Slices ![0, 0] S1x512
  shapeCasts_S1x512_S1x512 : S1x512.ShapeCasts S1x512
  broadcasts_S1x512_S2048x512 : S1x512.Broadcasts S2048x512
  reduces_S2048x512_S2048 : S2048x512.Reduces [1] S2048
  shapeCasts_S2048_S2048x1 : S2048.ShapeCasts S2048x1
  slices_S2x512_o1_0_S1x512 : S2x512.Slices ![1, 0] S1x512
  concatenates_S2048x1_S2048x1_S2048x2_d1 : Shape.Concatenates [S2048x1, S2048x1] S2048x2 1
  inb_S2048x2_S2048x2_0_0 : ∀ a, (![0, 0] : Fin 2 → Nat) a + S2048x2.size a ≤ S2048x2.size a
  h_S2048x2 : 0 < S2048x2.numel
  inb_S2048x96_S2048x96_0_0 : ∀ a, (![0, 0] : Fin 2 → Nat) a + S2048x96.size a ≤ S2048x96.size a
  h_S2048x96 : 0 < S2048x96.numel
  shapeCasts_S2048x96_S2048x96 : S2048x96.ShapeCasts S2048x96
  inb_S2048x1_S2048x1_0_0 : ∀ a, (![0, 0] : Fin 2 → Nat) a + S2048x1.size a ≤ S2048x1.size a
  h_S2048x1 : 0 < S2048x1.numel
  iota_S2048x32_d1_w32 : S2048x32.Iotas .tc 32 [1]
  broadcasts_S2048x1_S2048x32 : S2048x1.Broadcasts S2048x32
  natLt_1_32 : 1 < 32
  inb_S4x32_S4x32_0_0 : ∀ a, (![0, 0] : Fin 2 → Nat) a + S4x32.size a ≤ S4x32.size a
  h_S4x32 : 0 < S4x32.numel
  shapeCasts_S4x32_S4x32 : S4x32.ShapeCasts S4x32
  slices_S2048x128_o0_0_S2048x32 : S2048x128.Slices ![0, 0] S2048x32
  slices_S2048x96_o0_0_S2048x32 : S2048x96.Slices ![0, 0] S2048x32
  reduces_S2048x32_S2048 : S2048x32.Reduces [1] S2048
  slices_S2048x96_o0_32_S2048x32 : S2048x96.Slices ![0, 32] S2048x32
  slices_S2048x96_o0_64_S2048x32 : S2048x96.Slices ![0, 64] S2048x32
  slices_S4x32_o0_0_S1x32 : S4x32.Slices ![0, 0] S1x32
  shapeCasts_S1x32_S1x32 : S1x32.ShapeCasts S1x32
  broadcasts_S1x32_S2048x32 : S1x32.Broadcasts S2048x32
  concatenates_S2048x1_S2048x1_S2048x1_S2048x3_d1 : Shape.Concatenates [S2048x1, S2048x1, S2048x1] S2048x3 1
  inb_S2048x12_S2048x3_0_0 : ∀ a, (![0, 0] : Fin 2 → Nat) a + S2048x3.size a ≤ S2048x12.size a
  h_S2048x3 : 0 < S2048x3.numel
  slices_S2048x128_o0_32_S2048x32 : S2048x128.Slices ![0, 32] S2048x32
  slices_S4x32_o1_0_S1x32 : S4x32.Slices ![1, 0] S1x32
  inb_S2048x12_S2048x3_0_3 : ∀ a, (![0, 3] : Fin 2 → Nat) a + S2048x3.size a ≤ S2048x12.size a
  slices_S2048x128_o0_64_S2048x32 : S2048x128.Slices ![0, 64] S2048x32
  slices_S4x32_o2_0_S1x32 : S4x32.Slices ![2, 0] S1x32
  inb_S2048x12_S2048x3_0_6 : ∀ a, (![0, 6] : Fin 2 → Nat) a + S2048x3.size a ≤ S2048x12.size a
  slices_S2048x128_o0_96_S2048x32 : S2048x128.Slices ![0, 96] S2048x32
  slices_S4x32_o3_0_S1x32 : S4x32.Slices ![3, 0] S1x32
  inb_S2048x12_S2048x3_0_9 : ∀ a, (![0, 9] : Fin 2 → Nat) a + S2048x3.size a ≤ S2048x12.size a
  shapeCasts_S32768x12_S32768x4x3 : S32768x12.ShapeCasts S32768x4x3
  gather_S512x128_S128x1_S512x128_0_1_n_n_1_1_5121_wf : GatherDims.WF S512x128 S128x1 S512x128 [0] [1] [] [1] [] 1 ![512, 1]
  dot_S2048x256_S256x512_S2048x512_1_0_0_1_n_n_wf : DotDims.WF S2048x256 S256x512 S2048x512 [1] [0] [0] [1] [] []
  dot_S2048x512_S512x512_S2048x512_1_0_0_1_n_n_wf : DotDims.WF S2048x512 S512x512 S2048x512 [1] [0] [0] [1] [] []
  dot_S2048x512_S512x128_S2048x128_1_0_0_1_n_n_wf : DotDims.WF S2048x512 S512x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S32768x256.size a
  hwx0_0 : ∀ i : grid0.Coords, EltTy.bits .f32 = 32 ∨ (Rect.block (s := S32768x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x96.size a ≤ S32768x96.size a
  hwx0_1 : ∀ i : grid0.Coords, EltTy.bits .f32 = 32 ∨ (Rect.block (s := S32768x96) S2048x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S32768x1.size a
  hwx0_2 : ∀ i : grid0.Coords, EltTy.bits .i32 = 32 ∨ (Rect.block (s := S32768x1) S2048x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .bf16 = 32 ∨ (Rect.block (s := S256x512) S256x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S512x128.size a
  hwx0_5 : ∀ i : grid0.Coords, EltTy.bits .bf16 = 32 ∨ (Rect.block (s := S512x128) S512x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x512.size a ≤ S256x512.size a
  hwx0_6 : ∀ i : grid0.Coords, EltTy.bits .bf16 = 32 ∨ (Rect.block (s := S256x512) S256x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .bf16 = 32 ∨ (Rect.block (s := S512x512) S512x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2x512.size a ≤ S2x512.size a
  hwx0_8 : ∀ i : grid0.Coords, EltTy.bits .f32 = 32 ∨ (Rect.block (s := S2x512) S2x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S4x32.size a ≤ S4x32.size a
  hwx0_9 : ∀ i : grid0.Coords, EltTy.bits .f32 = 32 ∨ (Rect.block (s := S4x32) S4x32.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2048x2.size a ≤ S32768x2.size a
  hwx0_10 : ∀ i : grid0.Coords, EltTy.bits .f32 = 32 ∨ (Rect.block (s := S32768x2) S2048x2.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2048x12.size a ≤ S32768x12.size a
  hwx0_11 : ∀ i : grid0.Coords, EltTy.bits .f32 = 32 ∨ (Rect.block (s := S32768x12) S2048x12.size (cc0_transform_11 i) (hinb0_11 i)).WholeWords (EltTy.packing .f32)

variable [Facts₀]

def gather_S512x128_S128x1_S512x128_0_1_n_n_1_1_5121 : GatherDims S512x128 S128x1 S512x128 where
  offsetDims := [0]
  collapsedSliceDims := [1]
  operandBatchingDims := []
  startIndicesBatchingDims := []
  startIndexMap := [1]
  indexVectorDim := 1
  sliceSizes := ![512, 1]
  wf := gather_S512x128_S128x1_S512x128_0_1_n_n_1_1_5121_wf
def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S2048x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S512x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S256x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S2x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v12) S4x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v15_0) S2048x2.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v15_1) S2048x12.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S32768x256 : Shape := ⟨2, ![32768, 256]⟩
abbrev S32768x32x3 : Shape := ⟨3, ![32768, 32, 3]⟩
abbrev S32768x1 : Shape := ⟨2, ![32768, 1]⟩
abbrev S256x512 : Shape := ⟨2, ![256, 512]⟩
abbrev S512x512 : Shape := ⟨2, ![512, 512]⟩
abbrev S512x128 : Shape := ⟨2, ![512, 128]⟩
abbrev S512x2 : Shape := ⟨2, ![512, 2]⟩
abbrev S32x4x1 : Shape := ⟨3, ![32, 4, 1]⟩
abbrev S32768x512 : Shape := ⟨2, ![32768, 512]⟩
abbrev S_ : Shape := ⟨0, ![]⟩
abbrev S32768x128 : Shape := ⟨2, ![32768, 128]⟩
abbrev S32768x32x4 : Shape := ⟨3, ![32768, 32, 4]⟩
abbrev S32768x2 : Shape := ⟨2, ![32768, 2]⟩
abbrev S32768x4x3 : Shape := ⟨3, ![32768, 4, 3]⟩
abbrev S32768x4 : Shape := ⟨2, ![32768, 4]⟩
abbrev S32768x4x1 : Shape := ⟨3, ![32768, 4, 1]⟩
abbrev S32768 : Shape := ⟨1, ![32768]⟩

abbrev nBuf : Space → Nat
  | .hbm => 114
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S32768x32x3, .f32⟩
  | .hbm, ⟨2, _⟩ => ⟨S32768x1, .i32⟩
  | .hbm, ⟨3, _⟩ => ⟨S256x512, .f32⟩
  | .hbm, ⟨4, _⟩ => ⟨S512x512, .f32⟩
  | .hbm, ⟨5, _⟩ => ⟨S512x128, .f32⟩
  | .hbm, ⟨6, _⟩ => ⟨S256x512, .f32⟩
  | .hbm, ⟨7, _⟩ => ⟨S512x512, .f32⟩
  | .hbm, ⟨8, _⟩ => ⟨S512x2, .f32⟩
  | .hbm, ⟨9, _⟩ => ⟨S32x4x1, .f32⟩
  | .hbm, ⟨10, _⟩ => ⟨S32768x512, .f32⟩
  | .hbm, ⟨11, _⟩ => ⟨S_, .f32⟩
  | .hbm, ⟨12, _⟩ => ⟨S32768x512, .f32⟩
  | .hbm, ⟨13, _⟩ => ⟨S32768x512, .f32⟩
  | .hbm, ⟨14, _⟩ => ⟨S32768x512, .f32⟩
  | .hbm, ⟨15, _⟩ => ⟨S32768x512, .f32⟩
  | .hbm, ⟨16, _⟩ => ⟨S_, .f32⟩
  | .hbm, ⟨17, _⟩ => ⟨S32768x512, .f32⟩
  | .hbm, ⟨18, _⟩ => ⟨S32768x512, .f32⟩
  | .hbm, ⟨19, _⟩ => ⟨S_, .f32⟩
  | .hbm, ⟨20, _⟩ => ⟨S32768x512, .f32⟩
  | .hbm, ⟨21, _⟩ => ⟨S32768x512, .f32⟩
  | .hbm, ⟨22, _⟩ => ⟨S32768x512, .f32⟩
  | .hbm, ⟨23, _⟩ => ⟨S32768x512, .f32⟩
  | .hbm, ⟨24, _⟩ => ⟨S_, .f32⟩
  | .hbm, ⟨25, _⟩ => ⟨S32768x512, .f32⟩
  | .hbm, ⟨26, _⟩ => ⟨S32768x512, .f32⟩
  | .hbm, ⟨27, _⟩ => ⟨S32768x512, .f32⟩
  | .hbm, ⟨28, _⟩ => ⟨S32768x512, .f32⟩
  | .hbm, ⟨29, _⟩ => ⟨S_, .f32⟩
  | .hbm, ⟨30, _⟩ => ⟨S32768x512, .f32⟩
  | .hbm, ⟨31, _⟩ => ⟨S32768x512, .f32⟩
  | .hbm, ⟨32, _⟩ => ⟨S_, .f32⟩
  | .hbm, ⟨33, _⟩ => ⟨S32768x512, .f32⟩
  | .hbm, ⟨34, _⟩ => ⟨S32768x512, .f32⟩
  | .hbm, ⟨35, _⟩ => ⟨S32768x512, .f32⟩
  | .hbm, ⟨36, _⟩ => ⟨S32768x128, .f32⟩
  | .hbm, ⟨37, _⟩ => ⟨S_, .f32⟩
  | .hbm, ⟨38, _⟩ => ⟨S32768x128, .f32⟩
  | .hbm, ⟨39, _⟩ => ⟨S32768x128, .f32⟩
  | .hbm, ⟨40, _⟩ => ⟨S32768x32x4, .f32⟩
  | .hbm, ⟨41, _⟩ => ⟨S32768x512, .f32⟩
  | .hbm, ⟨42, _⟩ => ⟨S_, .f32⟩
  | .hbm, ⟨43, _⟩ => ⟨S32768x512, .f32⟩
  | .hbm, ⟨44, _⟩ => ⟨S32768x512, .f32⟩
  | .hbm, ⟨45, _⟩ => ⟨S32768x512, .f32⟩
  | .hbm, ⟨46, _⟩ => ⟨S32768x512, .f32⟩
  | .hbm, ⟨47, _⟩ => ⟨S_, .f32⟩
  | .hbm, ⟨48, _⟩ => ⟨S32768x512, .f32⟩
  | .hbm, ⟨49, _⟩ => ⟨S32768x512, .f32⟩
  | .hbm, ⟨50, _⟩ => ⟨S_, .f32⟩
  | .hbm, ⟨51, _⟩ => ⟨S32768x512, .f32⟩
  | .hbm, ⟨52, _⟩ => ⟨S32768x512, .f32⟩
  | .hbm, ⟨53, _⟩ => ⟨S32768x512, .f32⟩
  | .hbm, ⟨54, _⟩ => ⟨S32768x512, .f32⟩
  | .hbm, ⟨55, _⟩ => ⟨S_, .f32⟩
  | .hbm, ⟨56, _⟩ => ⟨S32768x512, .f32⟩
  | .hbm, ⟨57, _⟩ => ⟨S32768x512, .f32⟩
  | .hbm, ⟨58, _⟩ => ⟨S32768x512, .f32⟩
  | .hbm, ⟨59, _⟩ => ⟨S32768x512, .f32⟩
  | .hbm, ⟨60, _⟩ => ⟨S_, .f32⟩
  | .hbm, ⟨61, _⟩ => ⟨S32768x512, .f32⟩
  | .hbm, ⟨62, _⟩ => ⟨S32768x512, .f32⟩
  | .hbm, ⟨63, _⟩ => ⟨S_, .f32⟩
  | .hbm, ⟨64, _⟩ => ⟨S32768x512, .f32⟩
  | .hbm, ⟨65, _⟩ => ⟨S32768x512, .f32⟩
  | .hbm, ⟨66, _⟩ => ⟨S32768x512, .f32⟩
  | .hbm, ⟨67, _⟩ => ⟨S32768x2, .f32⟩
  | .hbm, ⟨68, _⟩ => ⟨S_, .f32⟩
  | .hbm, ⟨69, _⟩ => ⟨S32768x2, .f32⟩
  | .hbm, ⟨70, _⟩ => ⟨S32768x2, .f32⟩
  | .hbm, ⟨71, _⟩ => ⟨S32768x4x3, .f32⟩
  | .hbm, ⟨72, _⟩ => ⟨S_, .f32⟩
  | .hbm, ⟨73, _⟩ => ⟨S32768x4x3, .f32⟩
  | .hbm, ⟨74, _⟩ => ⟨S32768x4x3, .f32⟩
  | .hbm, ⟨75, _⟩ => ⟨S32768x4x3, .f32⟩
  | .hbm, ⟨76, _⟩ => ⟨S_, .f32⟩
  | .hbm, ⟨77, _⟩ => ⟨S32768x4, .f32⟩
  | .hbm, ⟨78, _⟩ => ⟨S32768x4x1, .f32⟩
  | .hbm, ⟨79, _⟩ => ⟨S32768x4x1, .f32⟩
  | .hbm, ⟨80, _⟩ => ⟨S_, .f32⟩
  | .hbm, ⟨81, _⟩ => ⟨S32768x4x1, .f32⟩
  | .hbm, ⟨82, _⟩ => ⟨S32768x4x1, .f32⟩
  | .hbm, ⟨83, _⟩ => ⟨S32768x4x3, .f32⟩
  | .hbm, ⟨84, _⟩ => ⟨S32768x4x3, .f32⟩
  | .hbm, ⟨85, _⟩ => ⟨S_, .f32⟩
  | .hbm, ⟨86, _⟩ => ⟨S32768x4x3, .i1⟩
  | .hbm, ⟨87, _⟩ => ⟨S_, .f32⟩
  | .hbm, ⟨88, _⟩ => ⟨S32768x4x3, .f32⟩
  | .hbm, ⟨89, _⟩ => ⟨S32768x4x3, .f32⟩
  | .hbm, ⟨90, _⟩ => ⟨S_, .f32⟩
  | .hbm, ⟨91, _⟩ => ⟨S32768x4x3, .f32⟩
  | .hbm, ⟨92, _⟩ => ⟨S32768x4x3, .i1⟩
  | .hbm, ⟨93, _⟩ => ⟨S_, .f32⟩
  | .hbm, ⟨94, _⟩ => ⟨S32768x4x3, .f32⟩
  | .hbm, ⟨95, _⟩ => ⟨S32768x4x3, .f32⟩
  | .hbm, ⟨96, _⟩ => ⟨S_, .f32⟩
  | .hbm, ⟨97, _⟩ => ⟨S32768x4x3, .f32⟩
  | .hbm, ⟨98, _⟩ => ⟨S32768x4x3, .i1⟩
  | .hbm, ⟨99, _⟩ => ⟨S_, .f32⟩
  | .hbm, ⟨100, _⟩ => ⟨S32768x4x3, .f32⟩
  | .hbm, ⟨101, _⟩ => ⟨S32768x4x3, .f32⟩
  | .hbm, ⟨102, _⟩ => ⟨S32768, .i32⟩
  | .hbm, ⟨103, _⟩ => ⟨S_, .i32⟩
  | .hbm, ⟨104, _⟩ => ⟨S32768, .i32⟩
  | .hbm, ⟨105, _⟩ => ⟨S32768, .i1⟩
  | .hbm, ⟨106, _⟩ => ⟨S_, .i32⟩
  | .hbm, ⟨107, _⟩ => ⟨S32768, .i32⟩
  | .hbm, ⟨108, _⟩ => ⟨S32768, .i32⟩
  | .hbm, ⟨109, _⟩ => ⟨S32768, .i32⟩
  | .hbm, ⟨110, _⟩ => ⟨S32768x1, .i32⟩
  | .hbm, ⟨111, _⟩ => ⟨S32768x4x1, .f32⟩
  | .hbm, ⟨112, _⟩ => ⟨S32768x4x3, .f32⟩
  | .hbm, ⟨113, _⟩ => ⟨S32768x4x3, .f32⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v3 : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_call1_v0 : Ref sig .tc := ⟨.hbm, 27, rfl⟩
abbrev main_call1_v1 : Ref sig .tc := ⟨.hbm, 28, rfl⟩
abbrev main_call1_cst : Ref sig .tc := ⟨.hbm, 29, rfl⟩
abbrev main_call1_v2 : Ref sig .tc := ⟨.hbm, 30, rfl⟩
abbrev main_call1_v3 : Ref sig .tc := ⟨.hbm, 31, rfl⟩
abbrev main_call1_cst_0 : Ref sig .tc := ⟨.hbm, 32, rfl⟩
abbrev main_call1_v4 : Ref sig .tc := ⟨.hbm, 33, rfl⟩
abbrev main_call1_v5 : Ref sig .tc := ⟨.hbm, 34, rfl⟩
abbrev main_v7 : Ref sig .tc := ⟨.hbm, 35, rfl⟩
abbrev main_v8 : Ref sig .tc := ⟨.hbm, 36, rfl⟩
abbrev main_cst_1 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_cst_2 : Ref sig .tc := ⟨.hbm, 42, rfl⟩
abbrev main_v13 : Ref sig .tc := ⟨.hbm, 43, rfl⟩
abbrev main_v14 : Ref sig .tc := ⟨.hbm, 44, rfl⟩
abbrev main_call2_v0 : Ref sig .tc := ⟨.hbm, 45, rfl⟩
abbrev main_call2_v1 : Ref sig .tc := ⟨.hbm, 46, rfl⟩
abbrev main_call2_cst : Ref sig .tc := ⟨.hbm, 47, rfl⟩
abbrev main_call2_v2 : Ref sig .tc := ⟨.hbm, 48, rfl⟩
abbrev main_call2_v3 : Ref sig .tc := ⟨.hbm, 49, rfl⟩
abbrev main_call2_cst_0 : Ref sig .tc := ⟨.hbm, 50, rfl⟩
abbrev main_call2_v4 : Ref sig .tc := ⟨.hbm, 51, rfl⟩
abbrev main_call2_v5 : Ref sig .tc := ⟨.hbm, 52, rfl⟩
abbrev main_v15 : Ref sig .tc := ⟨.hbm, 53, rfl⟩
abbrev main_v16 : Ref sig .tc := ⟨.hbm, 54, rfl⟩
abbrev main_cst_3 : Ref sig .tc := ⟨.hbm, 55, rfl⟩
abbrev main_v17 : Ref sig .tc := ⟨.hbm, 56, rfl⟩
abbrev main_v18 : Ref sig .tc := ⟨.hbm, 57, rfl⟩
abbrev main_call3_v0 : Ref sig .tc := ⟨.hbm, 58, rfl⟩
abbrev main_call3_v1 : Ref sig .tc := ⟨.hbm, 59, rfl⟩
abbrev main_call3_cst : Ref sig .tc := ⟨.hbm, 60, rfl⟩
abbrev main_call3_v2 : Ref sig .tc := ⟨.hbm, 61, rfl⟩
abbrev main_call3_v3 : Ref sig .tc := ⟨.hbm, 62, rfl⟩
abbrev main_call3_cst_0 : Ref sig .tc := ⟨.hbm, 63, rfl⟩
abbrev main_call3_v4 : Ref sig .tc := ⟨.hbm, 64, rfl⟩
abbrev main_call3_v5 : Ref sig .tc := ⟨.hbm, 65, rfl⟩
abbrev main_v19 : Ref sig .tc := ⟨.hbm, 66, rfl⟩
abbrev main_v20 : Ref sig .tc := ⟨.hbm, 67, rfl⟩
abbrev main_cst_4 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_cst_5 : Ref sig .tc := ⟨.hbm, 72, rfl⟩
abbrev main_v24 : Ref sig .tc := ⟨.hbm, 73, rfl⟩
abbrev main_v25 : Ref sig .tc := ⟨.hbm, 74, rfl⟩
abbrev main_call4_v0 : Ref sig .tc := ⟨.hbm, 75, rfl⟩
abbrev main_call4_cst : Ref sig .tc := ⟨.hbm, 76, rfl⟩
abbrev main_call4_v1 : Ref sig .tc := ⟨.hbm, 77, rfl⟩
abbrev main_call4_v2 : Ref sig .tc := ⟨.hbm, 78, rfl⟩
abbrev main_v26 : Ref sig .tc := ⟨.hbm, 79, rfl⟩
abbrev main_cst_6 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_cst_7 : Ref sig .tc := ⟨.hbm, 85, rfl⟩
abbrev main_call5_v0 : Ref sig .tc := ⟨.hbm, 86, rfl⟩
abbrev main_call5_v1 : Ref sig .tc := ⟨.hbm, 87, rfl⟩
abbrev main_call5_call0_v0 : Ref sig .tc := ⟨.hbm, 88, rfl⟩
abbrev main_call5_v2 : Ref sig .tc := ⟨.hbm, 89, rfl⟩
abbrev main_call5_cst : Ref sig .tc := ⟨.hbm, 90, rfl⟩
abbrev main_call5_v3 : Ref sig .tc := ⟨.hbm, 91, rfl⟩
abbrev main_call5_v4 : Ref sig .tc := ⟨.hbm, 92, rfl⟩
abbrev main_call5_cst_0 : Ref sig .tc := ⟨.hbm, 93, rfl⟩
abbrev main_call5_call1_v0 : Ref sig .tc := ⟨.hbm, 94, rfl⟩
abbrev main_call5_v5 : Ref sig .tc := ⟨.hbm, 95, rfl⟩
abbrev main_call5_cst_1 : Ref sig .tc := ⟨.hbm, 96, rfl⟩
abbrev main_call5_v6 : Ref sig .tc := ⟨.hbm, 97, rfl⟩
abbrev main_call5_v7 : Ref sig .tc := ⟨.hbm, 98, rfl⟩
abbrev main_call5_cst_2 : Ref sig .tc := ⟨.hbm, 99, rfl⟩
abbrev main_call5_call2_v0 : Ref sig .tc := ⟨.hbm, 100, rfl⟩
abbrev main_v31 : Ref sig .tc := ⟨.hbm, 101, rfl⟩
abbrev main_v32 : Ref sig .tc := ⟨.hbm, 102, rfl⟩
abbrev main_c : Ref sig .tc := ⟨.hbm, 103, rfl⟩
abbrev main_v33 : Ref sig .tc := ⟨.hbm, 104, rfl⟩
abbrev main_v34 : Ref sig .tc := ⟨.hbm, 105, rfl⟩
abbrev main_c_8 : Ref sig .tc := ⟨.hbm, 106, rfl⟩
abbrev main_v35 : Ref sig .tc := ⟨.hbm, 107, rfl⟩
abbrev main_v36 : Ref sig .tc := ⟨.hbm, 108, rfl⟩
abbrev main_v37 : Ref sig .tc := ⟨.hbm, 109, rfl⟩
abbrev main_v38 : Ref sig .tc := ⟨.hbm, 110, rfl⟩
abbrev main_v39 : Ref sig .tc := ⟨.hbm, 111, rfl⟩
abbrev main_v40 : Ref sig .tc := ⟨.hbm, 112, rfl⟩
abbrev main_v41 : Ref sig .tc := ⟨.hbm, 113, rfl⟩

abbrev nD : Nat := 1
abbrev τ : Topo := Topo.v7x

variable {F : FTy → Type} [FloatOps F]

class Facts₀ : Prop where
  bcast_S_S32768x512 : S_.BroadcastsInDim S32768x512 (![] : Fin 0 → Fin S32768x512.rank)
  bcast_S_S32768x128 : S_.BroadcastsInDim S32768x128 (![] : Fin 0 → Fin S32768x128.rank)
  shapeCasts_S32768x128_S32768x32x4 : S32768x128.ShapeCasts S32768x32x4
  bcast_S_S32768x2 : S_.BroadcastsInDim S32768x2 (![] : Fin 0 → Fin S32768x2.rank)
  bcast_S_S32768x4x3 : S_.BroadcastsInDim S32768x4x3 (![] : Fin 0 → Fin S32768x4x3.rank)
  reducesTo_S32768x4x3_S32768x4_d2 : S32768x4x3.ReducesTo [2] S32768x4
  h_S_ : 0 < S_.numel
  bcast_S32768x4_S32768x4x1_0_1 : S32768x4.BroadcastsInDim S32768x4x1 (![0, 1] : Fin 2 → Fin S32768x4x1.rank)
  bcast_S_S32768x4x1 : S_.BroadcastsInDim S32768x4x1 (![] : Fin 0 → Fin S32768x4x1.rank)
  bcast_S32768x4x1_S32768x4x3_0_1_2 : S32768x4x1.BroadcastsInDim S32768x4x3 (![0, 1, 2] : Fin 3 → Fin S32768x4x3.rank)
  shapeCasts_S32768x1_S32768 : S32768x1.ShapeCasts S32768
  bcast_S_S32768 : S_.BroadcastsInDim S32768 (![] : Fin 0 → Fin S32768.rank)
  bcast_S32768_S32768x1_0 : S32768.BroadcastsInDim S32768x1 (![0] : Fin 1 → Fin S32768x1.rank)
  dot_S32768x256_S256x512_S32768x512_1_0_0_1_n_n_wf : DotDims.WF S32768x256 S256x512 S32768x512 [1] [0] [0] [1] [] []
  dot_S32768x512_S512x512_S32768x512_1_0_0_1_n_n_wf : DotDims.WF S32768x512 S512x512 S32768x512 [1] [0] [0] [1] [] []
  dot_S32768x512_S512x128_S32768x128_1_0_0_1_n_n_wf : DotDims.WF S32768x512 S512x128 S32768x128 [1] [0] [0] [1] [] []
  dot_S32768x512_S512x2_S32768x2_1_0_0_1_n_n_wf : DotDims.WF S32768x512 S512x2 S32768x2 [1] [0] [0] [1] [] []
  dot_S32768x32x4_S32768x32x3_S32768x4x3_1_1_2_2_0_0_wf : DotDims.WF S32768x32x4 S32768x32x3 S32768x4x3 [1] [1] [2] [2] [0] [0]
  gather_S32x4x1_S32768x1_S32768x4x1_12_0_n_n_0_1_141_wf : GatherDims.WF S32x4x1 S32768x1 S32768x4x1 [1, 2] [0] [] [0] [] 1 ![1, 4, 1]

variable [Facts₀]

def dot_S32768x256_S256x512_S32768x512_1_0_0_1_n_n : DotDims S32768x256 S256x512 S32768x512 where
  lhsContracting := [1]
  rhsContracting := [0]
  lhsNonContracting := [0]
  rhsNonContracting := [1]
  lhsBatch := []
  rhsBatch := []
  wf := dot_S32768x256_S256x512_S32768x512_1_0_0_1_n_n_wf
def dot_S32768x512_S512x512_S32768x512_1_0_0_1_n_n : DotDims S32768x512 S512x512 S32768x512 where
  lhsContracting := [1]
  rhsContracting := [0]
  lhsNonContracting := [0]
  rhsNonContracting := [1]
  lhsBatch := []
  rhsBatch := []
  wf := dot_S32768x512_S512x512_S32768x512_1_0_0_1_n_n_wf
def dot_S32768x512_S512x128_S32768x128_1_0_0_1_n_n : DotDims S32768x512 S512x128 S32768x128 where
  lhsContracting := [1]
  rhsContracting := [0]
  lhsNonContracting := [0]
  rhsNonContracting := [1]
  lhsBatch := []
  rhsBatch := []
  wf := dot_S32768x512_S512x128_S32768x128_1_0_0_1_n_n_wf
def dot_S32768x512_S512x2_S32768x2_1_0_0_1_n_n : DotDims S32768x512 S512x2 S32768x2 where
  lhsContracting := [1]
  rhsContracting := [0]
  lhsNonContracting := [0]
  rhsNonContracting := [1]
  lhsBatch := []
  rhsBatch := []
  wf := dot_S32768x512_S512x2_S32768x2_1_0_0_1_n_n_wf
def dot_S32768x32x4_S32768x32x3_S32768x4x3_1_1_2_2_0_0 : DotDims S32768x32x4 S32768x32x3 S32768x4x3 where
  lhsContracting := [1]
  rhsContracting := [1]
  lhsNonContracting := [2]
  rhsNonContracting := [2]
  lhsBatch := [0]
  rhsBatch := [0]
  wf := dot_S32768x32x4_S32768x32x3_S32768x4x3_1_1_2_2_0_0_wf
def gather_S32x4x1_S32768x1_S32768x4x1_12_0_n_n_0_1_141 : GatherDims S32x4x1 S32768x1 S32768x4x1 where
  offsetDims := [1, 2]
  collapsedSliceDims := [0]
  operandBatchingDims := []
  startIndicesBatchingDims := []
  startIndexMap := [0]
  indexVectorDim := 1
  sliceSizes := ![1, 4, 1]
  wf := gather_S32x4x1_S32768x1_S32768x4x1_12_0_n_n_0_1_141_wf

class Facts : Prop extends Facts₀ where

variable [Facts]
-- ==== Proof.Spec.lean ====
/-
  The two results of the atom network, one atom at a time, on the extended reals.

  For an atom with scalar features `x : Fin 256 → EReal` both results pass `x` through a three-layer perceptron
  `mlp x w1 w2 w3`: two hidden layers `h ↦ silu ((h · w) * s)` of width 512 and a linear last layer
  `h ↦ (h · w3) * s`, where `silu t = t · (1 / (1 + e^(-t)))` and the scale `s` is the printed word of `1/16` for the first
  layer and of `f32 (1/√512)` for the other two. The invariant result is the perceptron over the read-out weights. The
  equivariant result takes the perceptron's 128 outputs as a `32 × 4` matrix `W u v` (output `4u + v`), contracts it with the
  atom's `32 × 3` vector features (`mix`), divides each of the four resulting 3-vectors by its Euclidean length plus a small
  constant (`unit3`), and scales vector `v` by the bond length `b v` of the atom's type.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The printed scale of the first layer, the word of `1/16`. -/
def c16 : EReal := Ideal.ofBits .f32 0x3D800000#32
/-- The printed scale of the layers of fan-in 512, the word of `f32 (1/√512)`. -/
def cHid : EReal := Ideal.ofBits .f32 0x3D3504F3#32
/-- The printed scale of the contraction over the 32 input vectors, the word of `f32 (1/√32)`. -/
def cMul : EReal := Ideal.ofBits .f32 0x3E3504F3#32
/-- The printed constant added to a length before dividing by it, the word of `f32 1e-10`. -/
def cEps : EReal := Ideal.ofBits .f32 0x2EDBE6FF#32

/-- `silu t = t · σ(t)`, `σ` the logistic function `1 / (1 + e^(-t))`. -/
def silu (t : EReal) : EReal := t * Ideal.logistic t

/-- One linear layer: `(∑ k, x k · w k j) · s`. -/
def lin {n p : ℕ} (s : EReal) (x : Fin n → EReal) (w : Fin n → Fin p → EReal) (j : Fin p) : EReal :=
  (∑ k : Fin n, x k * w k j) * s

/-- The second hidden layer's pre-activation: `lin cHid (silu ∘ lin c16 x w1) w2`. -/
def hidden {n : ℕ} (x : Fin n → EReal) (w1 : Fin n → Fin 512 → EReal) (w2 : Fin 512 → Fin 512 → EReal) (k : Fin 512) : EReal :=
  lin cHid (fun k' => silu (lin c16 x w1 k')) w2 k

/-- The three-layer perceptron. -/
def mlp {n q : ℕ} (x : Fin n → EReal) (w1 : Fin n → Fin 512 → EReal) (w2 : Fin 512 → Fin 512 → EReal)
    (w3 : Fin 512 → Fin q → EReal) (j : Fin q) : EReal :=
  lin cHid (fun k => silu (hidden x w1 w2 k)) w3 j

/-- The contraction of the per-atom weights `W u v` with the atom's vectors `e u c` over `u`, scaled. -/
def mix (W : Fin 32 → Fin 4 → EReal) (e : Fin 32 → Fin 3 → EReal) (v : Fin 4) (c : Fin 3) : EReal :=
  (∑ u : Fin 32, W u v * e u c) * cMul

/-- Component `c` of a 3-vector divided by its length plus `cEps`. -/
def unit3 (r : Fin 3 → EReal) (c : Fin 3) : EReal :=
  Ideal.div (r c) (Ideal.sqrt (r 0 * r 0 + r 1 * r 1 + r 2 * r 2) + cEps)

/-- The indicator of `a = t` as an extended real, `a` a 32-bit word and `t` a type number below 32. -/
def oneHot (a : BitVec 32) (t : Fin 32) : EReal := if a = BitVec.ofNat 32 t.val then 1 else 0

/-- The type number of a word, reduced below 32 (the word itself when it is in range). -/
def tyOf (a : BitVec 32) : Fin 32 := ⟨a.toNat % 32, Nat.mod_lt _ (by norm_num)⟩

/-- One atom's equivariant vector `v` in the kernel's arrangement: the perceptron's 128 outputs read as `W (32v + u)`, the
    atom's vector features flattened as `e (32c + u)`, and the bond length as the indicator sum over the 32 types. -/
def eqRow (W : Fin 128 → EReal) (e : Fin 96 → EReal) (a : BitVec 32) (b : Fin 32 → EReal) (v : Fin 4) (c : Fin 3) : EReal :=
  unit3 (fun c' : Fin 3 => (∑ u : Fin 32, W ⟨v.val * 32 + u.val, by omega⟩ * e ⟨c'.val * 32 + u.val, by omega⟩) * cMul) c
    * ∑ t : Fin 32, oneHot a t * b t

/-! ## The results as functions of the argument arrays -/

section arrays

variable (a0 : (⟨2, ![32768, 256]⟩ : Shape).Idx → EReal) (a1 : (⟨3, ![32768, 32, 3]⟩ : Shape).Idx → EReal)
  (a2 : (⟨2, ![32768, 1]⟩ : Shape).Idx → BitVec 32)
  (a3 : (⟨2, ![256, 512]⟩ : Shape).Idx → EReal) (a4 : (⟨2, ![512, 512]⟩ : Shape).Idx → EReal)
  (a5 : (⟨2, ![512, 128]⟩ : Shape).Idx → EReal)
  (a6 : (⟨2, ![256, 512]⟩ : Shape).Idx → EReal) (a7 : (⟨2, ![512, 512]⟩ : Shape).Idx → EReal)
  (a8 : (⟨2, ![512, 2]⟩ : Shape).Idx → EReal) (a9 : (⟨3, ![32, 4, 1]⟩ : Shape).Idx → EReal)

/-- The invariant result of atom `n`, component `j`. -/
def invOut (n : Fin 32768) (j : Fin 2) : EReal :=
  mlp (fun k : Fin 256 => a0 (ix2 n k)) (fun k j => a6 (ix2 k j)) (fun k j => a7 (ix2 k j)) (fun k j => a8 (ix2 k j)) j

/-- The per-atom weight `W u v`: output `4u + v` of the perceptron over the latent weights. -/
def weight (n : Fin 32768) (u : Fin 32) (v : Fin 4) : EReal :=
  mlp (fun k : Fin 256 => a0 (ix2 n k)) (fun k j => a3 (ix2 k j)) (fun k j => a4 (ix2 k j)) (fun k j => a5 (ix2 k j))
    (⟨u.val * 4 + v.val, by omega⟩ : Fin 128)

/-- The equivariant result of atom `n`, vector `v`, component `c`. -/
def eqOut (n : Fin 32768) (v : Fin 4) (c : Fin 3) : EReal :=
  unit3 (mix (weight a0 a3 a4 a5 n) (fun u c => a1 (ix3 n u c)) v) c * a9 (ix3 (tyOf (a2 (ix2 n 0))) v 0)

end arrays

/-! ## Three facts of the extended reals the bridge uses -/

/-- The small constant is a positive real: the word `0x2EDBE6FF` is `14411519 · 2^(-57)`. -/
theorem cEps_eq : cEps = ((14411519 * (2 : ℝ) ^ (-57 : ℤ) : ℝ) : EReal) := by
  unfold cEps
  simp [Ideal.ofBits, Ideal.ieee, -EReal.coe_mul]

theorem cEps_real_pos : (0 : ℝ) < 14411519 * (2 : ℝ) ^ (-57 : ℤ) := by positivity

/-- A square is not negative, infinite or not. -/
theorem mul_self_nonneg_ereal (x : EReal) : 0 ≤ x * x := by
  induction x using EReal.rec with
  | bot => simp
  | coe r => exact_mod_cast mul_self_nonneg r
  | top => simp

/-- A number whose square is not `⊤` is real. -/
theorem real_of_mul_self_ne_top {x : EReal} (h : x * x ≠ ⊤) : ∃ r : ℝ, x = r := by
  induction x using EReal.rec with
  | bot => simp at h
  | coe r => exact ⟨r, rfl⟩
  | top => simp at h

theorem sqrt_top : Ideal.sqrt ⊤ = ⊤ := rfl
theorem sqrt_coe (x : ℝ) : Ideal.sqrt (x : EReal) = if x < 0 then ⊥ else ((Real.sqrt x : ℝ) : EReal) := rfl

/-- The denominator of `unit3` is `⊤` (when some component is infinite), or else a positive real, and then every
    component is real: a sum of squares that is not `⊤` has every square real. -/
theorem den_cases (r : Fin 3 → EReal) :
    Ideal.sqrt (r 0 * r 0 + r 1 * r 1 + r 2 * r 2) + cEps = ⊤
    ∨ ∃ d : ℝ, 0 < d ∧ Ideal.sqrt (r 0 * r 0 + r 1 * r 1 + r 2 * r 2) + cEps = (d : EReal) ∧ ∀ c : Fin 3, ∃ x : ℝ, r c = x := by
  have h0 := mul_self_nonneg_ereal (r 0); have h1 := mul_self_nonneg_ereal (r 1); have h2 := mul_self_nonneg_ereal (r 2)
  by_cases hS : r 0 * r 0 + r 1 * r 1 + r 2 * r 2 = ⊤
  · left; rw [hS, cEps_eq, sqrt_top]; exact EReal.top_add_coe _
  · right
    have n2 : r 2 * r 2 ≠ ⊤ := fun h => hS (by rw [h]; exact EReal.add_top_of_ne_bot (ne_of_gt (lt_of_lt_of_le EReal.bot_lt_zero (add_nonneg h0 h1))))
    have n01 : r 0 * r 0 + r 1 * r 1 ≠ ⊤ := fun h => hS (by rw [h]; exact EReal.top_add_of_ne_bot (ne_of_gt (lt_of_lt_of_le EReal.bot_lt_zero h2)))
    have n1 : r 1 * r 1 ≠ ⊤ := fun h => n01 (by rw [h]; exact EReal.add_top_of_ne_bot (ne_of_gt (lt_of_lt_of_le EReal.bot_lt_zero h0)))
    have n0 : r 0 * r 0 ≠ ⊤ := fun h => n01 (by rw [h]; exact EReal.top_add_of_ne_bot (ne_of_gt (lt_of_lt_of_le EReal.bot_lt_zero h1)))
    obtain ⟨x0, e0⟩ := real_of_mul_self_ne_top n0
    obtain ⟨x1, e1⟩ := real_of_mul_self_ne_top n1
    obtain ⟨x2, e2⟩ := real_of_mul_self_ne_top n2
    refine ⟨Real.sqrt (x0 * x0 + x1 * x1 + x2 * x2) + 14411519 * (2 : ℝ) ^ (-57 : ℤ), ?_, ?_, ?_⟩
    · have := Real.sqrt_nonneg (x0 * x0 + x1 * x1 + x2 * x2); have := cEps_real_pos; linarith
    · rw [e0, e1, e2, cEps_eq]
      have hs : ((x0 : EReal) * x0 + (x1 : EReal) * x1 + (x2 : EReal) * x2) = ((x0 * x0 + x1 * x1 + x2 * x2 : ℝ) : EReal) := by
        rw [← EReal.coe_mul, ← EReal.coe_mul, ← EReal.coe_mul, ← EReal.coe_add, ← EReal.coe_add]
      rw [hs]
      have hn : ¬ (x0 * x0 + x1 * x1 + x2 * x2 < 0) :=
        not_lt.mpr (by nlinarith [mul_self_nonneg x0, mul_self_nonneg x1, mul_self_nonneg x2])
      rw [sqrt_coe, if_neg hn]
      exact (EReal.coe_add _ _).symm
    · intro c
      match c with
      | ⟨0, _⟩ => exact ⟨x0, e0⟩
      | ⟨1, _⟩ => exact ⟨x1, e1⟩
      | ⟨2, _⟩ => exact ⟨x2, e2⟩

/-- A component over the length plus the positive constant is a real number: over `⊤` it is `0`, over a positive
    real it is the quotient of two reals. -/
theorem unit3_real (r : Fin 3 → EReal) (c : Fin 3) : ∃ q : ℝ, unit3 r c = q := by
  unfold unit3
  rcases den_cases r with h | ⟨d, hd, h, hr⟩
  · rw [h]; refine ⟨0, ?_⟩; unfold Ideal.div; rw [if_neg (by simp)]; simp
  · obtain ⟨x, hx⟩ := hr c
    rw [h, hx]
    refine ⟨x * d⁻¹, ?_⟩
    unfold Ideal.div
    rw [if_neg (by exact_mod_cast (ne_of_gt hd))]
    rw [← EReal.coe_inv, ← EReal.coe_mul]

/-- A component over the length plus a positive constant is never `+∞`. -/
theorem unit3_ne_top (r : Fin 3 → EReal) (c : Fin 3) : unit3 r c ≠ ⊤ := by
  obtain ⟨q, h⟩ := unit3_real r c; rw [h]; exact EReal.coe_ne_top q

/-- … nor `-∞`. -/
theorem unit3_ne_bot (r : Fin 3 → EReal) (c : Fin 3) : unit3 r c ≠ ⊥ := by
  obtain ⟨q, h⟩ := unit3_real r c; rw [h]; exact EReal.coe_ne_bot q

/-- The indicator sum picks one entry: `∑ t, [a = t] · b t = b a` for a word below 32 (the term `t = a` is `1 · b a`,
    every other `0 · b t = 0`). -/
theorem oneHot_sum (a : BitVec 32) (h : a.toNat < 32) (b : Fin 32 → EReal) :
    ∑ t : Fin 32, oneHot a t * b t = b (tyOf a) := by
  have hmod : a.toNat % 32 = a.toNat := Nat.mod_eq_of_lt h
  rw [Finset.sum_eq_single (tyOf a)]
  · have : oneHot a (tyOf a) = 1 := by
      unfold oneHot tyOf
      rw [if_pos]
      show a = BitVec.ofNat 32 (a.toNat % 32)
      rw [hmod, BitVec.ofNat_toNat, BitVec.setWidth_eq]
    rw [this, one_mul]
  · intro t _ hne
    have : oneHot a t = 0 := by
      unfold oneHot
      rw [if_neg]
      intro ha
      apply hne
      apply Fin.ext
      show t.val = a.toNat % 32
      rw [hmod, ha, BitVec.toNat_ofNat]
      have := t.isLt
      omega
    rw [this, zero_mul]
  · intro hn; exact absurd (Finset.mem_univ _) hn

end Cert.Spec

end
-- ==== Proof.SpecLaws.lean ====
/-
  The kernel's arrangement of one atom's equivariant vector (`eqRow`: last-layer columns permuted so that output `32v + u` is the
  reference's output `4u + v`, vector features flattened as `32c + u`) is the reference's arrangement (`mix` of the
  `[u, v]` weights with the `[u, c]` features, `unit3`, the bond length of the type).
-/
import proofs.«428606_j73186242724417_3_alg».proof.Proof.Spec

noncomputable section

open scoped BigOperators

namespace Cert.Spec

open Idealize.ShloMosaic

/-- The kernel's arrangement is the reference's: with `w3' k (32v + u) = w3 k (4u + v)` and `e (32c + u) = E u c`. -/
theorem eqRow_eq {n : ℕ} (x : Fin n → EReal) (w1 : Fin n → Fin 512 → EReal) (w2 : Fin 512 → Fin 512 → EReal)
    (w3 w3' : Fin 512 → Fin 128 → EReal)
    (hw : ∀ (k : Fin 512) (v : Fin 4) (u : Fin 32), w3' k ⟨v.val * 32 + u.val, by omega⟩ = w3 k ⟨u.val * 4 + v.val, by omega⟩)
    (e : Fin 96 → EReal) (E : Fin 32 → Fin 3 → EReal)
    (he : ∀ (c : Fin 3) (u : Fin 32), e ⟨c.val * 32 + u.val, by omega⟩ = E u c)
    (a : BitVec 32) (ha : a.toNat < 32) (b : Fin 32 → EReal) (v : Fin 4) (c : Fin 3) :
    eqRow (mlp x w1 w2 w3') e a b v c
      = unit3 (mix (fun (u : Fin 32) (v : Fin 4) => mlp x w1 w2 w3 (⟨u.val * 4 + v.val, by omega⟩ : Fin 128)) E v) c * b (tyOf a) := by
  unfold eqRow
  rw [oneHot_sum a ha b]
  have hW : ∀ u : Fin 32, mlp x w1 w2 w3' (⟨v.val * 32 + u.val, by omega⟩ : Fin 128)
      = mlp x w1 w2 w3 (⟨u.val * 4 + v.val, by omega⟩ : Fin 128) := by
    intro u
    unfold mlp lin
    exact congrArg (· * cHid) (Finset.sum_congr rfl fun k _ => by rw [hw k v u])
  have hr : (fun c' : Fin 3 => (∑ u : Fin 32, mlp x w1 w2 w3' (⟨v.val * 32 + u.val, by omega⟩ : Fin 128) * e ⟨c'.val * 32 + u.val, by omega⟩) * cMul)
      = mix (fun (u : Fin 32) (v : Fin 4) => mlp x w1 w2 w3 (⟨u.val * 4 + v.val, by omega⟩ : Fin 128)) E v := by
    funext c'
    unfold mix
    exact congrArg (· * cMul) (Finset.sum_congr rfl fun u _ => by rw [hW u, he c' u])
  rw [hr]

end Cert.Spec

end
-- ==== Proof.KMlp.lean ====
/-
  The kernel body's two perceptron chains read at one element: row `p` of the block's perceptron output depends on row `p`
  of the scalar-feature block only, and is the specification's `mlp` / `hidden` of that row (a matrix product into a zero
  accumulator is the plain sum over the contracted axis; a change of float format is the identity).
-/
import proofs.«428606_j73186242724417_3_alg».proof.Proof.Gen.KernelIdeal.Frame
import proofs.«428606_j73186242724417_3_alg».proof.Proof.Spec
import Idealize.ShloMosaic.PureOps.Ideal.Laws
import Idealize.ShloMosaic.Lib.Pipeline.Value

noncomputable section

open scoped BigOperators

namespace Cert.KernelIdeal.Pay

open Cert.KernelIdeal Cert.KernelIdeal.Gen Idealize.ShloMosaic Idealize.ShloMosaic.ValueIdx

/-! ### The first layer's product, a 2048×256 by a 256×512 matrix -/

/-- The left operand is read on the output's row … -/
theorem mlpL1_lhs_0 (j : S2048x512.Idx) (k : dot_S2048x256_S256x512_S2048x512_1_0_0_1_n_n.contr.Idx) :
    ((dot_S2048x256_S256x512_S2048x512_1_0_0_1_n_n.lhsIdx j k) 0).val = (j 0).val := by
  simp [DotDims.lhsIdx, dot_S2048x256_S256x512_S2048x512_1_0_0_1_n_n]; rfl
/-- … and at the contracted position; -/
theorem mlpL1_lhs_1 (j : S2048x512.Idx) (k : dot_S2048x256_S256x512_S2048x512_1_0_0_1_n_n.contr.Idx) :
    ((dot_S2048x256_S256x512_S2048x512_1_0_0_1_n_n.lhsIdx j k) 1).val = (k ⟨0, by decide⟩).val :=
  DotDims.lhsIdx_val_of_single dot_S2048x256_S256x512_S2048x512_1_0_0_1_n_n (cl := 1) rfl j k
/-- the right operand at the contracted position … -/
theorem mlpL1_rhs_0 (j : S2048x512.Idx) (k : dot_S2048x256_S256x512_S2048x512_1_0_0_1_n_n.contr.Idx) :
    ((dot_S2048x256_S256x512_S2048x512_1_0_0_1_n_n.rhsIdx j k) 0).val = (k ⟨0, by decide⟩).val :=
  DotDims.rhsIdx_val_of_single dot_S2048x256_S256x512_S2048x512_1_0_0_1_n_n (cr := 0) rfl j k
/-- … and on the output's column. -/
theorem mlpL1_rhs_1 (j : S2048x512.Idx) (k : dot_S2048x256_S256x512_S2048x512_1_0_0_1_n_n.contr.Idx) :
    ((dot_S2048x256_S256x512_S2048x512_1_0_0_1_n_n.rhsIdx j k) 1).val = (j 1).val := by
  simp [DotDims.rhsIdx, dot_S2048x256_S256x512_S2048x512_1_0_0_1_n_n]; rfl

/-- Into a zero accumulator the product at `(p, j)` is `∑ k, A p k · B k j`. -/
theorem mlpL1_matmul_apply (A : FVec Ideal S2048x256 .bf16) (B : FVec Ideal S256x512 .bf16) (p : Fin 2048) (j : Fin 512) :
    matmul dot_S2048x256_S256x512_S2048x512_1_0_0_1_n_n none A B (constant (F := Ideal) S2048x512 .f32 0x00000000#32) (ix2 p j)
      = ∑ k : Fin 256, A (ix2 p k) * B (ix2 k j) := by
  show FloatOps.matmul dot_S2048x256_S256x512_S2048x512_1_0_0_1_n_n none A B _ (ix2 p j) = _
  rw [Ideal.matmul_constant_zero_apply,
    ← Equiv.sum_comp (contrEquiv1 dot_S2048x256_S256x512_S2048x512_1_0_0_1_n_n 256 rfl rfl).symm]
  refine Finset.sum_congr rfl fun c _ => ?_
  have hc := contrEquiv1_symm_val dot_S2048x256_S256x512_S2048x512_1_0_0_1_n_n 256 rfl rfl c
  have hl : dot_S2048x256_S256x512_S2048x512_1_0_0_1_n_n.lhsIdx (ix2 p j) ((contrEquiv1 dot_S2048x256_S256x512_S2048x512_1_0_0_1_n_n 256 rfl rfl).symm c) = ix2 p c := by
    funext ax; apply Fin.ext
    match ax with
    | ⟨0, _⟩ => exact mlpL1_lhs_0 _ _
    | ⟨1, _⟩ => exact (mlpL1_lhs_1 _ _).trans hc
  have hr : dot_S2048x256_S256x512_S2048x512_1_0_0_1_n_n.rhsIdx (ix2 p j) ((contrEquiv1 dot_S2048x256_S256x512_S2048x512_1_0_0_1_n_n 256 rfl rfl).symm c) = ix2 c j := by
    funext ax; apply Fin.ext
    match ax with
    | ⟨0, _⟩ => exact (mlpL1_rhs_0 _ _).trans hc
    | ⟨1, _⟩ => exact mlpL1_rhs_1 _ _
  rw [hl, hr]

/-- The layer's pre-activation at `(p, j)`: the product with the weights, times the printed scale. -/
theorem mlpL1_lin_apply (A : FVec Ideal S2048x256 .bf16) (B : FVec Ideal S256x512 .bf16) (h : S256x512.ShapeCasts S256x512)
    (w : BitVec 32) (p : Fin 2048) (j : Fin 512) :
    mulf (matmul dot_S2048x256_S256x512_S2048x512_1_0_0_1_n_n none A (shapeCast S256x512 B h) (constant (F := Ideal) S2048x512 .f32 0x00000000#32))
        (broadcast S2048x512 (Scalar.ofBits (F := Ideal) .f32 w)) (ix2 p j)
      = Cert.Spec.lin (Ideal.ofBits .f32 w) (fun k : Fin 256 => A (ix2 p k)) (fun k j => B (ix2 k j)) j := by
  rw [shapeCast_self]
  show matmul dot_S2048x256_S256x512_S2048x512_1_0_0_1_n_n none A B (constant (F := Ideal) S2048x512 .f32 0x00000000#32) (ix2 p j) * _ = _
  rw [mlpL1_matmul_apply]
  rfl

/-! ### The second layer's product, a 2048×512 by a 512×512 matrix -/

/-- The left operand is read on the output's row … -/
theorem mlpL2_lhs_0 (j : S2048x512.Idx) (k : dot_S2048x512_S512x512_S2048x512_1_0_0_1_n_n.contr.Idx) :
    ((dot_S2048x512_S512x512_S2048x512_1_0_0_1_n_n.lhsIdx j k) 0).val = (j 0).val := by
  simp [DotDims.lhsIdx, dot_S2048x512_S512x512_S2048x512_1_0_0_1_n_n]; rfl
/-- … and at the contracted position; -/
theorem mlpL2_lhs_1 (j : S2048x512.Idx) (k : dot_S2048x512_S512x512_S2048x512_1_0_0_1_n_n.contr.Idx) :
    ((dot_S2048x512_S512x512_S2048x512_1_0_0_1_n_n.lhsIdx j k) 1).val = (k ⟨0, by decide⟩).val :=
  DotDims.lhsIdx_val_of_single dot_S2048x512_S512x512_S2048x512_1_0_0_1_n_n (cl := 1) rfl j k
/-- the right operand at the contracted position … -/
theorem mlpL2_rhs_0 (j : S2048x512.Idx) (k : dot_S2048x512_S512x512_S2048x512_1_0_0_1_n_n.contr.Idx) :
    ((dot_S2048x512_S512x512_S2048x512_1_0_0_1_n_n.rhsIdx j k) 0).val = (k ⟨0, by decide⟩).val :=
  DotDims.rhsIdx_val_of_single dot_S2048x512_S512x512_S2048x512_1_0_0_1_n_n (cr := 0) rfl j k
/-- … and on the output's column. -/
theorem mlpL2_rhs_1 (j : S2048x512.Idx) (k : dot_S2048x512_S512x512_S2048x512_1_0_0_1_n_n.contr.Idx) :
    ((dot_S2048x512_S512x512_S2048x512_1_0_0_1_n_n.rhsIdx j k) 1).val = (j 1).val := by
  simp [DotDims.rhsIdx, dot_S2048x512_S512x512_S2048x512_1_0_0_1_n_n]; rfl

/-- Into a zero accumulator the product at `(p, j)` is `∑ k, A p k · B k j`. -/
theorem mlpL2_matmul_apply (A : FVec Ideal S2048x512 .bf16) (B : FVec Ideal S512x512 .bf16) (p : Fin 2048) (j : Fin 512) :
    matmul dot_S2048x512_S512x512_S2048x512_1_0_0_1_n_n none A B (constant (F := Ideal) S2048x512 .f32 0x00000000#32) (ix2 p j)
      = ∑ k : Fin 512, A (ix2 p k) * B (ix2 k j) := by
  show FloatOps.matmul dot_S2048x512_S512x512_S2048x512_1_0_0_1_n_n none A B _ (ix2 p j) = _
  rw [Ideal.matmul_constant_zero_apply,
    ← Equiv.sum_comp (contrEquiv1 dot_S2048x512_S512x512_S2048x512_1_0_0_1_n_n 512 rfl rfl).symm]
  refine Finset.sum_congr rfl fun c _ => ?_
  have hc := contrEquiv1_symm_val dot_S2048x512_S512x512_S2048x512_1_0_0_1_n_n 512 rfl rfl c
  have hl : dot_S2048x512_S512x512_S2048x512_1_0_0_1_n_n.lhsIdx (ix2 p j) ((contrEquiv1 dot_S2048x512_S512x512_S2048x512_1_0_0_1_n_n 512 rfl rfl).symm c) = ix2 p c := by
    funext ax; apply Fin.ext
    match ax with
    | ⟨0, _⟩ => exact mlpL2_lhs_0 _ _
    | ⟨1, _⟩ => exact (mlpL2_lhs_1 _ _).trans hc
  have hr : dot_S2048x512_S512x512_S2048x512_1_0_0_1_n_n.rhsIdx (ix2 p j) ((contrEquiv1 dot_S2048x512_S512x512_S2048x512_1_0_0_1_n_n 512 rfl rfl).symm c) = ix2 c j := by
    funext ax; apply Fin.ext
    match ax with
    | ⟨0, _⟩ => exact (mlpL2_rhs_0 _ _).trans hc
    | ⟨1, _⟩ => exact mlpL2_rhs_1 _ _
  rw [hl, hr]

/-- The layer's pre-activation at `(p, j)`: the product with the weights, times the printed scale. -/
theorem mlpL2_lin_apply (A : FVec Ideal S2048x512 .bf16) (B : FVec Ideal S512x512 .bf16) (h : S512x512.ShapeCasts S512x512)
    (w : BitVec 32) (p : Fin 2048) (j : Fin 512) :
    mulf (matmul dot_S2048x512_S512x512_S2048x512_1_0_0_1_n_n none A (shapeCast S512x512 B h) (constant (F := Ideal) S2048x512 .f32 0x00000000#32))
        (broadcast S2048x512 (Scalar.ofBits (F := Ideal) .f32 w)) (ix2 p j)
      = Cert.Spec.lin (Ideal.ofBits .f32 w) (fun k : Fin 512 => A (ix2 p k)) (fun k j => B (ix2 k j)) j := by
  rw [shapeCast_self]
  show matmul dot_S2048x512_S512x512_S2048x512_1_0_0_1_n_n none A B (constant (F := Ideal) S2048x512 .f32 0x00000000#32) (ix2 p j) * _ = _
  rw [mlpL2_matmul_apply]
  rfl

/-! ### The last layer's product, a 2048×512 by a 512×128 matrix -/

/-- The left operand is read on the output's row … -/
theorem mlpL3_lhs_0 (j : S2048x128.Idx) (k : dot_S2048x512_S512x128_S2048x128_1_0_0_1_n_n.contr.Idx) :
    ((dot_S2048x512_S512x128_S2048x128_1_0_0_1_n_n.lhsIdx j k) 0).val = (j 0).val := by
  simp [DotDims.lhsIdx, dot_S2048x512_S512x128_S2048x128_1_0_0_1_n_n]; rfl
/-- … and at the contracted position; -/
theorem mlpL3_lhs_1 (j : S2048x128.Idx) (k : dot_S2048x512_S512x128_S2048x128_1_0_0_1_n_n.contr.Idx) :
    ((dot_S2048x512_S512x128_S2048x128_1_0_0_1_n_n.lhsIdx j k) 1).val = (k ⟨0, by decide⟩).val :=
  DotDims.lhsIdx_val_of_single dot_S2048x512_S512x128_S2048x128_1_0_0_1_n_n (cl := 1) rfl j k
/-- the right operand at the contracted position … -/
theorem mlpL3_rhs_0 (j : S2048x128.Idx) (k : dot_S2048x512_S512x128_S2048x128_1_0_0_1_n_n.contr.Idx) :
    ((dot_S2048x512_S512x128_S2048x128_1_0_0_1_n_n.rhsIdx j k) 0).val = (k ⟨0, by decide⟩).val :=
  DotDims.rhsIdx_val_of_single dot_S2048x512_S512x128_S2048x128_1_0_0_1_n_n (cr := 0) rfl j k
/-- … and on the output's column. -/
theorem mlpL3_rhs_1 (j : S2048x128.Idx) (k : dot_S2048x512_S512x128_S2048x128_1_0_0_1_n_n.contr.Idx) :
    ((dot_S2048x512_S512x128_S2048x128_1_0_0_1_n_n.rhsIdx j k) 1).val = (j 1).val := by
  simp [DotDims.rhsIdx, dot_S2048x512_S512x128_S2048x128_1_0_0_1_n_n]; rfl

/-- Into a zero accumulator the product at `(p, j)` is `∑ k, A p k · B k j`. -/
theorem mlpL3_matmul_apply (A : FVec Ideal S2048x512 .bf16) (B : FVec Ideal S512x128 .bf16) (p : Fin 2048) (j : Fin 128) :
    matmul dot_S2048x512_S512x128_S2048x128_1_0_0_1_n_n none A B (constant (F := Ideal) S2048x128 .f32 0x00000000#32) (ix2 p j)
      = ∑ k : Fin 512, A (ix2 p k) * B (ix2 k j) := by
  show FloatOps.matmul dot_S2048x512_S512x128_S2048x128_1_0_0_1_n_n none A B _ (ix2 p j) = _
  rw [Ideal.matmul_constant_zero_apply,
    ← Equiv.sum_comp (contrEquiv1 dot_S2048x512_S512x128_S2048x128_1_0_0_1_n_n 512 rfl rfl).symm]
  refine Finset.sum_congr rfl fun c _ => ?_
  have hc := contrEquiv1_symm_val dot_S2048x512_S512x128_S2048x128_1_0_0_1_n_n 512 rfl rfl c
  have hl : dot_S2048x512_S512x128_S2048x128_1_0_0_1_n_n.lhsIdx (ix2 p j) ((contrEquiv1 dot_S2048x512_S512x128_S2048x128_1_0_0_1_n_n 512 rfl rfl).symm c) = ix2 p c := by
    funext ax; apply Fin.ext
    match ax with
    | ⟨0, _⟩ => exact mlpL3_lhs_0 _ _
    | ⟨1, _⟩ => exact (mlpL3_lhs_1 _ _).trans hc
  have hr : dot_S2048x512_S512x128_S2048x128_1_0_0_1_n_n.rhsIdx (ix2 p j) ((contrEquiv1 dot_S2048x512_S512x128_S2048x128_1_0_0_1_n_n 512 rfl rfl).symm c) = ix2 c j := by
    funext ax; apply Fin.ext
    match ax with
    | ⟨0, _⟩ => exact (mlpL3_rhs_0 _ _).trans hc
    | ⟨1, _⟩ => exact mlpL3_rhs_1 _ _
  rw [hl, hr]

/-- The layer's pre-activation at `(p, j)`: the product with the weights, times the printed scale. -/
theorem mlpL3_lin_apply (A : FVec Ideal S2048x512 .bf16) (B : FVec Ideal S512x128 .bf16) (h : S512x128.ShapeCasts S512x128)
    (w : BitVec 32) (p : Fin 2048) (j : Fin 128) :
    mulf (matmul dot_S2048x512_S512x128_S2048x128_1_0_0_1_n_n none A (shapeCast S512x128 B h) (constant (F := Ideal) S2048x128 .f32 0x00000000#32))
        (broadcast S2048x128 (Scalar.ofBits (F := Ideal) .f32 w)) (ix2 p j)
      = Cert.Spec.lin (Ideal.ofBits .f32 w) (fun k : Fin 512 => A (ix2 p k)) (fun k j => B (ix2 k j)) j := by
  rw [shapeCast_self]
  show matmul dot_S2048x512_S512x128_S2048x128_1_0_0_1_n_n none A B (constant (F := Ideal) S2048x128 .f32 0x00000000#32) (ix2 p j) * _ = _
  rw [mlpL3_matmul_apply]
  rfl

/-- A value times its logistic, narrowed, at an index: the specification's `silu` of the value there. -/
theorem mlp_silu_apply {s : Shape} (L : FVec Ideal s .f32) (h : FTy.bits .bf16 < FTy.bits .f32) (i : s.Idx) :
    (truncf .bf16 (mulf L (logistic L)) h : FVec Ideal s .bf16) i = Cert.Spec.silu (L i) := rfl

/-! ### The two chains at an element -/

/-- The read-out chain's second pre-activation, at row `p` and unit `k`. -/
theorem pay3_apply (x0 : Vec Ideal S2048x256 .f32) (w1 : Vec Ideal S256x512 .bf16) (w2 : Vec Ideal S512x512 .bf16)
    (p : Fin 2048) (k : Fin 512) :
    k0_pay3 (F := Ideal) x0 w1 w2 (ix2 p k)
      = Cert.Spec.hidden (fun k : Fin 256 => x0 (ix2 p k)) (fun k j => w1 (ix2 k j)) (fun k j => w2 (ix2 k j)) k := by
  unfold k0_pay3
  -- the second layer over the first layer's activations …
  refine (mlpL2_lin_apply _ _ _ _ p k).trans ?_
  unfold Cert.Spec.hidden
  refine congrArg (fun f => Cert.Spec.lin Cert.Spec.cHid f (fun k j => w2 (ix2 k j)) k) (funext fun c => ?_)
  -- … each of which is `silu` of the first layer at row `p`
  refine (mlp_silu_apply _ _ _).trans (congrArg Cert.Spec.silu ?_)
  exact mlpL1_lin_apply (k0_pay1 x0) w1 _ _ p c

/-- Its logistic. -/
theorem pay4_apply (x0 : Vec Ideal S2048x256 .f32) (w1 : Vec Ideal S256x512 .bf16) (w2 : Vec Ideal S512x512 .bf16)
    (p : Fin 2048) (k : Fin 512) :
    k0_pay4 (F := Ideal) x0 w1 w2 (ix2 p k)
      = Ideal.logistic (Cert.Spec.hidden (fun k : Fin 256 => x0 (ix2 p k)) (fun k j => w1 (ix2 k j)) (fun k j => w2 (ix2 k j)) k) :=
  congrArg Ideal.logistic (pay3_apply x0 w1 w2 p k)

/-- The latent perceptron of the block, at row `p` and output `j`. -/
theorem pay2_apply (x0 : Vec Ideal S2048x256 .f32) (w1 : Vec Ideal S256x512 .bf16) (w2 : Vec Ideal S512x512 .bf16)
    (w3 : Vec Ideal S512x128 .bf16) (p : Fin 2048) (j : Fin 128) :
    k0_pay2 (F := Ideal) x0 w1 w2 w3 (ix2 p j)
      = Cert.Spec.mlp (fun k : Fin 256 => x0 (ix2 p k)) (fun k j => w1 (ix2 k j)) (fun k j => w2 (ix2 k j))
          (fun k j => w3 (ix2 k j)) j := by
  unfold k0_pay2
  -- the last layer over the second layer's activations …
  refine (mlpL3_lin_apply _ _ _ _ p j).trans ?_
  unfold Cert.Spec.mlp
  refine congrArg (fun f => Cert.Spec.lin Cert.Spec.cHid f (fun k j => w3 (ix2 k j)) j) (funext fun c => ?_)
  -- … each of which is `silu` of the second pre-activation at row `p`, the same chain as the read-out's
  refine (mlp_silu_apply _ _ _).trans (congrArg Cert.Spec.silu ?_)
  exact pay3_apply x0 w1 w2 p c

end Cert.KernelIdeal.Pay

end
-- ==== Proof.KInv.lean ====
/-
  The invariant result's block: the read-out chain's last layer is done in the kernel as a product with a broadcast row of
  the transposed weights and a sum along the row, per output column, and the two columns are laid side by side. At row
  `p`, column `j` this is the specification's perceptron of row `p` of the scalar-feature block with last-layer weights
  `w3 k j = x8 (j, k)`.
-/
import proofs.«428606_j73186242724417_3_alg».proof.Proof.Gen.KernelIdeal.Frame
import proofs.«428606_j73186242724417_3_alg».proof.Proof.Spec
import proofs.«428606_j73186242724417_3_alg».proof.Proof.KMlp
import Idealize.ShloMosaic.PureOps.Ideal.Laws
import Idealize.ShloMosaic.Lib.Pipeline.Value
import Idealize.ShloMosaic.Lib.ValueLayout

noncomputable section

open scoped BigOperators

namespace Cert.KernelIdeal.Pay

open Cert.KernelIdeal Cert.KernelIdeal.Gen Idealize.ShloMosaic Idealize.ShloMosaic.ValueIdx

/-- A vector viewed as a one-column matrix reads, at row `i` of its only column, the vector at `i`: both sit at
    row-major position `i`. -/
theorem inv_shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum along a row of a `2048 × 512` matrix, at row `r`, is the sum of that row's 512 entries. -/
theorem inv_rowSum_apply (src : FVec Ideal S2048x512 .f32) (h : S2048x512.Reduces [1] S2048) (hφ : FKind.Formats .f32)
    (hacc : (0x00000000#32 : BitVec 32) = 0x00000000#32) (r : Fin 2048) :
    multiReduction (F := Ideal) .add [1] S2048 src 0x00000000#32 h hφ hacc (ix1 r) = ∑ k : Fin 512, src (ix2 r k) := by
  refine (Ideal.multiReduction_add_single src 0x00000000#32 h hφ hacc (ix1 r)).trans ?_
  refine Finset.sum_congr rfl fun k _ => congrArg src ?_
  funext a
  match a with
  | ⟨0, _⟩ => rfl
  | ⟨1, _⟩ => rfl

/-- One output column. Row `j` of the weights (the slice of height one starting at row `o = j`), laid over every row of the
    elementwise product `h · g`, multiplied in and summed along the row, then scaled: at row `p` of the resulting column
    this is `(∑ k, (h (p,k) · g (p,k)) · w (j,k)) · cHid`. -/
theorem inv_column_apply (h g : FVec Ideal S2048x512 .f32) (w : Vec Ideal S2x512 .f32) (o : ℕ)
    (hs : S2x512.Slices ![o, 0] S1x512) (j : Fin 2) (hj : j.val = o)
    (hr : S2048x512.Reduces [1] S2048) (hφ : FKind.Formats .f32) (hacc : (0x00000000#32 : BitVec 32) = 0x00000000#32)
    (p : Fin 2048) (u : Fin 1) :
    mulf (shapeCast S2048x1 (multiReduction (F := Ideal) .add [1] S2048
            (mulf (mulf h g) (broadcastTo S2048x512 (shapeCast S1x512 (extractStridedSlice S1x512 ![o, 0]
              (shapeCast S2x512 w shapeCasts_S2x512_S2x512) hs) shapeCasts_S1x512_S1x512) broadcasts_S1x512_S2048x512))
            0x00000000#32 hr hφ hacc) shapeCasts_S2048_S2048x1)
        (broadcast S2048x1 (Scalar.ofBits (F := Ideal) .f32 0x3D3504F3#32)) (ix2 p u)
      = (∑ k : Fin 512, (h (ix2 p k) * g (ix2 p k)) * w (ix2 j k)) * Cert.Spec.cHid := by
  rw [mulf_apply, broadcast_apply]
  refine congrArg₂ (· * ·) ?_ rfl
  refine (inv_shapeCast_a_a1_apply _ _ p u).trans ?_
  refine (inv_rowSum_apply _ hr hφ hacc p).trans ?_
  refine Finset.sum_congr rfl fun k _ => ?_
  rw [mulf_apply, mulf_apply]
  refine congrArg (h (ix2 p k) * g (ix2 p k) * ·) ?_
  refine (broadcastTo_1b_ab_apply _ _ p k).trans ?_
  rw [shapeCast_self]
  refine (slice2_axis0_apply o _ hs (0 : Fin 1) k j (hj.trans (Nat.add_zero o).symm)).trans ?_
  rw [shapeCast_self]

/-- The last read-out layer of the block, from the second layer's pre-activation `h` and its logistic `g`. -/
theorem pay5_apply (h g : FVec Ideal S2048x512 .f32) (w : Vec Ideal S2x512 .f32) (p : Fin 2048) (j : Fin 2) :
    k0_pay5 (F := Ideal) h g w (ix2 p j)
      = (∑ k : Fin 512, (h (ix2 p k) * g (ix2 p k)) * w (ix2 j k)) * Cert.Spec.cHid := by
  unfold k0_pay5
  match j with
  | ⟨0, hj⟩ =>
    -- column 0 lies in the first of the two pieces laid side by side
    refine (concatenate_pair_apply_left (t := S2048x2) (s₁ := S2048x1) (s₂ := S2048x1) (1 : Fin 2) _ _
      concatenates_S2048x1_S2048x1_S2048x2_d1 (ix2 p (⟨0, hj⟩ : Fin 2)) (rfl : S2048x1.rank = S2048x2.rank)
      (ix2 p (0 : Fin 1)) (fun b => ?_)).trans ?_
    · match b with
      | ⟨0, _⟩ => rfl
      | ⟨1, _⟩ => rfl
    · exact inv_column_apply h g w 0 _ _ rfl _ _ _ p 0
  | ⟨1, hj⟩ =>
    -- column 1 is the second piece's only column: one past the first piece's width 1
    refine (concatenate_pair_apply_right (t := S2048x2) (s₁ := S2048x1) (s₂ := S2048x1) (1 : Fin 2) _ _
      concatenates_S2048x1_S2048x1_S2048x2_d1 (ix2 p (⟨1, hj⟩ : Fin 2)) (rfl : S2048x1.rank = S2048x2.rank)
      (rfl : S2048x1.rank = S2048x2.rank) (ix2 p (0 : Fin 1)) (fun b hb => ?_) rfl).trans ?_
    · match b with
      | ⟨0, _⟩ => rfl
      | ⟨1, _⟩ => exact absurd rfl hb
    · exact inv_column_apply h g w 1 _ _ rfl _ _ _ p 0

/-- The invariant result's staging buffer after the body, at row `p` and column `j`. -/
theorem out0_10_apply (x0 : Vec Ideal S2048x256 .f32) (x1 : Vec Ideal S2048x96 .f32) (x2 : Vec Ideal S2048x1 .i32) (x3 : Vec Ideal S256x512 .bf16) (x4 : Vec Ideal S512x512 .bf16) (x5 : Vec Ideal S512x128 .bf16) (x6 : Vec Ideal S256x512 .bf16) (x7 : Vec Ideal S512x512 .bf16) (x8 : Vec Ideal S2x512 .f32) (x9 : Vec Ideal S4x32 .f32) (p : Fin 2048) (j : Fin 2) :
    out0_10 (F := Ideal) x0 x1 x2 x3 x4 x5 x6 x7 x8 x9 (ix2 p j)
      = Cert.Spec.mlp (fun k : Fin 256 => x0 (ix2 p k)) (fun k j => x6 (ix2 k j)) (fun k j => x7 (ix2 k j))
          (fun k j => x8 (ix2 j k)) j := by
  -- the single store covers the whole buffer from offset zero, and every load reads a whole block
  have hz : (![0, 0] : Fin 2 → Nat) = fun _ => 0 := funext fun a => by fin_cases a <;> rfl
  unfold out0_10
  rw [View.canon_unit_zero hz]
  simp only [View.ld_unit_zero (S := S2048x256) hz, View.ld_unit_zero (S := S256x512) hz,
    View.ld_unit_zero (S := S512x512) hz, View.ld_unit_zero (S := S2x512) hz]
  -- the last layer over the second hidden layer's activation `t · σ(t)`, `t` the pre-activation
  rw [pay5_apply]
  unfold Cert.Spec.mlp Cert.Spec.lin Cert.Spec.silu
  refine congrArg (· * Cert.Spec.cHid) (Finset.sum_congr rfl fun k _ => ?_)
  rw [pay3_apply, pay4_apply]

end Cert.KernelIdeal.Pay

end
-- ==== Proof.KEq23.lean ====
/-
  The equivariant result's block, output vectors `v = 2` and `v = 3`: each is stored as one three-column piece. Column `c`
  of piece `v` at row `p` is the specification's `eqRow` of that row: the products of the weight columns `32v … 32v+31` with
  the feature columns `32c … 32c+31`, summed and scaled, divided by the length of the three such sums plus the small
  constant (the test "unequal to itself" never holds on the extended reals, so the select keeps the quotient), times the
  indicator sum that picks the bond length of the atom's type.
-/
import proofs.«428606_j73186242724417_3_alg».proof.Proof.Gen.KernelIdeal.Frame
import proofs.«428606_j73186242724417_3_alg».proof.Proof.Spec
import Idealize.ShloMosaic.PureOps.Ideal.Laws
import Idealize.ShloMosaic.Lib.Pipeline.Value
import Idealize.ShloMosaic.Lib.ValueLayout

noncomputable section

open scoped BigOperators

namespace Cert.KernelIdeal.Pay

open Cert.KernelIdeal Cert.KernelIdeal.Gen Idealize.ShloMosaic Idealize.ShloMosaic.ValueIdx

/-! ## Layout and word facts read at an index -/

/-- A sum along the rows' axis of a matrix, read at row `p`: the sum of the row's entries. -/
theorem eq23_rowSum_apply {n m : Nat} (src : FVec Ideal ⟨2, ![n, m]⟩ .f32)
    (h : (⟨2, ![n, m]⟩ : Shape).Reduces [1] ⟨1, ![n]⟩) (hφ : FKind.Formats .f32)
    (hacc : (0x00000000#32 : BitVec 32) = 0x00000000#32) (p : Fin n) :
    multiReduction (F := Ideal) .add [1] ⟨1, ![n]⟩ src 0x00000000#32 h hφ hacc (ix1 p) = ∑ k : Fin m, src (ix2 p k) := by
  refine (Ideal.multiReduction_add_single src 0x00000000#32 h hφ hacc (ix1 p)).trans ?_
  refine Finset.sum_congr rfl fun k _ => congrArg src (funext fun c => Fin.ext ?_)
  match c with
  | ⟨0, _⟩ => rfl
  | ⟨1, _⟩ => rfl

/-- A vector of length `n` recast as an `n × 1` column reads, at `(p, u)`, the vector at `p`. -/
theorem eq23_shapeCast_a_a1_apply {α : Type} {n : Nat} (x : (⟨1, ![n]⟩ : Shape).Idx → α)
    (h : (⟨1, ![n]⟩ : Shape).ShapeCasts ⟨2, ![n, 1]⟩) (p : Fin n) (u : Fin 1) :
    shapeCast ⟨2, ![n, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `n × 1` column broadcast to `n × m` reads, at `(p, c)`, the column at row `p`. -/
theorem eq23_broadcastTo_a1_ab_apply {α : Type} {n m : Nat} (v : (⟨2, ![n, 1]⟩ : Shape).Idx → α)
    (h : (⟨2, ![n, 1]⟩ : Shape).Broadcasts ⟨2, ![n, m]⟩) (p : Fin n) (c : Fin m) :
    broadcastTo ⟨2, ![n, m]⟩ v h (ix2 p c) = v (ix2 p (0 : Fin 1)) := by
  refine broadcastTo_apply v h (ix2 p c) (ix2 p (0 : Fin 1)) fun ax => ?_
  match ax with
  | ⟨0, _⟩ =>
    show p.val = if n = 1 then 0 else p.val
    split
    · have := p.isLt; omega
    · rfl
  | ⟨1, _⟩ => rfl

/-- The entry `(p, t)` of the one-hot rows: `1` where the word at row `p` is the word of `t`, else `0`. -/
theorem eq23_oneHot_apply (v60 : Vec Ideal S2048x1 .i32) (p : Fin 2048) (t : Fin 32) :
    k0_pay7 (F := Ideal) v60 (ix2 p t) = Cert.Spec.oneHot (v60 (ix2 p 0)) t := by
  unfold k0_pay7
  show FloatOps.sitofp (F := Ideal) .f32 ((IntOp.cmpi .eq (broadcastTo S2048x32 v60 broadcasts_S2048x1_S2048x32 (ix2 p t))
      (iota .tc S2048x32 32 [1] iota_S2048x32_d1_w32 (ix2 p t))).setWidth 32) = _
  rw [eq23_broadcastTo_a1_ab_apply]
  show (((((BitVec.ofBool (v60 (ix2 p 0) == BitVec.ofNat 32 (0 * 32 + t.val))).setWidth 32).toInt : ℝ)) : EReal) = _
  unfold Cert.Spec.oneHot
  rw [Nat.zero_mul, Nat.zero_add]
  by_cases h : v60 (ix2 p 0) = BitVec.ofNat 32 t.val
  · rw [if_pos h, h]; simp
  · rw [if_neg h]
    have : (v60 (ix2 p 0) == BitVec.ofNat 32 t.val) = false := by simpa using h
    rw [this]; simp

/-- On the extended reals nothing is unequal to itself, so a select on that test keeps its last operand. -/
theorem eq23_select_one_self (q z : EReal) :
    Scalar.select (FloatOps.cmpf (F := Ideal) (φ := .f32) .one q q) z q = q := by
  show Scalar.select (Ideal.cmp .one q q) z q = q
  have h : Ideal.cmp .one q q = 0#1 := by
    unfold Ideal.cmp
    simp
  rw [h, select_zero]

/-- Three `2048 × 1` columns laid side by side read, at `(p, c)`, column `c` at row `p`. -/
theorem eq23_concat3_apply {α : Type} (x0 x1 x2 : S2048x1.Idx → α)
    (h : Shape.Concatenates [S2048x1, S2048x1, S2048x1] S2048x3 1) (p : Fin 2048) (c : Fin 3) :
    concatenate S2048x3 1 [⟨S2048x1, x0⟩, ⟨S2048x1, x1⟩, ⟨S2048x1, x2⟩] h (ix2 p c)
      = (match c with | 0 => x0 | 1 => x1 | 2 => x2) (ix2 p (0 : Fin 1)) := by
  match c with
  | 0 =>
    refine concatenate_apply_piece (1 : Fin S2048x3.rank) [⟨S2048x1, x0⟩, ⟨S2048x1, x1⟩, ⟨S2048x1, x2⟩] h
      (ix2 p (0 : Fin 3)) 0 (by show (0 : Nat) < 3; omega) S2048x1 x0 rfl rfl 0 rfl (ix2 p (0 : Fin 1)) (fun b hb => ?_) rfl
    match b with
    | ⟨0, _⟩ => rfl
    | ⟨1, _⟩ => exact absurd rfl hb
  | 1 =>
    refine concatenate_apply_piece (1 : Fin S2048x3.rank) [⟨S2048x1, x0⟩, ⟨S2048x1, x1⟩, ⟨S2048x1, x2⟩] h
      (ix2 p (1 : Fin 3)) 1 (by show (1 : Nat) < 3; omega) S2048x1 x1 rfl rfl 1 rfl (ix2 p (0 : Fin 1)) (fun b hb => ?_) rfl
    match b with
    | ⟨0, _⟩ => rfl
    | ⟨1, _⟩ => exact absurd rfl hb
  | 2 =>
    refine concatenate_apply_piece (1 : Fin S2048x3.rank) [⟨S2048x1, x0⟩, ⟨S2048x1, x1⟩, ⟨S2048x1, x2⟩] h
      (ix2 p (2 : Fin 3)) 2 (by show (2 : Nat) < 3; omega) S2048x1 x2 rfl rfl 2 rfl (ix2 p (0 : Fin 1)) (fun b hb => ?_) rfl
    match b with
    | ⟨0, _⟩ => rfl
    | ⟨1, _⟩ => exact absurd rfl hb

/-- The scaled row product as a column: at row `p` it is `(∑ u, A (p, u) * B (p, u)) * cMul`. -/
theorem eq23_col_apply (A B : FVec Ideal S2048x32 .f32) (hφ : FKind.Formats .f32)
    (hacc : (0x00000000#32 : BitVec 32) = 0x00000000#32) (p : Fin 2048) :
    mulf (shapeCast S2048x1 (multiReduction (F := Ideal) .add [1] S2048 (mulf A B) 0x00000000#32 reduces_S2048x32_S2048 hφ hacc)
          shapeCasts_S2048_S2048x1) (broadcast S2048x1 (Scalar.ofBits .f32 0x3E3504F3#32)) (ix2 p (0 : Fin 1))
      = (∑ u : Fin 32, A (ix2 p u) * B (ix2 p u)) * Cert.Spec.cMul := by
  show shapeCast S2048x1 (multiReduction (F := Ideal) .add [1] S2048 (mulf A B) 0x00000000#32 reduces_S2048x32_S2048 hφ hacc)
      shapeCasts_S2048_S2048x1 (ix2 p (0 : Fin 1)) * Ideal.ofBits .f32 0x3E3504F3#32 = _
  rw [eq23_shapeCast_a_a1_apply, eq23_rowSum_apply]
  rfl

/-- The indicator sum as a column: row `v` of the bond lengths, spread over the rows and summed against the one-hot rows. -/
theorem eq23_scale_apply (v65 : FVec Ideal S2048x32 .f32) (v67 : FVec Ideal S4x32 .f32) (o : Nat) (v : Fin 4) (hv : v.val = o)
    (hs : S4x32.Slices ![o, 0] S1x32) (hφ : FKind.Formats .f32)
    (hacc : (0x00000000#32 : BitVec 32) = 0x00000000#32) (p : Fin 2048) :
    shapeCast S2048x1 (multiReduction (F := Ideal) .add [1] S2048
        (mulf v65 (broadcastTo S2048x32 (shapeCast S1x32 (extractStridedSlice S1x32 ![o, 0] v67 hs) shapeCasts_S1x32_S1x32)
          broadcasts_S1x32_S2048x32)) 0x00000000#32 reduces_S2048x32_S2048 hφ hacc) shapeCasts_S2048_S2048x1 (ix2 p (0 : Fin 1))
      = ∑ t : Fin 32, v65 (ix2 p t) * v67 (ix2 v t) := by
  rw [eq23_shapeCast_a_a1_apply, eq23_rowSum_apply]
  refine Finset.sum_congr rfl fun t _ => ?_
  show v65 (ix2 p t) * broadcastTo S2048x32 (shapeCast S1x32 (extractStridedSlice S1x32 ![o, 0] v67 hs) shapeCasts_S1x32_S1x32)
      broadcasts_S1x32_S2048x32 (ix2 p t) = _
  rw [broadcastTo_1b_ab_apply, shapeCast_self]
  exact congrArg (v65 (ix2 p t) * ·) (slice2_axis0_apply o v67 hs (0 : Fin 1) t v (by rw [hv]; rfl))

/-! ## The shared end of the two pieces: three columns over their length, times the scale -/

/-- The Euclidean length of three columns plus the small constant, as a column. -/
abbrev eq23_denCol (R0 R1 R2 : FVec Ideal S2048x1 .f32) : FVec Ideal S2048x1 .f32 :=
  addf (sqrt (addf (addf (mulf R0 R0) (mulf R1 R1)) (mulf R2 R2))) (broadcast S2048x1 (Scalar.ofBits .f32 0x2EDBE6FF#32))

/-- One column over that length — the select on "unequal to itself" in between — times the scale column. -/
abbrev eq23_outCol (R D SC : FVec Ideal S2048x1 .f32) : FVec Ideal S2048x1 .f32 :=
  mulf (select (cmpf .one (divf R D) (divf R D)) (broadcast S2048x1 (Scalar.ofBits .f32 0x00000000#32)) (divf R D)) SC

/-- The three output columns side by side, read at `(p, c)`: component `c` of the unit vector of the three raw values
    at row `p`, times the scale at row `p`. -/
theorem eq23_tail_apply (R0 R1 R2 SC : FVec Ideal S2048x1 .f32)
    (h : Shape.Concatenates [S2048x1, S2048x1, S2048x1] S2048x3 1) (p : Fin 2048) (c : Fin 3) (r : Fin 3 → EReal) (s : EReal)
    (h0 : R0 (ix2 p (0 : Fin 1)) = r 0) (h1 : R1 (ix2 p (0 : Fin 1)) = r 1) (h2 : R2 (ix2 p (0 : Fin 1)) = r 2)
    (hs : SC (ix2 p (0 : Fin 1)) = s) :
    concatenate S2048x3 1 [⟨S2048x1, eq23_outCol R0 (eq23_denCol R0 R1 R2) SC⟩, ⟨S2048x1, eq23_outCol R1 (eq23_denCol R0 R1 R2) SC⟩,
        ⟨S2048x1, eq23_outCol R2 (eq23_denCol R0 R1 R2) SC⟩] h (ix2 p c)
      = Cert.Spec.unit3 r c * s := by
  have hd : eq23_denCol R0 R1 R2 (ix2 p (0 : Fin 1))
      = Ideal.sqrt (r 0 * r 0 + r 1 * r 1 + r 2 * r 2) + Cert.Spec.cEps := by
    show Ideal.sqrt (R0 (ix2 p (0 : Fin 1)) * R0 (ix2 p (0 : Fin 1)) + R1 (ix2 p (0 : Fin 1)) * R1 (ix2 p (0 : Fin 1))
        + R2 (ix2 p (0 : Fin 1)) * R2 (ix2 p (0 : Fin 1))) + Ideal.ofBits .f32 0x2EDBE6FF#32 = _
    rw [h0, h1, h2]
    rfl
  have ho : ∀ R D : FVec Ideal S2048x1 .f32,
      eq23_outCol R D SC (ix2 p (0 : Fin 1)) = Ideal.div (R (ix2 p (0 : Fin 1))) (D (ix2 p (0 : Fin 1))) * s := by
    intro R D
    show Scalar.select (FloatOps.cmpf (F := Ideal) (φ := .f32) .one (Ideal.div (R (ix2 p (0 : Fin 1))) (D (ix2 p (0 : Fin 1))))
        (Ideal.div (R (ix2 p (0 : Fin 1))) (D (ix2 p (0 : Fin 1))))) (Ideal.ofBits .f32 0x00000000#32)
        (Ideal.div (R (ix2 p (0 : Fin 1))) (D (ix2 p (0 : Fin 1)))) * SC (ix2 p (0 : Fin 1)) = _
    rw [eq23_select_one_self, hs]
  refine (eq23_concat3_apply _ _ _ h p c).trans ?_
  unfold Cert.Spec.unit3
  match c with
  | 0 =>
    show eq23_outCol R0 (eq23_denCol R0 R1 R2) SC (ix2 p (0 : Fin 1)) = _
    rw [ho, hd, h0]
  | 1 =>
    show eq23_outCol R1 (eq23_denCol R0 R1 R2) SC (ix2 p (0 : Fin 1)) = _
    rw [ho, hd, h1]
  | 2 =>
    show eq23_outCol R2 (eq23_denCol R0 R1 R2) SC (ix2 p (0 : Fin 1)) = _
    rw [ho, hd, h2]

/-! ## The loaded blocks and the slices of the weights and features -/

/-- The offsets `(0, 0)` are zero on every axis. -/
theorem eq23_offs_zero2 : (![0, 0] : Fin 2 → Nat) = fun _ => 0 :=
  funext fun a => by match a with | ⟨0, _⟩ => rfl | ⟨1, _⟩ => rfl

/-- The feature block read whole and recast to its own shape is the block. -/
theorem eq23_pay6_eq (x1 : Vec Ideal S2048x96 .f32) : k0_pay6 (F := Ideal) (View.ld x1 r0_6) = x1 := by
  unfold k0_pay6
  rw [shapeCast_self]
  exact View.ld_unit_zero (S := S2048x96) eq23_offs_zero2 _ x1

/-- The bond-length block read whole and recast to its own shape is the block. -/
theorem eq23_pay8_eq (x9 : Vec Ideal S4x32 .f32) : k0_pay8 (F := Ideal) (View.ld x9 r0_8) = x9 := by
  unfold k0_pay8
  rw [shapeCast_self]
  exact View.ld_unit_zero (S := S4x32) eq23_offs_zero2 _ x9

/-- The type words read whole are the block. -/
theorem eq23_ld7_eq (x2 : Vec Ideal S2048x1 .i32) : View.ld x2 r0_7 = x2 :=
  View.ld_unit_zero (S := S2048x1) eq23_offs_zero2 _ x2

/-- Thirty-two columns of the weights from column `o`, read at `(p, u)`. -/
theorem eq23_wSlice_apply (W : FVec Ideal S2048x128 .f32) (o : Nat) (h : S2048x128.Slices ![0, o] S2048x32) (v : Fin 4)
    (hv : v.val * 32 = o) (p : Fin 2048) (u : Fin 32) :
    extractStridedSlice S2048x32 ![0, o] W h (ix2 p u) = W (ix2 p ⟨v.val * 32 + u.val, by omega⟩) :=
  slice2_axis1_apply o W h p u _ (by rw [← hv])

/-- Thirty-two columns of the features from column `o`, read at `(p, u)`. -/
theorem eq23_eSlice_apply (E : FVec Ideal S2048x96 .f32) (o : Nat) (h : S2048x96.Slices ![0, o] S2048x32) (c : Fin 3)
    (hc : c.val * 32 = o) (p : Fin 2048) (u : Fin 32) :
    extractStridedSlice S2048x32 ![0, o] E h (ix2 p u) = E (ix2 p ⟨c.val * 32 + u.val, by omega⟩) :=
  slice2_axis1_apply o E h p u _ (by rw [← hc])

/-- A raw column of the contraction: weight columns `32 v …` against feature columns `32 c …`, summed and scaled. -/
theorem eq23_raw_apply (W : FVec Ideal S2048x128 .f32) (E : FVec Ideal S2048x96 .f32) (A B : FVec Ideal S2048x32 .f32)
    (v : Fin 4) (c : Fin 3) (p : Fin 2048)
    (hA : ∀ u : Fin 32, A (ix2 p u) = W (ix2 p ⟨v.val * 32 + u.val, by omega⟩))
    (hB : ∀ u : Fin 32, B (ix2 p u) = E (ix2 p ⟨c.val * 32 + u.val, by omega⟩))
    (hφ : FKind.Formats .f32) (hacc : (0x00000000#32 : BitVec 32) = 0x00000000#32) :
    mulf (shapeCast S2048x1 (multiReduction (F := Ideal) .add [1] S2048 (mulf A B) 0x00000000#32 reduces_S2048x32_S2048 hφ hacc)
          shapeCasts_S2048_S2048x1) (broadcast S2048x1 (Scalar.ofBits .f32 0x3E3504F3#32)) (ix2 p (0 : Fin 1))
      = (∑ u : Fin 32, W (ix2 p ⟨v.val * 32 + u.val, by omega⟩) * E (ix2 p ⟨c.val * 32 + u.val, by omega⟩)) * Cert.Spec.cMul := by
  rw [eq23_col_apply]
  refine congrArg (· * Cert.Spec.cMul) (Finset.sum_congr rfl fun u _ => ?_)
  rw [hA u, hB u]

/-- The scale column of vector `v`: the indicator sum against row `v` of the bond lengths. -/
theorem eq23_scaleHot_apply (x2 : Vec Ideal S2048x1 .i32) (x9 : FVec Ideal S4x32 .f32) (o : Nat) (v : Fin 4) (hv : v.val = o)
    (hs : S4x32.Slices ![o, 0] S1x32) (hφ : FKind.Formats .f32)
    (hacc : (0x00000000#32 : BitVec 32) = 0x00000000#32) (p : Fin 2048) :
    shapeCast S2048x1 (multiReduction (F := Ideal) .add [1] S2048
        (mulf (k0_pay7 x2) (broadcastTo S2048x32 (shapeCast S1x32 (extractStridedSlice S1x32 ![o, 0] x9 hs) shapeCasts_S1x32_S1x32)
          broadcasts_S1x32_S2048x32)) 0x00000000#32 reduces_S2048x32_S2048 hφ hacc) shapeCasts_S2048_S2048x1 (ix2 p (0 : Fin 1))
      = ∑ t : Fin 32, Cert.Spec.oneHot (x2 (ix2 p 0)) t * x9 (ix2 v t) := by
  rw [eq23_scale_apply (k0_pay7 x2) x9 o v hv]
  exact Finset.sum_congr rfl fun t _ => by rw [eq23_oneHot_apply]

/-! ## The two pieces -/

/-- Output vector 2's piece at row `p`, component `c`. -/
theorem vec2_apply (x0 : Vec Ideal S2048x256 .f32) (x1 : Vec Ideal S2048x96 .f32) (x2 : Vec Ideal S2048x1 .i32) (x3 : Vec Ideal S256x512 .bf16) (x4 : Vec Ideal S512x512 .bf16) (x5 : Vec Ideal S512x128 .bf16) (x9 : Vec Ideal S4x32 .f32) (p : Fin 2048) (c : Fin 3) :
    (k0_pay19 (F := Ideal) (k0_pay6 (View.ld x1 r0_6)) (k0_pay7 (View.ld x2 r0_7)) (k0_pay8 (View.ld x9 r0_8)) (k0_pay17 (k0_pay2 (View.ld x0 r0_0) (View.ld x3 r0_1) (View.ld x4 r0_2) (View.ld x5 r0_3))) (k0_pay18 (k0_pay2 (View.ld x0 r0_0) (View.ld x3 r0_1) (View.ld x4 r0_2) (View.ld x5 r0_3)) (k0_pay6 (View.ld x1 r0_6)))) (ix2 p c)
      = Cert.Spec.eqRow (fun j : Fin 128 => k0_pay2 (F := Ideal) (View.ld x0 r0_0) (View.ld x3 r0_1) (View.ld x4 r0_2) (View.ld x5 r0_3) (ix2 p j))
          (fun j : Fin 96 => x1 (ix2 p j)) (x2 (ix2 p 0)) (fun t : Fin 32 => x9 (ix2 (2 : Fin 4) t)) 2 c := by
  rw [eq23_pay6_eq, eq23_pay8_eq, eq23_ld7_eq]
  generalize k0_pay2 (F := Ideal) (View.ld x0 r0_0) (View.ld x3 r0_1) (View.ld x4 r0_2) (View.ld x5 r0_3) = W
  unfold k0_pay19 k0_pay18 k0_pay17 Cert.Spec.eqRow
  refine eq23_tail_apply _ _ _ _ _ p c _ _ ?_ ?_ ?_ ?_
  · exact eq23_raw_apply W x1 _ _ 2 0 p (eq23_wSlice_apply W 64 _ 2 rfl p) (eq23_eSlice_apply x1 0 _ 0 rfl p) _ _
  · exact eq23_raw_apply W x1 _ _ 2 1 p (eq23_wSlice_apply W 64 _ 2 rfl p) (eq23_eSlice_apply x1 32 _ 1 rfl p) _ _
  · exact eq23_raw_apply W x1 _ _ 2 2 p (eq23_wSlice_apply W 64 _ 2 rfl p) (eq23_eSlice_apply x1 64 _ 2 rfl p) _ _
  · exact eq23_scaleHot_apply x2 x9 2 2 rfl _ _ _ p

/-- Output vector 3's piece at row `p`, component `c`. -/
theorem vec3_apply (x0 : Vec Ideal S2048x256 .f32) (x1 : Vec Ideal S2048x96 .f32) (x2 : Vec Ideal S2048x1 .i32) (x3 : Vec Ideal S256x512 .bf16) (x4 : Vec Ideal S512x512 .bf16) (x5 : Vec Ideal S512x128 .bf16) (x9 : Vec Ideal S4x32 .f32) (p : Fin 2048) (c : Fin 3) :
    (k0_pay22 (F := Ideal) (k0_pay6 (View.ld x1 r0_6)) (k0_pay7 (View.ld x2 r0_7)) (k0_pay8 (View.ld x9 r0_8)) (k0_pay20 (k0_pay2 (View.ld x0 r0_0) (View.ld x3 r0_1) (View.ld x4 r0_2) (View.ld x5 r0_3))) (k0_pay21 (k0_pay6 (View.ld x1 r0_6)))) (ix2 p c)
      = Cert.Spec.eqRow (fun j : Fin 128 => k0_pay2 (F := Ideal) (View.ld x0 r0_0) (View.ld x3 r0_1) (View.ld x4 r0_2) (View.ld x5 r0_3) (ix2 p j))
          (fun j : Fin 96 => x1 (ix2 p j)) (x2 (ix2 p 0)) (fun t : Fin 32 => x9 (ix2 (3 : Fin 4) t)) 3 c := by
  rw [eq23_pay6_eq, eq23_pay8_eq, eq23_ld7_eq]
  generalize k0_pay2 (F := Ideal) (View.ld x0 r0_0) (View.ld x3 r0_1) (View.ld x4 r0_2) (View.ld x5 r0_3) = W
  unfold k0_pay22 k0_pay20 k0_pay21 Cert.Spec.eqRow
  refine eq23_tail_apply _ _ _ _ _ p c _ _ ?_ ?_ ?_ ?_
  · exact eq23_raw_apply W x1 _ _ 3 0 p (eq23_wSlice_apply W 96 _ 3 rfl p) (eq23_eSlice_apply x1 0 _ 0 rfl p) _ _
  · exact eq23_raw_apply W x1 _ _ 3 1 p (eq23_wSlice_apply W 96 _ 3 rfl p) (eq23_eSlice_apply x1 32 _ 1 rfl p) _ _
  · exact eq23_raw_apply W x1 _ _ 3 2 p (eq23_wSlice_apply W 96 _ 3 rfl p) (eq23_eSlice_apply x1 64 _ 2 rfl p) _ _
  · exact eq23_scaleHot_apply x2 x9 3 3 rfl _ _ _ p

end Cert.KernelIdeal.Pay

end
-- ==== Proof.KEq01.lean ====
/-
  The equivariant result's block: output vectors `v = 0` and `v = 1` as in the module for `v = 2, 3`, and the four pieces
  together: the staging buffer after the body at row `p`, column `3v + c` is piece `v` at column `c` (the four stores tile
  the twelve columns three by three).
-/
import proofs.«428606_j73186242724417_3_alg».proof.Proof.Gen.KernelIdeal.Frame
import proofs.«428606_j73186242724417_3_alg».proof.Proof.Spec
import proofs.«428606_j73186242724417_3_alg».proof.Proof.KMlp
import proofs.«428606_j73186242724417_3_alg».proof.Proof.KEq23
import Idealize.ShloMosaic.PureOps.Ideal.Laws
import Idealize.ShloMosaic.Lib.Pipeline.Value
import Idealize.ShloMosaic.Lib.ValueLayout

noncomputable section

open scoped BigOperators

namespace Cert.KernelIdeal.Pay

open Cert.KernelIdeal Cert.KernelIdeal.Gen Idealize.ShloMosaic Idealize.ShloMosaic.ValueIdx

/-- A vector of length 2048 viewed as one column reads, at row `p`, its entry `p`. -/
theorem eq01_colCast_apply {α : Type} (x : S2048.Idx → α) (h : S2048.ShapeCasts S2048x1) (p : Fin 2048) (z : Fin 1) :
    shapeCast S2048x1 x h (ix2 p z) = x (ix1 p) :=
  shapeCast_apply x h _ _ (by
    have hz : z.val = 0 := by omega
    rw [Shape.rowMajor_val_two, Shape.rowMajor_val_one]
    show p.val = p.val * 1 + z.val
    omega)

/-- The sum over the 32 lanes of a row. -/
theorem eq01_rowSum_apply (X : FVec Ideal S2048x32 .f32) (h : S2048x32.Reduces [1] S2048) (hφ : FKind.Formats .f32)
    (hacc : (0x00000000#32 : BitVec 32) = 0x00000000#32) (p : Fin 2048) :
    multiReduction .add [1] S2048 X 0x00000000#32 h hφ hacc (ix1 p) = ∑ u : Fin 32, X (ix2 p u) := by
  refine (Ideal.multiReduction_add_single X 0x00000000#32 h hφ hacc (ix1 p)).trans ?_
  refine Finset.sum_congr rfl fun u _ => congrArg X ?_
  funext a
  match a with
  | ⟨0, _⟩ => rfl
  | ⟨1, _⟩ => rfl

/-- The lane sum of a row, kept as a column. -/
theorem eq01_colSum_apply (X : FVec Ideal S2048x32 .f32) (h : S2048x32.Reduces [1] S2048) (hφ : FKind.Formats .f32)
    (hacc : (0x00000000#32 : BitVec 32) = 0x00000000#32) (hc : S2048.ShapeCasts S2048x1) (p : Fin 2048) (z : Fin 1) :
    shapeCast S2048x1 (multiReduction .add [1] S2048 X 0x00000000#32 h hφ hacc) hc (ix2 p z) = ∑ u : Fin 32, X (ix2 p u) :=
  (eq01_colCast_apply _ hc p z).trans (eq01_rowSum_apply X h hφ hacc p)

/-- Three columns laid side by side: column `c` of the result is the `c`-th operand. -/
theorem eq01_cat3_apply {α : Type} (A0 A1 A2 : S2048x1.Idx → α)
    (h : Shape.Concatenates [S2048x1, S2048x1, S2048x1] S2048x3 1) (p : Fin 2048) (c : Fin 3) :
    concatenate S2048x3 1 [⟨S2048x1, A0⟩, ⟨S2048x1, A1⟩, ⟨S2048x1, A2⟩] h (ix2 p c)
      = (![A0, A1, A2] c) (ix2 p (0 : Fin 1)) := by
  have hi : ∀ b : Fin S2048x1.rank, b.cast (rfl : S2048x1.rank = S2048x3.rank) ≠ (1 : Fin S2048x3.rank) →
      ((ix2 p (0 : Fin 1) : S2048x1.Idx) b).val = ((ix2 p c : S2048x3.Idx) (b.cast rfl)).val := fun b hb => by
    match b with
    | ⟨0, _⟩ => rfl
    | ⟨1, _⟩ => exact absurd rfl hb
  match c with
  | ⟨0, _⟩ =>
    exact concatenate_apply_piece (t := S2048x3) 1 [⟨S2048x1, A0⟩, ⟨S2048x1, A1⟩, ⟨S2048x1, A2⟩] h _ 0
      (show 0 < 3 by omega) S2048x1 A0 rfl rfl 0 rfl (ix2 p 0) hi rfl
  | ⟨1, _⟩ =>
    exact concatenate_apply_piece (t := S2048x3) 1 [⟨S2048x1, A0⟩, ⟨S2048x1, A1⟩, ⟨S2048x1, A2⟩] h _ 1
      (show 1 < 3 by omega) S2048x1 A1 rfl rfl 1 rfl (ix2 p 0) hi rfl
  | ⟨2, _⟩ =>
    exact concatenate_apply_piece (t := S2048x3) 1 [⟨S2048x1, A0⟩, ⟨S2048x1, A1⟩, ⟨S2048x1, A2⟩] h _ 2
      (show 2 < 3 by omega) S2048x1 A2 rfl rfl 2 rfl (ix2 p 0) hi rfl

/-- The indicator array: entry `(p, t)` is the indicator that the type word of row `p` is `t`. -/
theorem eq01_pay7_apply (x2 : Vec Ideal S2048x1 .i32) (p : Fin 2048) (t : Fin 32) :
    k0_pay7 (F := Ideal) x2 (ix2 p t) = Cert.Spec.oneHot (x2 (ix2 p 0)) t := by
  unfold k0_pay7
  have hb : broadcastTo S2048x32 x2 broadcasts_S2048x1_S2048x32 (ix2 p t) = x2 (ix2 p (0 : Fin 1)) :=
    broadcastTo_apply x2 broadcasts_S2048x1_S2048x32 (ix2 p t) (ix2 p (0 : Fin 1)) fun a => by
      match a with
      | ⟨0, _⟩ => rfl
      | ⟨1, _⟩ => rfl
  have hi : iota .tc S2048x32 32 [1] iota_S2048x32_d1_w32 (ix2 p t) = BitVec.ofNat 32 t.val :=
    iota_single_apply .tc S2048x32 32 1 iota_S2048x32_d1_w32 (ix2 p t)
  show (((IntOp.cmpi .eq (broadcastTo S2048x32 x2 broadcasts_S2048x1_S2048x32 (ix2 p t))
      (iota .tc S2048x32 32 [1] iota_S2048x32_d1_w32 (ix2 p t))).setWidth 32).toInt : ℝ) = (_ : EReal)
  rw [hb, hi]
  unfold Cert.Spec.oneHot IntOp.cmpi
  by_cases h : x2 (ix2 p (0 : Fin 1)) = BitVec.ofNat 32 t.val
  · rw [if_pos h, h]; simp
  · rw [if_neg h]
    have : (x2 (ix2 p (0 : Fin 1)) == BitVec.ofNat 32 t.val) = false := by simpa using h
    simp [this]

/-- Row `v` of the bond-length table, repeated on every row of the block. -/
theorem eq01_bondRow_apply (V : FVec Ideal S4x32 .f32) (v : Nat) (hs : S4x32.Slices ![v, 0] S1x32) (hc : S1x32.ShapeCasts S1x32)
    (hb : S1x32.Broadcasts S2048x32) (p : Fin 2048) (t : Fin 32) (k : Fin 4) (hk : k.val = v) :
    broadcastTo S2048x32 (shapeCast S1x32 (extractStridedSlice S1x32 ![v, 0] V hs) hc) hb (ix2 p t) = V (ix2 k t) := by
  rw [broadcastTo_1b_ab_apply, shapeCast_self]
  exact slice2_axis0_apply v V hs 0 t k (by rw [hk]; rfl)

/-- On the extended reals nothing is unequal to itself. -/
theorem eq01_cmp_one_self (x : EReal) : Ideal.cmp .one x x = 0#1 := by
  simp [Ideal.cmp]

/-- The piece's last steps: each of three columns is divided by a common denominator (the test "unequal to itself"
    never fires, so the select keeps the quotient), scaled by a common column, and the three are laid side by side. -/
theorem eq01_piece_apply (R0 R1 R2 D SC Z : FVec Ideal S2048x1 .f32)
    (hcat : Shape.Concatenates [S2048x1, S2048x1, S2048x1] S2048x3 1) (p : Fin 2048) (c : Fin 3)
    (r : Fin 3 → EReal) (s : EReal)
    (h0 : R0 (ix2 p (0 : Fin 1)) = r 0) (h1 : R1 (ix2 p (0 : Fin 1)) = r 1) (h2 : R2 (ix2 p (0 : Fin 1)) = r 2)
    (hD : D (ix2 p (0 : Fin 1)) = Ideal.sqrt (r 0 * r 0 + r 1 * r 1 + r 2 * r 2) + Cert.Spec.cEps)
    (hS : SC (ix2 p (0 : Fin 1)) = s) :
    concatenate S2048x3 1
      [⟨S2048x1, mulf (select (cmpf .one (divf R0 D) (divf R0 D)) Z (divf R0 D)) SC⟩,
       ⟨S2048x1, mulf (select (cmpf .one (divf R1 D) (divf R1 D)) Z (divf R1 D)) SC⟩,
       ⟨S2048x1, mulf (select (cmpf .one (divf R2 D) (divf R2 D)) Z (divf R2 D)) SC⟩] hcat (ix2 p c)
      = Cert.Spec.unit3 r c * s := by
  rw [eq01_cat3_apply]
  have key : ∀ (R : FVec Ideal S2048x1 .f32) (x : EReal), R (ix2 p (0 : Fin 1)) = x →
      mulf (select (cmpf .one (divf R D) (divf R D)) Z (divf R D)) SC (ix2 p (0 : Fin 1))
        = Ideal.div x (Ideal.sqrt (r 0 * r 0 + r 1 * r 1 + r 2 * r 2) + Cert.Spec.cEps) * s := by
    intro R x hx
    show Scalar.select (Ideal.cmp .one (Ideal.div (R (ix2 p 0)) (D (ix2 p 0))) (Ideal.div (R (ix2 p 0)) (D (ix2 p 0))))
        (Z (ix2 p 0)) (Ideal.div (R (ix2 p 0)) (D (ix2 p 0))) * SC (ix2 p 0) = _
    rw [eq01_cmp_one_self, select_zero, hx, hD, hS]
  match c with
  | ⟨0, _⟩ => exact key R0 _ h0
  | ⟨1, _⟩ => exact key R1 _ h1
  | ⟨2, _⟩ => exact key R2 _ h2

/-- The common denominator: the length of the three columns plus the small constant. -/
theorem eq01_den_apply (R0 R1 R2 : FVec Ideal S2048x1 .f32) (i : S2048x1.Idx) (r : Fin 3 → EReal)
    (h0 : R0 i = r 0) (h1 : R1 i = r 1) (h2 : R2 i = r 2) :
    addf (sqrt (addf (addf (mulf R0 R0) (mulf R1 R1)) (mulf R2 R2)))
        (broadcast S2048x1 (Scalar.ofBits .f32 0x2EDBE6FF#32)) i
      = Ideal.sqrt (r 0 * r 0 + r 1 * r 1 + r 2 * r 2) + Cert.Spec.cEps := by
  show Ideal.sqrt (R0 i * R0 i + R1 i * R1 i + R2 i * R2 i) + Cert.Spec.cEps = _
  rw [h0, h1, h2]

/-- One scaled contraction: weight columns from `32v` against feature columns from `32c'`, summed over the 32 lanes
    and scaled. -/
theorem eq01_raw_apply (W : FVec Ideal S2048x128 .f32) (x1 : FVec Ideal S2048x96 .f32) (ow oe : Nat)
    (hw : S2048x128.Slices ![0, ow] S2048x32) (he : S2048x96.Slices ![0, oe] S2048x32)
    (hs : S2048x96.ShapeCasts S2048x96) (hred : S2048x32.Reduces [1] S2048) (hφ : FKind.Formats .f32)
    (hacc : (0x00000000#32 : BitVec 32) = 0x00000000#32) (hc : S2048.ShapeCasts S2048x1)
    (p : Fin 2048) (z : Fin 1) (v : Fin 4) (c' : Fin 3) (hv : v.val * 32 = ow) (hc' : c'.val * 32 = oe) :
    mulf (shapeCast S2048x1 (multiReduction .add [1] S2048 (mulf (extractStridedSlice S2048x32 ![0, ow] W hw)
        (extractStridedSlice S2048x32 ![0, oe] (shapeCast S2048x96 x1 hs) he)) 0x00000000#32 hred hφ hacc) hc)
        (broadcast S2048x1 (Scalar.ofBits .f32 0x3E3504F3#32)) (ix2 p z)
      = (∑ u : Fin 32, W (ix2 p (⟨v.val * 32 + u.val, by omega⟩ : Fin 128))
          * x1 (ix2 p (⟨c'.val * 32 + u.val, by omega⟩ : Fin 96))) * Cert.Spec.cMul := by
  show shapeCast S2048x1 _ hc (ix2 p z) * Cert.Spec.cMul = _
  rw [eq01_colSum_apply, shapeCast_self]
  refine congrArg (· * Cert.Spec.cMul) (Finset.sum_congr rfl fun u _ => ?_)
  show extractStridedSlice S2048x32 ![0, ow] W hw (ix2 p u) * extractStridedSlice S2048x32 ![0, oe] x1 he (ix2 p u) = _
  rw [slice2_axis1_apply ow W hw p u ⟨v.val * 32 + u.val, by omega⟩ (by show v.val * 32 + u.val = ow + u.val; omega),
    slice2_axis1_apply oe x1 he p u ⟨c'.val * 32 + u.val, by omega⟩ (by show c'.val * 32 + u.val = oe + u.val; omega)]

/-- The bond-length table passes through its cast unchanged. -/
theorem eq01_pay8_apply (x9 : Vec Ideal S4x32 .f32) (i : S4x32.Idx) : k0_pay8 (F := Ideal) x9 i = x9 i := by
  unfold k0_pay8; rw [shapeCast_self]

/-- The scale of a piece: the indicator row of the atom against row `k` of the bond-length table, summed. -/
theorem eq01_scale_apply (x2 : Vec Ideal S2048x1 .i32) (x9 : Vec Ideal S4x32 .f32) (v : Nat)
    (hs : S4x32.Slices ![v, 0] S1x32) (hc1 : S1x32.ShapeCasts S1x32) (hb : S1x32.Broadcasts S2048x32)
    (hred : S2048x32.Reduces [1] S2048) (hφ : FKind.Formats .f32)
    (hacc : (0x00000000#32 : BitVec 32) = 0x00000000#32) (hc : S2048.ShapeCasts S2048x1)
    (p : Fin 2048) (z : Fin 1) (k : Fin 4) (hk : k.val = v) :
    shapeCast S2048x1 (multiReduction .add [1] S2048 (mulf (k0_pay7 (F := Ideal) x2)
        (broadcastTo S2048x32 (shapeCast S1x32 (extractStridedSlice S1x32 ![v, 0] (k0_pay8 (F := Ideal) x9) hs) hc1) hb))
        0x00000000#32 hred hφ hacc) hc (ix2 p z)
      = ∑ t : Fin 32, Cert.Spec.oneHot (x2 (ix2 p 0)) t * x9 (ix2 k t) := by
  rw [eq01_colSum_apply]
  refine Finset.sum_congr rfl fun t _ => ?_
  show k0_pay7 (F := Ideal) x2 (ix2 p t) * broadcastTo S2048x32 _ hb (ix2 p t) = _
  rw [eq01_pay7_apply, eq01_bondRow_apply (k0_pay8 (F := Ideal) x9) v hs hc1 hb p t k hk, eq01_pay8_apply]

/-- The three scaled contractions of output vector `v`, as a function of the component. -/
def eq01_rawRow (W : FVec Ideal S2048x128 .f32) (x1 : Vec Ideal S2048x96 .f32) (p : Fin 2048) (v : Fin 4) (c' : Fin 3) : EReal :=
  (∑ u : Fin 32, (fun j : Fin 128 => W (ix2 p j)) (⟨v.val * 32 + u.val, by omega⟩ : Fin 128)
    * (fun j : Fin 96 => x1 (ix2 p j)) (⟨c'.val * 32 + u.val, by omega⟩ : Fin 96)) * Cert.Spec.cMul

/-- Output vector 0's piece over any weight block `W`. -/
theorem eq01_vec0_gen (W : FVec Ideal S2048x128 .f32) (x1 : Vec Ideal S2048x96 .f32) (x2 : Vec Ideal S2048x1 .i32)
    (x9 : Vec Ideal S4x32 .f32) (p : Fin 2048) (c : Fin 3) :
    k0_pay12 (F := Ideal) (k0_pay6 x1) (k0_pay7 x2) (k0_pay8 x9) (k0_pay9 W) (k0_pay10 W x1) (k0_pay11 W x1) (ix2 p c)
      = Cert.Spec.eqRow (fun j : Fin 128 => W (ix2 p j)) (fun j : Fin 96 => x1 (ix2 p j)) (x2 (ix2 p 0))
          (fun t : Fin 32 => x9 (ix2 (0 : Fin 4) t)) 0 c := by
  have h0 : k0_pay10 (F := Ideal) W x1 (ix2 p (0 : Fin 1)) = eq01_rawRow W x1 p 0 0 := by
    unfold k0_pay10 k0_pay9 k0_pay6
    exact eq01_raw_apply W x1 0 0 _ _ _ _ _ _ _ p 0 0 0 rfl rfl
  have h1 : mulf (k0_pay11 (F := Ideal) W x1) (broadcast S2048x1 (Scalar.ofBits .f32 0x3E3504F3#32)) (ix2 p (0 : Fin 1))
      = eq01_rawRow W x1 p 0 1 := by
    unfold k0_pay11 k0_pay9 k0_pay6
    exact eq01_raw_apply W x1 0 32 _ _ _ _ _ _ _ p 0 0 1 rfl rfl
  have h2 : mulf (shapeCast S2048x1 (multiReduction .add [1] S2048 (mulf (k0_pay9 (F := Ideal) W)
        (extractStridedSlice S2048x32 ![0, 64] (k0_pay6 (F := Ideal) x1) slices_S2048x96_o0_64_S2048x32)) 0x00000000#32
        reduces_S2048x32_S2048 (.inl rfl) rfl) shapeCasts_S2048_S2048x1)
        (broadcast S2048x1 (Scalar.ofBits .f32 0x3E3504F3#32)) (ix2 p (0 : Fin 1))
      = eq01_rawRow W x1 p 0 2 := by
    unfold k0_pay9 k0_pay6
    exact eq01_raw_apply W x1 0 64 _ _ _ _ _ _ _ p 0 0 2 rfl rfl
  unfold k0_pay12
  show _ = Cert.Spec.unit3 (eq01_rawRow W x1 p 0) c * _
  refine eq01_piece_apply _ _ _ _ _ _ _ p c (eq01_rawRow W x1 p 0) _ ?_ ?_ ?_ ?_ ?_
  · exact h0
  · exact h1
  · exact h2
  · exact eq01_den_apply _ _ _ _ _ h0 h1 h2
  · exact eq01_scale_apply x2 x9 0 _ _ _ _ _ _ _ p 0 0 rfl

/-- Output vector 1's piece over any weight block `W`. -/
theorem eq01_vec1_gen (W : FVec Ideal S2048x128 .f32) (x1 : Vec Ideal S2048x96 .f32) (x2 : Vec Ideal S2048x1 .i32)
    (x9 : Vec Ideal S4x32 .f32) (p : Fin 2048) (c : Fin 3) :
    k0_pay16 (F := Ideal) (k0_pay6 x1) (k0_pay7 x2) (k0_pay8 x9) (k0_pay13 W) (k0_pay14 W (k0_pay6 x1))
        (k0_pay15 (k0_pay6 x1)) (ix2 p c)
      = Cert.Spec.eqRow (fun j : Fin 128 => W (ix2 p j)) (fun j : Fin 96 => x1 (ix2 p j)) (x2 (ix2 p 0))
          (fun t : Fin 32 => x9 (ix2 (1 : Fin 4) t)) 1 c := by
  have h0 : k0_pay14 (F := Ideal) W (k0_pay6 x1) (ix2 p (0 : Fin 1)) = eq01_rawRow W x1 p 1 0 := by
    unfold k0_pay14 k0_pay13 k0_pay6
    exact eq01_raw_apply W x1 32 0 _ _ _ _ _ _ _ p 0 1 0 rfl rfl
  have h1 : mulf (shapeCast S2048x1 (multiReduction .add [1] S2048 (mulf (k0_pay13 (F := Ideal) W)
        (k0_pay15 (F := Ideal) (k0_pay6 x1))) 0x00000000#32
        reduces_S2048x32_S2048 (.inl rfl) rfl) shapeCasts_S2048_S2048x1)
        (broadcast S2048x1 (Scalar.ofBits .f32 0x3E3504F3#32)) (ix2 p (0 : Fin 1))
      = eq01_rawRow W x1 p 1 1 := by
    unfold k0_pay15 k0_pay13 k0_pay6
    exact eq01_raw_apply W x1 32 32 _ _ _ _ _ _ _ p 0 1 1 rfl rfl
  have h2 : mulf (shapeCast S2048x1 (multiReduction .add [1] S2048 (mulf (k0_pay13 (F := Ideal) W)
        (extractStridedSlice S2048x32 ![0, 64] (k0_pay6 (F := Ideal) x1) slices_S2048x96_o0_64_S2048x32)) 0x00000000#32
        reduces_S2048x32_S2048 (.inl rfl) rfl) shapeCasts_S2048_S2048x1)
        (broadcast S2048x1 (Scalar.ofBits .f32 0x3E3504F3#32)) (ix2 p (0 : Fin 1))
      = eq01_rawRow W x1 p 1 2 := by
    unfold k0_pay13 k0_pay6
    exact eq01_raw_apply W x1 32 64 _ _ _ _ _ _ _ p 0 1 2 rfl rfl
  unfold k0_pay16
  show _ = Cert.Spec.unit3 (eq01_rawRow W x1 p 1) c * _
  refine eq01_piece_apply _ _ _ _ _ _ _ p c (eq01_rawRow W x1 p 1) _ ?_ ?_ ?_ ?_ ?_
  · exact h0
  · exact h1
  · exact h2
  · exact eq01_den_apply _ _ _ _ _ h0 h1 h2
  · exact eq01_scale_apply x2 x9 1 _ _ _ _ _ _ _ p 0 1 rfl

/-- The zero offsets of a whole-buffer rectangle of rank two. -/
theorem eq01_zero2 : (![0, 0] : Fin 2 → Nat) = fun _ => 0 := by
  funext a
  match a with
  | ⟨0, _⟩ => rfl
  | ⟨1, _⟩ => rfl

/-- The staging buffer written by four stores of three columns each: column `3v + c` is column `c` of the `v`-th
    store (the last store listed first; a column of an earlier store lies outside every later store's columns). -/
theorem eq01_canon4_apply (P3 P2 P1 P0 : FVec Ideal S2048x3 .f32) (p : Fin 2048) (v : Fin 4) (c : Fin 3) :
    View.canon ([⟨r0_12, P3⟩, ⟨r0_11, P2⟩, ⟨r0_10, P1⟩, ⟨r0_9, P0⟩] : List (View.Piece (Elt Ideal) S2048x12 .f32))
        (ix2 p (⟨v.val * 3 + c.val, by omega⟩ : Fin 12))
      = (![P0, P1, P2, P3] v) (ix2 p c) := by
  have hc := c.isLt
  have n12 : ∀ (k : Nat) (hk : k * 3 + c.val < 12), k < 3 →
      (ix2 p (⟨k * 3 + c.val, hk⟩ : Fin 12) : S2048x12.Idx) ∉ r0_12.set := fun k hk h3 hm => by
    rw [Rect.mem_set_unit] at hm
    have h1 : 9 ≤ k * 3 + c.val := (hm 1).1
    omega
  have n11 : ∀ (k : Nat) (hk : k * 3 + c.val < 12), k < 2 →
      (ix2 p (⟨k * 3 + c.val, hk⟩ : Fin 12) : S2048x12.Idx) ∉ r0_11.set := fun k hk h3 hm => by
    rw [Rect.mem_set_unit] at hm
    have h1 : 6 ≤ k * 3 + c.val := (hm 1).1
    omega
  have n10 : ∀ (k : Nat) (hk : k * 3 + c.val < 12), k < 1 →
      (ix2 p (⟨k * 3 + c.val, hk⟩ : Fin 12) : S2048x12.Idx) ∉ r0_10.set := fun k hk h3 hm => by
    rw [Rect.mem_set_unit] at hm
    have h1 : 3 ≤ k * 3 + c.val := (hm 1).1
    omega
  have e12 : (ix2 p (⟨3 * 3 + c.val, by omega⟩ : Fin 12) : S2048x12.Idx) = r0_12.emb (ix2 p c) := by
    funext a; apply Fin.ext
    match a with
    | ⟨0, _⟩ => show p.val = 0 + 1 * p.val; omega
    | ⟨1, _⟩ => show 3 * 3 + c.val = 9 + 1 * c.val; omega
  have e11 : (ix2 p (⟨2 * 3 + c.val, by omega⟩ : Fin 12) : S2048x12.Idx) = r0_11.emb (ix2 p c) := by
    funext a; apply Fin.ext
    match a with
    | ⟨0, _⟩ => show p.val = 0 + 1 * p.val; omega
    | ⟨1, _⟩ => show 2 * 3 + c.val = 6 + 1 * c.val; omega
  have e10 : (ix2 p (⟨1 * 3 + c.val, by omega⟩ : Fin 12) : S2048x12.Idx) = r0_10.emb (ix2 p c) := by
    funext a; apply Fin.ext
    match a with
    | ⟨0, _⟩ => show p.val = 0 + 1 * p.val; omega
    | ⟨1, _⟩ => show 1 * 3 + c.val = 3 + 1 * c.val; omega
  have e9 : (ix2 p (⟨0 * 3 + c.val, by omega⟩ : Fin 12) : S2048x12.Idx) = r0_9.emb (ix2 p c) := by
    funext a; apply Fin.ext
    match a with
    | ⟨0, _⟩ => show p.val = 0 + 1 * p.val; omega
    | ⟨1, _⟩ => show 0 * 3 + c.val = 0 + 1 * c.val; omega
  match v with
  | ⟨3, _⟩ =>
    show View.canon (Val := Elt Ideal) (e := .f32) _ (ix2 p (⟨3 * 3 + c.val, _⟩ : Fin 12)) = P3 (ix2 p c)
    rw [e12]
    exact View.canon_cons_emb (Val := Elt Ideal) (e := .f32) r0_12 P3 _ (ix2 p c)
  | ⟨2, _⟩ =>
    show View.canon (Val := Elt Ideal) (e := .f32) _ (ix2 p (⟨2 * 3 + c.val, _⟩ : Fin 12)) = P2 (ix2 p c)
    rw [View.canon_cons_of_not_mem (⟨r0_12, P3⟩ : View.Piece (Elt Ideal) S2048x12 .f32) _ (n12 2 (by omega) (by omega)), e11]
    exact View.canon_cons_emb (Val := Elt Ideal) (e := .f32) r0_11 P2 _ (ix2 p c)
  | ⟨1, _⟩ =>
    show View.canon (Val := Elt Ideal) (e := .f32) _ (ix2 p (⟨1 * 3 + c.val, _⟩ : Fin 12)) = P1 (ix2 p c)
    rw [View.canon_cons_of_not_mem (⟨r0_12, P3⟩ : View.Piece (Elt Ideal) S2048x12 .f32) _ (n12 1 (by omega) (by omega)),
      View.canon_cons_of_not_mem (⟨r0_11, P2⟩ : View.Piece (Elt Ideal) S2048x12 .f32) _ (n11 1 (by omega) (by omega)), e10]
    exact View.canon_cons_emb (Val := Elt Ideal) (e := .f32) r0_10 P1 _ (ix2 p c)
  | ⟨0, _⟩ =>
    show View.canon (Val := Elt Ideal) (e := .f32) _ (ix2 p (⟨0 * 3 + c.val, _⟩ : Fin 12)) = P0 (ix2 p c)
    rw [View.canon_cons_of_not_mem (⟨r0_12, P3⟩ : View.Piece (Elt Ideal) S2048x12 .f32) _ (n12 0 (by omega) (by omega)),
      View.canon_cons_of_not_mem (⟨r0_11, P2⟩ : View.Piece (Elt Ideal) S2048x12 .f32) _ (n11 0 (by omega) (by omega)),
      View.canon_cons_of_not_mem (⟨r0_10, P1⟩ : View.Piece (Elt Ideal) S2048x12 .f32) _ (n10 0 (by omega) (by omega)), e9]
    exact View.canon_cons_emb (Val := Elt Ideal) (e := .f32) r0_9 P0 _ (ix2 p c)

/-- Output vector 0's piece at row `p`, component `c`. -/
theorem vec0_apply (x0 : Vec Ideal S2048x256 .f32) (x1 : Vec Ideal S2048x96 .f32) (x2 : Vec Ideal S2048x1 .i32) (x3 : Vec Ideal S256x512 .bf16) (x4 : Vec Ideal S512x512 .bf16) (x5 : Vec Ideal S512x128 .bf16) (x9 : Vec Ideal S4x32 .f32) (p : Fin 2048) (c : Fin 3) :
    (k0_pay12 (F := Ideal) (k0_pay6 (View.ld x1 r0_6)) (k0_pay7 (View.ld x2 r0_7)) (k0_pay8 (View.ld x9 r0_8)) (k0_pay9 (k0_pay2 (View.ld x0 r0_0) (View.ld x3 r0_1) (View.ld x4 r0_2) (View.ld x5 r0_3))) (k0_pay10 (k0_pay2 (View.ld x0 r0_0) (View.ld x3 r0_1) (View.ld x4 r0_2) (View.ld x5 r0_3)) (View.ld x1 r0_6)) (k0_pay11 (k0_pay2 (View.ld x0 r0_0) (View.ld x3 r0_1) (View.ld x4 r0_2) (View.ld x5 r0_3)) (View.ld x1 r0_6))) (ix2 p c)
      = Cert.Spec.eqRow (fun j : Fin 128 => k0_pay2 (F := Ideal) (View.ld x0 r0_0) (View.ld x3 r0_1) (View.ld x4 r0_2) (View.ld x5 r0_3) (ix2 p j))
          (fun j : Fin 96 => x1 (ix2 p j)) (x2 (ix2 p 0)) (fun t : Fin 32 => x9 (ix2 (0 : Fin 4) t)) 0 c := by
  have e1 : View.ld x1 r0_6 = x1 := View.ld_unit_zero (S := S2048x96) eq01_zero2 _ x1
  have e2 : View.ld x2 r0_7 = x2 := View.ld_unit_zero (S := S2048x1) eq01_zero2 _ x2
  have e9 : View.ld x9 r0_8 = x9 := View.ld_unit_zero (S := S4x32) eq01_zero2 _ x9
  rw [e1, e2, e9]
  exact eq01_vec0_gen _ x1 x2 x9 p c

/-- Output vector 1's piece at row `p`, component `c`. -/
theorem vec1_apply (x0 : Vec Ideal S2048x256 .f32) (x1 : Vec Ideal S2048x96 .f32) (x2 : Vec Ideal S2048x1 .i32) (x3 : Vec Ideal S256x512 .bf16) (x4 : Vec Ideal S512x512 .bf16) (x5 : Vec Ideal S512x128 .bf16) (x9 : Vec Ideal S4x32 .f32) (p : Fin 2048) (c : Fin 3) :
    (k0_pay16 (F := Ideal) (k0_pay6 (View.ld x1 r0_6)) (k0_pay7 (View.ld x2 r0_7)) (k0_pay8 (View.ld x9 r0_8)) (k0_pay13 (k0_pay2 (View.ld x0 r0_0) (View.ld x3 r0_1) (View.ld x4 r0_2) (View.ld x5 r0_3))) (k0_pay14 (k0_pay2 (View.ld x0 r0_0) (View.ld x3 r0_1) (View.ld x4 r0_2) (View.ld x5 r0_3)) (k0_pay6 (View.ld x1 r0_6))) (k0_pay15 (k0_pay6 (View.ld x1 r0_6)))) (ix2 p c)
      = Cert.Spec.eqRow (fun j : Fin 128 => k0_pay2 (F := Ideal) (View.ld x0 r0_0) (View.ld x3 r0_1) (View.ld x4 r0_2) (View.ld x5 r0_3) (ix2 p j))
          (fun j : Fin 96 => x1 (ix2 p j)) (x2 (ix2 p 0)) (fun t : Fin 32 => x9 (ix2 (1 : Fin 4) t)) 1 c := by
  have e1 : View.ld x1 r0_6 = x1 := View.ld_unit_zero (S := S2048x96) eq01_zero2 _ x1
  have e2 : View.ld x2 r0_7 = x2 := View.ld_unit_zero (S := S2048x1) eq01_zero2 _ x2
  have e9 : View.ld x9 r0_8 = x9 := View.ld_unit_zero (S := S4x32) eq01_zero2 _ x9
  rw [e1, e2, e9]
  exact eq01_vec1_gen _ x1 x2 x9 p c

/-- The equivariant result's staging buffer after the body, at row `p`, vector `v`, component `c`. -/
theorem out0_11_apply (x0 : Vec Ideal S2048x256 .f32) (x1 : Vec Ideal S2048x96 .f32) (x2 : Vec Ideal S2048x1 .i32) (x3 : Vec Ideal S256x512 .bf16) (x4 : Vec Ideal S512x512 .bf16) (x5 : Vec Ideal S512x128 .bf16) (x6 : Vec Ideal S256x512 .bf16) (x7 : Vec Ideal S512x512 .bf16) (x8 : Vec Ideal S2x512 .f32) (x9 : Vec Ideal S4x32 .f32) (p : Fin 2048) (v : Fin 4) (c : Fin 3) :
    out0_11 (F := Ideal) x0 x1 x2 x3 x4 x5 x6 x7 x8 x9 (ix2 p (⟨v.val * 3 + c.val, by omega⟩ : Fin 12))
      = Cert.Spec.eqRow (Cert.Spec.mlp (fun k : Fin 256 => x0 (ix2 p k)) (fun k j => x3 (ix2 k j)) (fun k j => x4 (ix2 k j))
            (fun k j => x5 (ix2 k j)))
          (fun j : Fin 96 => x1 (ix2 p j)) (x2 (ix2 p 0)) (fun t : Fin 32 => x9 (ix2 v t)) v c := by
  have e0 : View.ld x0 r0_0 = x0 := View.ld_unit_zero (S := S2048x256) eq01_zero2 _ x0
  have e3 : View.ld x3 r0_1 = x3 := View.ld_unit_zero (S := S256x512) eq01_zero2 _ x3
  have e4 : View.ld x4 r0_2 = x4 := View.ld_unit_zero (S := S512x512) eq01_zero2 _ x4
  have e5 : View.ld x5 r0_3 = x5 := View.ld_unit_zero (S := S512x128) eq01_zero2 _ x5
  have hW : (fun j : Fin 128 => k0_pay2 (F := Ideal) (View.ld x0 r0_0) (View.ld x3 r0_1) (View.ld x4 r0_2) (View.ld x5 r0_3) (ix2 p j))
      = Cert.Spec.mlp (fun k : Fin 256 => x0 (ix2 p k)) (fun k j => x3 (ix2 k j)) (fun k j => x4 (ix2 k j))
          (fun k j => x5 (ix2 k j)) := by
    funext j
    rw [e0, e3, e4, e5]
    exact pay2_apply x0 x3 x4 x5 p j
  unfold out0_11
  refine (eq01_canon4_apply _ _ _ _ p v c).trans ?_
  rw [← hW]
  match v with
  | ⟨0, _⟩ => exact vec0_apply x0 x1 x2 x3 x4 x5 x9 p c
  | ⟨1, _⟩ => exact vec1_apply x0 x1 x2 x3 x4 x5 x9 p c
  | ⟨2, _⟩ => exact vec2_apply x0 x1 x2 x3 x4 x5 x9 p c
  | ⟨3, _⟩ => exact vec3_apply x0 x1 x2 x3 x4 x5 x9 p c

end Cert.KernelIdeal.Pay

end
-- ==== Proof.KHost.lean ====
/-
  The operands the host prepares before the region, read at one element, at the extended reals: the weight matrices
  handed to the matrix unit are the argument matrices (a change of float format is the identity), the latent last layer's
  columns are permuted so that column `32v + u` is the argument's column `4u + v`, the read-out last layer and the bond
  lengths are transposed, and the vector features `[atom, u, c]` are laid out as `[atom, 32c + u]`.
-/
import proofs.«428606_j73186242724417_3_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.HostPrep

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-! ## What each buffer holds, as one term over the arguments -/

/-- Before the region every operation that reads only arguments leaves its own function of them:
    a change of float format of a matrix. -/
theorem v5_eq (c : Dev nD) :
    (V m c main_v5 : S256x512.Idx → EReal)
      = (truncf .bf16 (m ((c : Thread nD τ).loc main_arg3) : FVec Ideal S256x512 .f32) bitsLt_bf16_f32 : FVec Ideal S256x512 .bf16) := by
  show StableHlo.after hostOps0 (fun b => m (c, b)) (Proc.devRef .tc main_v5) = _
  after_results

theorem v6_eq (c : Dev nD) :
    (V m c main_v6 : S512x512.Idx → EReal)
      = (truncf .bf16 (m ((c : Thread nD τ).loc main_arg4) : FVec Ideal S512x512 .f32) bitsLt_bf16_f32 : FVec Ideal S512x512 .bf16) := by
  show StableHlo.after hostOps0 (fun b => m (c, b)) (Proc.devRef .tc main_v6) = _
  after_results

theorem v8_eq (c : Dev nD) :
    (V m c main_v8 : S256x512.Idx → EReal)
      = (truncf .bf16 (m ((c : Thread nD τ).loc main_arg6) : FVec Ideal S256x512 .f32) bitsLt_bf16_f32 : FVec Ideal S256x512 .bf16) := by
  show StableHlo.after hostOps0 (fun b => m (c, b)) (Proc.devRef .tc main_v8) = _
  after_results

theorem v9_eq (c : Dev nD) :
    (V m c main_v9 : S512x512.Idx → EReal)
      = (truncf .bf16 (m ((c : Thread nD τ).loc main_arg7) : FVec Ideal S512x512 .f32) bitsLt_bf16_f32 : FVec Ideal S512x512 .bf16) := by
  show StableHlo.after hostOps0 (fun b => m (c, b)) (Proc.devRef .tc main_v9) = _
  after_results

theorem v10_eq (c : Dev nD) :
    (V m c main_v10 : S2x512.Idx → EReal)
      = transpose S2x512 [1, 0] (m ((c : Thread nD τ).loc main_arg8) : S512x2.Idx → EReal) transposes_S512x2_S2x512_1_0 := by
  show StableHlo.after hostOps0 (fun b => m (c, b)) (Proc.devRef .tc main_v10) = _
  after_results

theorem v12_eq (c : Dev nD) :
    (V m c main_v12 : S4x32.Idx → EReal)
      = transpose S4x32 [1, 0]
          (shapeCast S32x4 (m ((c : Thread nD τ).loc main_arg9) : S32x4x1.Idx → EReal) shapeCasts_S32x4x1_S32x4)
          transposes_S32x4_S4x32_1_0 := by
  show StableHlo.after hostOps0 (fun b => m (c, b)) (Proc.devRef .tc main_v12) = _
  after_results
  rfl

theorem v14_eq (c : Dev nD) :
    (V m c main_v14 : S32768x96.Idx → EReal)
      = shapeCast S32768x96
          (transpose S32768x3x32 [0, 2, 1] (m ((c : Thread nD τ).loc main_arg1) : S32768x32x3.Idx → EReal)
            transposes_S32768x32x3_S32768x3x32_0_2_1)
          shapeCasts_S32768x3x32_S32768x96 := by
  show StableHlo.after hostOps0 (fun b => m (c, b)) (Proc.devRef .tc main_v14) = _
  after_results
  rfl

/-! ## The column gather read at one element

The gather keeps axis 0 of the matrix whole (its one offset axis) and picks, for result column `t`, the matrix's column
named by entry `(t, 0)` of the index column, read as a signed number and clamped into `[0, 127]`. -/

section ColumnGather
variable {α : Type}

/-- On axis 0 the operand index is the result's row: no start index, no batching, offset coordinate the row itself. -/
theorem gatherCols_axis0 (j : S512x128.Idx) (idx : IVec S128x1 32) :
    (gather_S512x128_S128x1_S512x128_0_1_n_n_1_1_5121.operandIdx j idx 0).val = (j 0).val := by
  show gather_S512x128_S128x1_S512x128_0_1_n_n_1_1_5121.start j idx 0
      + gather_S512x128_S128x1_S512x128_0_1_n_n_1_1_5121.batchCoord j 0
      + gather_S512x128_S128x1_S512x128_0_1_n_n_1_1_5121.offCoord j 0 = _
  rw [GatherDims.batchCoord_eq_zero _ _ _ List.not_mem_nil]
  unfold GatherDims.start
  rw [dif_neg (show (0 : Fin S512x128.rank) ∉ gather_S512x128_S128x1_S512x128_0_1_n_n_1_1_5121.startIndexMap by decide)]
  unfold GatherDims.offCoord
  rw [dif_pos (show (0 : Fin S512x128.rank) ∈ gather_S512x128_S128x1_S512x128_0_1_n_n_1_1_5121.sKept by decide)]
  simp only [Nat.add_zero, Nat.zero_add]
  rfl

/-- On axis 1 the operand index is the start index of the result's column, clamped: no batching, no offset. -/
theorem gatherCols_axis1 (j : S512x128.Idx) (idx : IVec S128x1 32) :
    (gather_S512x128_S128x1_S512x128_0_1_n_n_1_1_5121.operandIdx j idx 1).val
      = min (idx (ix2 (⟨(j 1).val, idx2_lt1 j⟩ : Fin 128) (0 : Fin 1))).toInt.toNat 127 := by
  show gather_S512x128_S128x1_S512x128_0_1_n_n_1_1_5121.start j idx 1
      + gather_S512x128_S128x1_S512x128_0_1_n_n_1_1_5121.batchCoord j 1
      + gather_S512x128_S128x1_S512x128_0_1_n_n_1_1_5121.offCoord j 1 = _
  rw [GatherDims.batchCoord_eq_zero _ _ _ List.not_mem_nil,
    GatherDims.offCoord_eq_zero _ _ _ (show (1 : Fin S512x128.rank) ∉ gather_S512x128_S128x1_S512x128_0_1_n_n_1_1_5121.sKept by decide)]
  simp only [Nat.add_zero]
  unfold GatherDims.start
  rw [dif_pos (show (1 : Fin S512x128.rank) ∈ gather_S512x128_S128x1_S512x128_0_1_n_n_1_1_5121.startIndexMap by decide)]
  have hsi : gather_S512x128_S128x1_S512x128_0_1_n_n_1_1_5121.siIdx j
      ⟨List.idxOf (1 : Fin S512x128.rank) gather_S512x128_S128x1_S512x128_0_1_n_n_1_1_5121.startIndexMap,
        List.idxOf_lt_length_iff.2 (by decide)⟩ = ix2 (⟨(j 1).val, idx2_lt1 j⟩ : Fin 128) (0 : Fin 1) := by
    funext b; refine Fin.ext ?_
    match b with
    | ⟨0, _⟩ => rfl
    | ⟨1, _⟩ => rfl
  rw [hsi]
  rfl

/-- The gather at `(k, t)`: the matrix at row `k` and at the column the index column names at `(t, 0)`, clamped. -/
theorem gatherCols_apply (x : S512x128.Idx → α) (idx : IVec S128x1 32) (k : Fin 512) (t : Fin 128) :
    Host.gather gather_S512x128_S128x1_S512x128_0_1_n_n_1_1_5121 x idx (ix2 k t)
      = x (ix2 k (⟨min (idx (ix2 t (0 : Fin 1))).toInt.toNat 127, by omega⟩ : Fin 128)) := by
  unfold Host.gather
  refine congrArg x (funext fun a => Fin.ext ?_)
  match a with
  | ⟨0, _⟩ => exact gatherCols_axis0 _ _
  | ⟨1, _⟩ => exact gatherCols_axis1 _ _

end ColumnGather

/-! ## The index column the gather reads -/

/-- The index column as the host operations build it: the printed table, its wrap for negative entries (taken nowhere:
    the mask is constant false), laid out as a `[128, 1]` column. -/
def colTable : IVec S128x1 32 :=
  broadcastInDim S128x1 ![0] bcast_S128_S128x1_0
    (select (constantI S128 1 0#1)
      (addi (fun i => lit0 (S128.rowMajor i)) (broadcastInDim S128 ![] bcast_S_S128 (constantI S_ 32 128#32)))
      (fun i => lit0 (S128.rowMajor i)))

/-- Entry `(t, 0)` of the index column is entry `t` of the printed table. -/
theorem colTable_apply (t : Fin 128) : colTable (ix2 t (0 : Fin 1)) = lit0 t := by
  unfold colTable
  refine (broadcastInDim_apply ![0] bcast_S128_S128x1_0 _ (ix2 t (0 : Fin 1)) (ix1 t)
    (fun a => match a with | ⟨0, _⟩ => rfl)).trans ?_
  rw [select_apply, constantI_apply, select_zero]
  exact congrArg lit0 (Fin.ext (Shape.rowMajor_val_one _))

theorem v7_eq (c : Dev nD) :
    (V m c main_v7 : S512x128.Idx → EReal)
      = (truncf .bf16
          (Host.gather gather_S512x128_S128x1_S512x128_0_1_n_n_1_1_5121
            (m ((c : Thread nD τ).loc main_arg5) : FVec Ideal S512x128 .f32) colTable : FVec Ideal S512x128 .f32)
          bitsLt_bf16_f32 : FVec Ideal S512x128 .bf16) := by
  show StableHlo.after hostOps0 (fun b => m (c, b)) (Proc.devRef .tc main_v7) = _
  after_results
  rfl

/-- The printed index table sends `32v + u` to `4u + v`. -/
theorem lit0_col : ∀ v : Fin 4, ∀ u : Fin 32,
    (lit0 (⟨v.val * 32 + u.val, by omega⟩ : Fin 128)).toInt.toNat = u.val * 4 + v.val := by
  decide

/-- The vector features as the region finds them: `[atom, 32c + u]` holds the argument's `[atom, u, c]`. -/
theorem V_v14_apply (c : Dev nD) (n : Fin 32768) (cc : Fin 3) (u : Fin 32) :
    (V m c main_v14 : S32768x96.Idx → EReal) (ix2 n (⟨cc.val * 32 + u.val, by omega⟩ : Fin 96))
      = (m ((c : Thread nD τ).loc main_arg1) : S32768x32x3.Idx → EReal) (ix3 n u cc) := by
  rw [v14_eq]
  -- position `96 n + (32 c + u)` of the flat rows is position `(3 n + c) 32 + u` of the stack of transposed matrices
  refine (shapeCast_apply _ shapeCasts_S32768x3x32_S32768x96 _ (ix3 n cc u) ?_).trans ?_
  · rw [Shape.rowMajor_val_three, Shape.rowMajor_val_two]
    show (n.val * 3 + cc.val) * 32 + u.val = n.val * 96 + (cc.val * 32 + u.val)
    omega
  · exact transpose_ix3_021_apply _ transposes_S32768x32x3_S32768x3x32_0_2_1 n cc u

/-- The latent first layer's weights are the argument's. -/
theorem V_v5_apply (c : Dev nD) (i : S256x512.Idx) :
    (V m c main_v5 : S256x512.Idx → EReal) i = (m ((c : Thread nD τ).loc main_arg3) : S256x512.Idx → EReal) i := by
  rw [v5_eq]; rfl

/-- The latent second layer's weights are the argument's. -/
theorem V_v6_apply (c : Dev nD) (i : S512x512.Idx) :
    (V m c main_v6 : S512x512.Idx → EReal) i = (m ((c : Thread nD τ).loc main_arg4) : S512x512.Idx → EReal) i := by
  rw [v6_eq]; rfl

/-- The latent last layer's weights with permuted columns: column `32v + u` is the argument's column `4u + v`. -/
theorem V_v7_apply (c : Dev nD) (k : Fin 512) (v : Fin 4) (u : Fin 32) :
    (V m c main_v7 : S512x128.Idx → EReal) (ix2 k (⟨v.val * 32 + u.val, by omega⟩ : Fin 128))
      = (m ((c : Thread nD τ).loc main_arg5) : S512x128.Idx → EReal) (ix2 k (⟨u.val * 4 + v.val, by omega⟩ : Fin 128)) := by
  rw [v7_eq]
  -- the change of float format is the identity, and the gather reads the column the table names, `4u + v`, unclamped
  refine (truncf_apply (φ := .f32) (ψ := .bf16) _ bitsLt_bf16_f32 _).trans ?_
  refine (gatherCols_apply (m ((c : Thread nD τ).loc main_arg5) : S512x128.Idx → EReal) colTable k _).trans ?_
  refine congrArg _ (congrArg (ix2 k) (Fin.ext ?_))
  show min (colTable (ix2 (⟨v.val * 32 + u.val, by omega⟩ : Fin 128) (0 : Fin 1))).toInt.toNat 127 = u.val * 4 + v.val
  rw [colTable_apply, lit0_col v u]
  omega

/-- The read-out first layer's weights are the argument's. -/
theorem V_v8_apply (c : Dev nD) (i : S256x512.Idx) :
    (V m c main_v8 : S256x512.Idx → EReal) i = (m ((c : Thread nD τ).loc main_arg6) : S256x512.Idx → EReal) i := by
  rw [v8_eq]; rfl

/-- The read-out second layer's weights are the argument's. -/
theorem V_v9_apply (c : Dev nD) (i : S512x512.Idx) :
    (V m c main_v9 : S512x512.Idx → EReal) i = (m ((c : Thread nD τ).loc main_arg7) : S512x512.Idx → EReal) i := by
  rw [v9_eq]; rfl

/-- The read-out last layer's weights, transposed. -/
theorem V_v10_apply (c : Dev nD) (j : Fin 2) (k : Fin 512) :
    (V m c main_v10 : S2x512.Idx → EReal) (ix2 j k) = (m ((c : Thread nD τ).loc main_arg8) : S512x2.Idx → EReal) (ix2 k j) := by
  rw [v10_eq]
  exact transpose_ix2_apply _ transposes_S512x2_S2x512_1_0 j k

/-- The bond lengths as `[vector, type]`. -/
theorem V_v12_apply (c : Dev nD) (v : Fin 4) (ty : Fin 32) :
    (V m c main_v12 : S4x32.Idx → EReal) (ix2 v ty)
      = (m ((c : Thread nD τ).loc main_arg9) : S32x4x1.Idx → EReal) (ix3 ty v (0 : Fin 1)) := by
  rw [v12_eq]
  refine (transpose_ix2_apply _ transposes_S32x4_S4x32_1_0 v ty).trans ?_
  -- dropping the trailing unit axis keeps the row-major position `4 ty + v`
  refine shapeCast_apply _ shapeCasts_S32x4x1_S32x4 _ (ix3 ty v (0 : Fin 1)) ?_
  rw [Shape.rowMajor_val_three, Shape.rowMajor_val_two]
  show (ty.val * 4 + v.val) * 1 + 0 = ty.val * 4 + v.val
  omega

end Cert.KernelIdeal.HostPrep

end
-- ==== Proof.KBlocks.lean ====
/-
  From blocks to arrays. Grid point `t` of the sixteen stages rows `2048 t … 2048 t + 2047` of the scalar features, of the
  flattened vector features and of the type numbers, the whole of each weight matrix and of the bond lengths, and writes
  back rows `2048 t …` of the two results. Row `p` of what point `t` writes back is the specification's value for atom
  `2048 t + p`, so, the sixteen blocks covering all atoms, each result array ends as the specification's function of the
  argument arrays; the second result is then reshaped from twelve columns to `[4, 3]`.
-/
import proofs.«428606_j73186242724417_3_alg».proof.Proof.Gen.KernelIdeal.Frame
import proofs.«428606_j73186242724417_3_alg».proof.Proof.Spec
import proofs.«428606_j73186242724417_3_alg».proof.Proof.SpecLaws
import proofs.«428606_j73186242724417_3_alg».proof.Proof.KInv
import proofs.«428606_j73186242724417_3_alg».proof.Proof.KEq01
import proofs.«428606_j73186242724417_3_alg».proof.Proof.KHost
import Idealize.ShloMosaic.Lib.Pipeline.Value
import Idealize.ShloMosaic.Lib.ValueIdx
import Idealize.ShloMosaic.Lib.ValueLayout
import Idealize.ShloMosaic.Lib.StableHlo.Run

noncomputable section

open scoped BigOperators

namespace Cert.KernelIdeal.Blocks

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The printed index maps over the sixteen points: the three per-atom inputs and the two results are at block row `t`,
    column block `0`; the weights and bond lengths are at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = t.val ∧ win0_10.index t (1 : Fin 2) = 0
    ∧ win0_11.index t (0 : Fin 2) = t.val ∧ win0_11.index t (1 : Fin 2) = 0 :=
  (by decide +kernel : ∀ t : Fin grid0.N, _)

theorem t_lt (t : Fin cfg0.N) : t.val < 16 := by have := t.isLt; have h : cfg0.N = 16 := N_0; omega

/-- The atom that row `p` of point `t`'s blocks belongs to. -/
def atom (t : Fin cfg0.N) (p : Fin 2048) : Fin 32768 := ⟨t.val * 2048 + p.val, by have := t_lt t; have := p.isLt; omega⟩

/-! ## The input blocks read at an element -/

/-- Row `p` of the scalar-feature block at point `t` is the argument's row of atom `2048 t + p`. -/
theorem blk0 (c : Dev nD) (t : Fin cfg0.N) (p : Fin 2048) (k : Fin 256) :
    iblk m c 0 t (ix2 p k) = (m ((c : Thread nD τ).loc main_arg0) : S32768x256.Idx → EReal) (ix2 (atom t p) k) := by
  show V m c main_arg0 (((cfg0.win 0).blk t).view.emb (ix2 p k)) = _
  rw [V_main_arg0]
  obtain ⟨e0, e1, -⟩ := idx_facts t
  refine congrArg _ (funext fun a => Fin.ext ?_)
  match a with
  | ⟨0, _⟩ => show win0_0.index t (0 : Fin 2) * 2048 + 1 * p.val = t.val * 2048 + p.val; omega
  | ⟨1, _⟩ => show win0_0.index t (1 : Fin 2) * 256 + 1 * k.val = k.val; omega

/-- Row `p` of the flattened vector-feature block at point `t` is the prepared array's row of atom `2048 t + p`. -/
theorem blk1 (c : Dev nD) (t : Fin cfg0.N) (p : Fin 2048) (j : Fin 96) :
    iblk m c 1 t (ix2 p j) = (V m c main_v14 : S32768x96.Idx → EReal) (ix2 (atom t p) j) := by
  show V m c main_v14 (((cfg0.win 1).blk t).view.emb (ix2 p j)) = _
  have h := idx_facts t
  refine congrArg _ (funext fun a => Fin.ext ?_)
  match a with
  | ⟨0, _⟩ => show win0_1.index t (0 : Fin 2) * 2048 + 1 * p.val = t.val * 2048 + p.val; omega
  | ⟨1, _⟩ => show win0_1.index t (1 : Fin 2) * 96 + 1 * j.val = j.val; omega

/-- Row `p` of the type-number block at point `t` is the argument's entry of atom `2048 t + p`. -/
theorem blk2 (c : Dev nD) (t : Fin cfg0.N) (p : Fin 2048) :
    iblk m c 2 t (ix2 p (0 : Fin 1)) = (m ((c : Thread nD τ).loc main_arg2) : S32768x1.Idx → BitVec 32) (ix2 (atom t p) (0 : Fin 1)) := by
  show V m c main_arg2 (((cfg0.win 2).blk t).view.emb (ix2 p (0 : Fin 1))) = _
  rw [V_main_arg2]
  have h := idx_facts t
  refine congrArg _ (funext fun a => Fin.ext ?_)
  match a with
  | ⟨0, _⟩ => show win0_2.index t (0 : Fin 2) * 2048 + 1 * p.val = t.val * 2048 + p.val; omega
  | ⟨1, _⟩ => show win0_2.index t (1 : Fin 2) * 1 + 1 * 0 = 0; omega

/-- The latent first-layer weights are staged whole at every point. -/
theorem blk3 (c : Dev nD) (t : Fin cfg0.N) (k : Fin 256) (j : Fin 512) :
    iblk m c 3 t (ix2 k j) = (V m c main_v5 : S256x512.Idx → EReal) (ix2 k j) := by
  show V m c main_v5 (((cfg0.win 3).blk t).view.emb (ix2 k j)) = _
  have h := idx_facts t
  refine congrArg _ (funext fun a => Fin.ext ?_)
  match a with
  | ⟨0, _⟩ => show win0_3.index t (0 : Fin 2) * 256 + 1 * k.val = k.val; omega
  | ⟨1, _⟩ => show win0_3.index t (1 : Fin 2) * 512 + 1 * j.val = j.val; omega

/-- The latent second-layer weights are staged whole at every point. -/
theorem blk4 (c : Dev nD) (t : Fin cfg0.N) (k : Fin 512) (j : Fin 512) :
    iblk m c 4 t (ix2 k j) = (V m c main_v6 : S512x512.Idx → EReal) (ix2 k j) := by
  show V m c main_v6 (((cfg0.win 4).blk t).view.emb (ix2 k j)) = _
  have h := idx_facts t
  refine congrArg _ (funext fun a => Fin.ext ?_)
  match a with
  | ⟨0, _⟩ => show win0_4.index t (0 : Fin 2) * 512 + 1 * k.val = k.val; omega
  | ⟨1, _⟩ => show win0_4.index t (1 : Fin 2) * 512 + 1 * j.val = j.val; omega

/-- The latent last-layer weights (columns permuted) are staged whole at every point. -/
theorem blk5 (c : Dev nD) (t : Fin cfg0.N) (k : Fin 512) (j : Fin 128) :
    iblk m c 5 t (ix2 k j) = (V m c main_v7 : S512x128.Idx → EReal) (ix2 k j) := by
  show V m c main_v7 (((cfg0.win 5).blk t).view.emb (ix2 k j)) = _
  have h := idx_facts t
  refine congrArg _ (funext fun a => Fin.ext ?_)
  match a with
  | ⟨0, _⟩ => show win0_5.index t (0 : Fin 2) * 512 + 1 * k.val = k.val; omega
  | ⟨1, _⟩ => show win0_5.index t (1 : Fin 2) * 128 + 1 * j.val = j.val; omega

/-- The read-out first-layer weights are staged whole at every point. -/
theorem blk6 (c : Dev nD) (t : Fin cfg0.N) (k : Fin 256) (j : Fin 512) :
    iblk m c 6 t (ix2 k j) = (V m c main_v8 : S256x512.Idx → EReal) (ix2 k j) := by
  show V m c main_v8 (((cfg0.win 6).blk t).view.emb (ix2 k j)) = _
  have h := idx_facts t
  refine congrArg _ (funext fun a => Fin.ext ?_)
  match a with
  | ⟨0, _⟩ => show win0_6.index t (0 : Fin 2) * 256 + 1 * k.val = k.val; omega
  | ⟨1, _⟩ => show win0_6.index t (1 : Fin 2) * 512 + 1 * j.val = j.val; omega

/-- The read-out second-layer weights are staged whole at every point. -/
theorem blk7 (c : Dev nD) (t : Fin cfg0.N) (k : Fin 512) (j : Fin 512) :
    iblk m c 7 t (ix2 k j) = (V m c main_v9 : S512x512.Idx → EReal) (ix2 k j) := by
  show V m c main_v9 (((cfg0.win 7).blk t).view.emb (ix2 k j)) = _
  have h := idx_facts t
  refine congrArg _ (funext fun a => Fin.ext ?_)
  match a with
  | ⟨0, _⟩ => show win0_7.index t (0 : Fin 2) * 512 + 1 * k.val = k.val; omega
  | ⟨1, _⟩ => show win0_7.index t (1 : Fin 2) * 512 + 1 * j.val = j.val; omega

/-- The transposed read-out last-layer weights are staged whole at every point. -/
theorem blk8 (c : Dev nD) (t : Fin cfg0.N) (k : Fin 2) (j : Fin 512) :
    iblk m c 8 t (ix2 k j) = (V m c main_v10 : S2x512.Idx → EReal) (ix2 k j) := by
  show V m c main_v10 (((cfg0.win 8).blk t).view.emb (ix2 k j)) = _
  have h := idx_facts t
  refine congrArg _ (funext fun a => Fin.ext ?_)
  match a with
  | ⟨0, _⟩ => show win0_8.index t (0 : Fin 2) * 2 + 1 * k.val = k.val; omega
  | ⟨1, _⟩ => show win0_8.index t (1 : Fin 2) * 512 + 1 * j.val = j.val; omega

/-- The bond lengths by vector and type are staged whole at every point. -/
theorem blk9 (c : Dev nD) (t : Fin cfg0.N) (k : Fin 4) (j : Fin 32) :
    iblk m c 9 t (ix2 k j) = (V m c main_v12 : S4x32.Idx → EReal) (ix2 k j) := by
  show V m c main_v12 (((cfg0.win 9).blk t).view.emb (ix2 k j)) = _
  have h := idx_facts t
  refine congrArg _ (funext fun a => Fin.ext ?_)
  match a with
  | ⟨0, _⟩ => show win0_9.index t (0 : Fin 2) * 4 + 1 * k.val = k.val; omega
  | ⟨1, _⟩ => show win0_9.index t (1 : Fin 2) * 32 + 1 * j.val = j.val; omega

/-! ## The invariant result -/

theorem hz : (![0, 0] : Fin 2 → Nat) = fun _ => 0 := funext fun a => by fin_cases a <;> rfl

/-- The first result as one function of the argument arrays. -/
def inv (c : Dev nD) : S32768x2.Idx → EReal := fun i =>
  Cert.Spec.invOut (m ((c : Thread nD τ).loc main_arg0)) (m ((c : Thread nD τ).loc main_arg6)) (m ((c : Thread nD τ).loc main_arg7))
    (m ((c : Thread nD τ).loc main_arg8)) (i 0) (i 1)

/-- What point `t` writes back of the first result is block `t` of `inv`. -/
theorem flushed10_eq (c : Dev nD) (t : Fin cfg0.N) :
    (dats m 0 c).flushed 10 t = ((cfg0.win 10).blk t).view.read (Elt Ideal) (inv m c) := by
  show (cfg0.win 10).cut (grid0.coords t) ((dats m 0 c).after 10 t) = _
  rw [after0_10]
  funext y
  obtain ⟨p, j, rfl⟩ : ∃ (p : Fin 2048) (j : Fin 2), y = ix2 p j := ⟨y 0, y 1, eq_ix2 y⟩
  show out0_10 (iblk m c 0 t) (iblk m c 1 t) (iblk m c 2 t) (iblk m c 3 t) (iblk m c 4 t) (iblk m c 5 t) (iblk m c 6 t) (iblk m c 7 t) (iblk m c 8 t) (iblk m c 9 t) (ix2 p j)
    = inv m c (((cfg0.win 10).blk t).view.emb (ix2 p j))
  have hemb : ((cfg0.win 10).blk t).view.emb (ix2 p j) = ix2 (atom t p) j := by
    have h := idx_facts t
    refine funext fun a => Fin.ext ?_
    match a with
    | ⟨0, _⟩ => show win0_10.index t (0 : Fin 2) * 2048 + 1 * p.val = t.val * 2048 + p.val; omega
    | ⟨1, _⟩ => show win0_10.index t (1 : Fin 2) * 2 + 1 * j.val = j.val; omega
  rw [hemb]
  refine (Pay.out0_10_apply (iblk m c 0 t) (iblk m c 1 t) (iblk m c 2 t) (iblk m c 3 t) (iblk m c 4 t) (iblk m c 5 t) (iblk m c 6 t) (iblk m c 7 t) (iblk m c 8 t) (iblk m c 9 t) p j).trans ?_
  show _ = Cert.Spec.invOut _ _ _ _ (atom t p) j
  unfold Cert.Spec.invOut
  simp only [blk0, blk6, blk7, blk8]
  have e6 : (fun (k : Fin 256) (j : Fin 512) => (V m c main_v8 : S256x512.Idx → EReal) (ix2 k j))
      = fun k j => (m ((c : Thread nD τ).loc main_arg6) : S256x512.Idx → EReal) (ix2 k j) :=
    funext fun k => funext fun j => HostPrep.V_v8_apply m c (ix2 k j)
  have e7 : (fun (k : Fin 512) (j : Fin 512) => (V m c main_v9 : S512x512.Idx → EReal) (ix2 k j))
      = fun k j => (m ((c : Thread nD τ).loc main_arg7) : S512x512.Idx → EReal) (ix2 k j) :=
    funext fun k => funext fun j => HostPrep.V_v9_apply m c (ix2 k j)
  have e8 : (fun (k : Fin 512) (j : Fin 2) => (V m c main_v10 : S2x512.Idx → EReal) (ix2 j k))
      = fun k j => (m ((c : Thread nD τ).loc main_arg8) : S512x2.Idx → EReal) (ix2 k j) :=
    funext fun k => funext fun j => HostPrep.V_v10_apply m c j k
  rw [e6, e7, e8]

/-- An index of the first result's array is in point `t`'s block iff each coordinate is in the block's range. -/
theorem mem_blk10 (t : Fin cfg0.N) (i : S32768x2.Idx) :
    i ∈ ((cfg0.win 10).blk t).view.set ↔ ∀ a : Fin 2, win0_10.index t a * S2048x2.size a ≤ (i a).val ∧ (i a).val < win0_10.index t a * S2048x2.size a + S2048x2.size a := by
  show i ∈ ((View.whole main_v15_0).slice (win0_10.rect t)).set ↔ _
  rw [View.set_slice_whole, Rect.mem_set_unit]
  exact Iff.rfl

/-- Every atom is in some point's block of the first result. -/
theorem cover10 (i : S32768x2.Idx) : ∃ t : Fin cfg0.N, (cfg0.win 10).flush t = true ∧ i ∈ ((cfg0.win 10).blk t).view.set := by
  have hi0 : (i 0).val < 32768 := (i 0).isLt
  have hi1 : (i 1).val < 2 := (i 1).isLt
  have hN : cfg0.N = 16 := N_0
  let t0 : Fin cfg0.N := ⟨(i 0).val / 2048, by omega⟩
  have ht0 : t0.val = (i 0).val / 2048 := rfl
  refine ⟨t0, flush0_10 t0, ?_⟩
  rw [mem_blk10]
  have h := idx_facts t0
  intro a
  match a with
  | ⟨0, _⟩ => show win0_10.index t0 (0 : Fin 2) * 2048 ≤ (i 0).val ∧ (i 0).val < win0_10.index t0 (0 : Fin 2) * 2048 + 2048; omega
  | ⟨1, _⟩ => show win0_10.index t0 (1 : Fin 2) * 2 ≤ (i 1).val ∧ (i 1).val < win0_10.index t0 (1 : Fin 2) * 2 + 2; omega

/-- The first result's array after the run. -/
theorem final10 (c : Dev nD) : (dats m 0 c).arrAt 10 cfg0.N = inv m c :=
  (dats m 0 c).arrAt_eq_of_cover 10 (inv m c) (fun t _ => flushed10_eq m c t) (cover10)

/-! ## The equivariant result -/

/-- The second result before its final reshape: column `3v + c` of atom `n`'s row holds vector `v`, component `c`. -/
def eq12 (c : Dev nD) : S32768x12.Idx → EReal := fun i =>
  Cert.Spec.eqOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg9))
    (i 0) (⟨(i 1).val / 3, by have h : (i 1).val < 12 := (i 1).isLt; omega⟩ : Fin 4) (⟨(i 1).val % 3, Nat.mod_lt _ (by norm_num)⟩ : Fin 3)

/-- Every atom's type number is below 32. -/
def TypesInRange : Prop :=
  ∀ (c : Dev nD) (n : Fin 32768), ((m ((c : Thread nD τ).loc main_arg2) : S32768x1.Idx → BitVec 32) (ix2 n (0 : Fin 1))).toNat < 32

/-- What point `t` writes back of the second result is block `t` of `eq12`. -/
theorem flushed11_eq (hty : TypesInRange m) (c : Dev nD) (t : Fin cfg0.N) :
    (dats m 0 c).flushed 11 t = ((cfg0.win 11).blk t).view.read (Elt Ideal) (eq12 m c) := by
  show (cfg0.win 11).cut (grid0.coords t) ((dats m 0 c).after 11 t) = _
  rw [after0_11]
  funext y
  obtain ⟨p, q, rfl⟩ : ∃ (p : Fin 2048) (q : Fin 12), y = ix2 p q := ⟨y 0, y 1, eq_ix2 y⟩
  show out0_11 (iblk m c 0 t) (iblk m c 1 t) (iblk m c 2 t) (iblk m c 3 t) (iblk m c 4 t) (iblk m c 5 t) (iblk m c 6 t) (iblk m c 7 t) (iblk m c 8 t) (iblk m c 9 t) (ix2 p q)
    = eq12 m c (((cfg0.win 11).blk t).view.emb (ix2 p q))
  have hemb : ((cfg0.win 11).blk t).view.emb (ix2 p q) = ix2 (atom t p) q := by
    have h := idx_facts t
    refine funext fun a => Fin.ext ?_
    match a with
    | ⟨0, _⟩ => show win0_11.index t (0 : Fin 2) * 2048 + 1 * p.val = t.val * 2048 + p.val; omega
    | ⟨1, _⟩ => show win0_11.index t (1 : Fin 2) * 12 + 1 * q.val = q.val; omega
  rw [hemb]
  have hq := q.isLt
  let v : Fin 4 := ⟨q.val / 3, by omega⟩
  let cc : Fin 3 := ⟨q.val % 3, Nat.mod_lt _ (by norm_num)⟩
  have hq' : q = (⟨v.val * 3 + cc.val, by omega⟩ : Fin 12) := Fin.ext (by show q.val = q.val / 3 * 3 + q.val % 3; omega)
  rw [hq']
  refine (Pay.out0_11_apply (iblk m c 0 t) (iblk m c 1 t) (iblk m c 2 t) (iblk m c 3 t) (iblk m c 4 t) (iblk m c 5 t) (iblk m c 6 t) (iblk m c 7 t) (iblk m c 8 t) (iblk m c 9 t) p v cc).trans ?_
  have hv : (⟨(v.val * 3 + cc.val) / 3, by omega⟩ : Fin 4) = v := Fin.ext (by show (q.val / 3 * 3 + q.val % 3) / 3 = q.val / 3; omega)
  have hc : (⟨(v.val * 3 + cc.val) % 3, Nat.mod_lt _ (by norm_num)⟩ : Fin 3) = cc := Fin.ext (by show (q.val / 3 * 3 + q.val % 3) % 3 = q.val % 3; omega)
  show _ = Cert.Spec.eqOut _ _ _ _ _ _ _ (atom t p) (⟨(v.val * 3 + cc.val) / 3, _⟩ : Fin 4) (⟨(v.val * 3 + cc.val) % 3, _⟩ : Fin 3)
  rw [hv, hc]
  unfold Cert.Spec.eqOut Cert.Spec.weight
  simp only [blk0, blk1, blk2, blk3, blk4, blk5, blk9]
  have e3 : (fun (k : Fin 256) (j : Fin 512) => (V m c main_v5 : S256x512.Idx → EReal) (ix2 k j))
      = fun k j => ((m ((c : Thread nD τ).loc main_arg3)) : S256x512.Idx → EReal) (ix2 k j) :=
    funext fun k => funext fun j => HostPrep.V_v5_apply m c (ix2 k j)
  have e4 : (fun (k : Fin 512) (j : Fin 512) => (V m c main_v6 : S512x512.Idx → EReal) (ix2 k j))
      = fun k j => ((m ((c : Thread nD τ).loc main_arg4)) : S512x512.Idx → EReal) (ix2 k j) :=
    funext fun k => funext fun j => HostPrep.V_v6_apply m c (ix2 k j)
  have e9 : (fun ty : Fin 32 => (V m c main_v12 : S4x32.Idx → EReal) (ix2 v ty))
      = fun ty => ((m ((c : Thread nD τ).loc main_arg9)) : S32x4x1.Idx → EReal) (ix3 ty v (0 : Fin 1)) :=
    funext fun ty => HostPrep.V_v12_apply m c v ty
  rw [e3, e4, e9]
  exact Cert.Spec.eqRow_eq _ _ _ (fun k j => ((m ((c : Thread nD τ).loc main_arg5)) : S512x128.Idx → EReal) (ix2 k j)) _
    (fun k v u => HostPrep.V_v7_apply m c k v u) _ (fun u c' => ((m ((c : Thread nD τ).loc main_arg1)) : S32768x32x3.Idx → EReal) (ix3 (atom t p) u c'))
    (fun c' u => HostPrep.V_v14_apply m c (atom t p) c' u) _ (hty c (atom t p)) _ v cc

/-- An index of the second result's array is in point `t`'s block iff each coordinate is in the block's range. -/
theorem mem_blk11 (t : Fin cfg0.N) (i : S32768x12.Idx) :
    i ∈ ((cfg0.win 11).blk t).view.set ↔ ∀ a : Fin 2, win0_11.index t a * S2048x12.size a ≤ (i a).val ∧ (i a).val < win0_11.index t a * S2048x12.size a + S2048x12.size a := by
  show i ∈ ((View.whole main_v15_1).slice (win0_11.rect t)).set ↔ _
  rw [View.set_slice_whole, Rect.mem_set_unit]
  exact Iff.rfl

/-- Every atom is in some point's block of the second result. -/
theorem cover11 (i : S32768x12.Idx) : ∃ t : Fin cfg0.N, (cfg0.win 11).flush t = true ∧ i ∈ ((cfg0.win 11).blk t).view.set := by
  have hi0 : (i 0).val < 32768 := (i 0).isLt
  have hi1 : (i 1).val < 12 := (i 1).isLt
  have hN : cfg0.N = 16 := N_0
  let t0 : Fin cfg0.N := ⟨(i 0).val / 2048, by omega⟩
  have ht0 : t0.val = (i 0).val / 2048 := rfl
  refine ⟨t0, flush0_11 t0, ?_⟩
  rw [mem_blk11]
  have h := idx_facts t0
  intro a
  match a with
  | ⟨0, _⟩ => show win0_11.index t0 (0 : Fin 2) * 2048 ≤ (i 0).val ∧ (i 0).val < win0_11.index t0 (0 : Fin 2) * 2048 + 2048; omega
  | ⟨1, _⟩ => show win0_11.index t0 (1 : Fin 2) * 12 ≤ (i 1).val ∧ (i 1).val < win0_11.index t0 (1 : Fin 2) * 12 + 12; omega

/-- The second result's twelve-column array after the region. -/
theorem final11 (hty : TypesInRange m) (c : Dev nD) : (dats m 0 c).arrAt 11 cfg0.N = eq12 m c :=
  (dats m 0 c).arrAt_eq_of_cover 11 (eq12 m c) (fun t _ => flushed11_eq m hty c t) (cover11)

/-! ## The host tail and the run -/

/-- The second result as one function of the argument arrays. -/
def eqv (c : Dev nD) : S32768x4x3.Idx → EReal := fun i =>
  Cert.Spec.eqOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg9)) (i 0) (i 1) (i 2)

/-- The reshape after the region reads column `3v + c` of the twelve as entry `(v, c)`: the second result is `eqv`. -/
theorem tail16 (hty : TypesInRange m) (c : Dev nD) :
    Pipeline.afterTail₀ cfgs (dats m) 0 (V0 m) [hostOps1] c main_v16 = eqv m c := by
  unfold Pipeline.afterTail₀
  show StableHlo.after hostOps1 _ (Proc.devRef .tc main_v16) = _
  after_results
  rw [Pipeline.withArrays_arr spec0 launch0.win.arr_inj c _ _ 11, final11 m hty c]
  funext i
  obtain ⟨n, v, cc, rfl⟩ : ∃ (n : Fin 32768) (v : Fin 4) (cc : Fin 3), i = ix3 n v cc := ⟨i 0, i 1, i 2, eq_ix3 i⟩
  have hv := v.isLt; have hc := cc.isLt
  refine (shapeCast_apply (eq12 m c) _ (ix3 n v cc) (ix2 n (⟨v.val * 3 + cc.val, by omega⟩ : Fin 12)) ?_).trans ?_
  · rw [Shape.rowMajor_val_two, Shape.rowMajor_val_three]
    show n.val * 12 + (v.val * 3 + cc.val) = (n.val * 4 + v.val) * 3 + cc.val
    omega
  · have e1 : (⟨(v.val * 3 + cc.val) / 3, by omega⟩ : Fin 4) = v := Fin.ext (by show (v.val * 3 + cc.val) / 3 = v.val; omega)
    have e2 : (⟨(v.val * 3 + cc.val) % 3, Nat.mod_lt _ (by norm_num)⟩ : Fin 3) = cc := Fin.ext (by show (v.val * 3 + cc.val) % 3 = cc.val; omega)
    show Cert.Spec.eqOut _ _ _ _ _ _ _ n (⟨(v.val * 3 + cc.val) / 3, _⟩ : Fin 4) (⟨(v.val * 3 + cc.val) % 3, _⟩ : Fin 3) = Cert.Spec.eqOut _ _ _ _ _ _ _ n v cc
    rw [e1, e2]

/-- The kernel program runs, and ends with the first result at `inv`, the second at `eqv`, the arguments unchanged. -/
theorem run (hty : TypesInRange m) : θ_run defs (onTc (τ := τ) (main (F := Ideal))) ⟨m, fun _ => 0, ρ⟩ fun r => ∀ c : Dev nD,
      r.2.mem ((c.tc : Thread nD τ).loc main_v15_0) = inv m c
      ∧ r.2.mem ((c.tc : Thread nD τ).loc main_v16) = eqv m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨((h c).1 10).trans (final10 m c),
      ((h c).2 main_v16 (Pipeline.mem_restRefs_of main_v16 (by decide) (by decide))).trans (tail16 m hty c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c))⟩)
    (run_main m ρ)

end Cert.KernelIdeal.Blocks

end
-- ==== Proof.RefTerm.lean ====
/-
  The reference's two results as pure functions of its argument arrays, one function per stretch of its program:
  the activation `siluArr`, the two hidden layers `hiddenArr`, the latent and read-out last layers `latentArr` and
  `invArr`, the contraction with the vector features `mixArr`, the division by the length `unitArr`, the replacement
  of infinities `cleanArr` (over `whereArr`), the bond lengths gathered by atom type `bondArr`, and the product `eqArr`.
-/
import proofs.«428606_j73186242724417_3_alg».proof.Proof.Gen.ReferenceIdeal

noncomputable section

namespace Cert.ReferenceIdeal.RefValue

open Cert.ReferenceIdeal Cert.ReferenceIdeal.Gen Idealize.ShloMosaic

variable {F : FTy → Type} [FloatOps F]

/-- A scalar word broadcast to the hidden width. -/
abbrev splat512 (w : BitVec 32) : FVec F S32768x512 .f32 :=
  broadcastInDim S32768x512 ![] bcast_S_S32768x512 (constant S_ .f32 w)

/-- `x · (1 / (1 + e^(-x)))`, elementwise. -/
def siluArr (x : FVec F S32768x512 .f32) : FVec F S32768x512 .f32 :=
  mulf x (Host.divf (splat512 0x3F800000#32) (addf (splat512 0x3F800000#32) (Host.exp (Host.negf x))))

/-- The two hidden layers: `silu ((silu ((a0 · w1) · 1/16) · w2) · c)`. -/
def hiddenArr (a0 : FVec F S32768x256 .f32) (w1 : FVec F S256x512 .f32) (w2 : FVec F S512x512 .f32) :
    FVec F S32768x512 .f32 :=
  siluArr (mulf (Host.dotGeneral dot_S32768x512_S512x512_S32768x512_1_0_0_1_n_n none
    (siluArr (mulf (Host.dotGeneral dot_S32768x256_S256x512_S32768x512_1_0_0_1_n_n none a0 w1) (splat512 0x3D800000#32))) w2)
    (splat512 0x3D3504F3#32))

/-- The latent perceptron's 128 outputs per atom. -/
def latentArr (a0 : FVec F S32768x256 .f32) (a3 : FVec F S256x512 .f32) (a4 : FVec F S512x512 .f32)
    (a5 : FVec F S512x128 .f32) : FVec F S32768x128 .f32 :=
  mulf (Host.dotGeneral dot_S32768x512_S512x128_S32768x128_1_0_0_1_n_n none (hiddenArr a0 a3 a4) a5)
    (broadcastInDim S32768x128 ![] bcast_S_S32768x128 (constant S_ .f32 0x3D3504F3#32))

/-- The first result: the read-out perceptron's 2 outputs per atom. -/
def invArr (a0 : FVec F S32768x256 .f32) (a6 : FVec F S256x512 .f32) (a7 : FVec F S512x512 .f32)
    (a8 : FVec F S512x2 .f32) : FVec F S32768x2 .f32 :=
  mulf (Host.dotGeneral dot_S32768x512_S512x2_S32768x2_1_0_0_1_n_n none (hiddenArr a0 a6 a7) a8)
    (broadcastInDim S32768x2 ![] bcast_S_S32768x2 (constant S_ .f32 0x3D3504F3#32))

/-- The latent outputs as `[atom, u, v]` contracted over `u` with the vector features `[atom, u, c]`, scaled. -/
def mixArr (lat : FVec F S32768x128 .f32) (a1 : FVec F S32768x32x3 .f32) : FVec F S32768x4x3 .f32 :=
  mulf (Host.dotGeneral dot_S32768x32x4_S32768x32x3_S32768x4x3_1_1_2_2_0_0 none
      (shapeCast S32768x32x4 lat shapeCasts_S32768x128_S32768x32x4) a1)
    (broadcastInDim S32768x4x3 ![] bcast_S_S32768x4x3 (constant S_ .f32 0x3E3504F3#32))

/-- Each 3-vector over its length plus the small constant. -/
def unitArr (x : FVec F S32768x4x3 .f32) : FVec F S32768x4x3 .f32 :=
  Host.divf x (broadcastInDim S32768x4x3 ![0, 1, 2] bcast_S32768x4x1_S32768x4x3_0_1_2
    (addf (Host.sqrt (broadcastInDim S32768x4x1 ![0, 1] bcast_S32768x4_S32768x4x1_0_1
        (Host.reduceAdd (mulf x x) (constant S_ .f32 0x00000000#32) reducesTo_S32768x4x3_S32768x4_d2 h_S_)))
      (broadcastInDim S32768x4x1 ![] bcast_S_S32768x4x1 (constant S_ .f32 0x2EDBE6FF#32))))

/-- Where the mask is set the scalar, elsewhere the array. -/
def whereArr (c : IVec S32768x4x3 1) (s : FVec F S_ .f32) (x : FVec F S32768x4x3 .f32) : FVec F S32768x4x3 .f32 :=
  select c (broadcastInDim S32768x4x3 ![] bcast_S_S32768x4x3 s) x

/-- An entry unequal to itself becomes `0`, then `+∞` the largest float, then `-∞` the smallest. -/
def cleanArr (x : FVec F S32768x4x3 .f32) : FVec F S32768x4x3 .f32 :=
  let y0 := whereArr (cmpf .une x x) (id (constant S_ .f32 0x00000000#32)) x
  let y1 := whereArr (cmpf .oeq y0 (broadcastInDim S32768x4x3 ![] bcast_S_S32768x4x3 (constant S_ .f32 0x7F800000#32)))
    (constant S_ .f32 0x7F7FFFFF#32) y0
  whereArr (cmpf .oeq y1 (broadcastInDim S32768x4x3 ![] bcast_S_S32768x4x3 (constant S_ .f32 0xFF800000#32)))
    (constant S_ .f32 0xFF7FFFFF#32) y1

/-- The bond lengths of each atom's type: a negative type number has 32 added, then the row is gathered. -/
def bondArr (a2 : IVec S32768x1 32) (a9 : FVec F S32x4x1 .f32) : FVec F S32768x4x1 .f32 :=
  let ty : IVec S32768 32 := shapeCast S32768 a2 shapeCasts_S32768x1_S32768
  let ty' : IVec S32768 32 :=
    select (cmpi .slt ty (broadcastInDim S32768 ![] bcast_S_S32768 (constantI S_ 32 0#32)))
      (addi ty (broadcastInDim S32768 ![] bcast_S_S32768 (constantI S_ 32 32#32))) ty
  Host.gather gather_S32x4x1_S32768x1_S32768x4x1_12_0_n_n_0_1_141 a9
    (broadcastInDim S32768x1 ![0] bcast_S32768_S32768x1_0 ty')

/-- The second result. -/
def eqArr (a0 : FVec F S32768x256 .f32) (a1 : FVec F S32768x32x3 .f32) (a2 : IVec S32768x1 32)
    (a3 : FVec F S256x512 .f32) (a4 : FVec F S512x512 .f32) (a5 : FVec F S512x128 .f32) (a9 : FVec F S32x4x1 .f32) :
    FVec F S32768x4x3 .f32 :=
  mulf (cleanArr (unitArr (mixArr (latentArr a0 a3 a4 a5) a1)))
    (broadcastInDim S32768x4x3 ![0, 1, 2] bcast_S32768x4x1_S32768x4x3_0_1_2 (bondArr a2 a9))

end Cert.ReferenceIdeal.RefValue

end
-- ==== Proof.RefRun.lean ====
/-
  The reference program runs: its @main is a straight line of host operations (the activation, the length, the
  replacement of infinities and its selects unfolded where they are called), so every weakly fair execution ends with the
  two results at the composed pure functions `invArr` and `eqArr` of the argument arrays, the arguments unchanged.
-/
import proofs.«428606_j73186242724417_3_alg».proof.Proof.RefTerm
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's operations in order, each call replaced by the callee's operations over that call's own buffers:
    the activation `x · (1 / (1 + e^(-x)))` is nine (the negation, the exponential, the unit twice with its broadcast,
    the sum, the quotient, the product) and occurs four times, once after each hidden product; the length is five
    (the squares, the zero, their sum along the last axis, its broadcast, the root); the replacement of infinities is
    ten of its own around three selections of two each (the scalar's broadcast, the choice by the mask). Around them
    @main's own forty-seven: the seven contractions each followed by its scaling (the constant, its broadcast, the
    product), the two re-shapings, the division by the length plus the small constant, the zero that replaces an
    entry unequal to itself, the gathering of the bond lengths by atom type, the last product. -/
abbrev ops : List (HloOp τ sig (Elt F)) :=
  [ binary main_arg0 main_arg3 main_v0 ((fun l r => Host.dotGeneral dot_S32768x256_S256x512_S32768x512_1_0_0_1_n_n none l r) : (⟨S32768x256, .f32⟩ : BufTy).Contents (Elt F) → (⟨S256x512, .f32⟩ : BufTy).Contents (Elt F) → (⟨S32768x512, .f32⟩ : BufTy).Contents (Elt F)),
    nullary main_cst (constant S_ .f32 0x3D800000#32),
    unary main_cst main_v1 (broadcastInDim S32768x512 ![] bcast_S_S32768x512 : (⟨S_, .f32⟩ : BufTy).Contents (Elt F) → (⟨S32768x512, .f32⟩ : BufTy).Contents (Elt F)),
    binary main_v0 main_v1 main_v2 (mulf : (⟨S32768x512, .f32⟩ : BufTy).Contents (Elt F) → (⟨S32768x512, .f32⟩ : BufTy).Contents (Elt F) → (⟨S32768x512, .f32⟩ : BufTy).Contents (Elt F)),
    TRef.unary (.of main_v2) main_call0.v0 Host.negf,
    TRef.unary main_call0.v0 main_call0.v1 Host.exp,
    TRef.nullary main_call0.cst (constant S_ .f32 0x3F800000#32),
    TRef.unary main_call0.cst main_call0.v2 (broadcastInDim S32768x512 ![] bcast_S_S32768x512),
    TRef.binary main_call0.v2 main_call0.v1 main_call0.v3 addf,
    TRef.nullary main_call0.cst_0 (constant S_ .f32 0x3F800000#32),
    TRef.unary main_call0.cst_0 main_call0.v4 (broadcastInDim S32768x512 ![] bcast_S_S32768x512),
    TRef.binary main_call0.v4 main_call0.v3 main_call0.v5 Host.divf,
    TRef.binary (.of main_v2) main_call0.v5 main_call0.v6 mulf,
    binary main_v3 main_arg4 main_v4 ((fun l r => Host.dotGeneral dot_S32768x512_S512x512_S32768x512_1_0_0_1_n_n none l r) : (⟨S32768x512, .f32⟩ : BufTy).Contents (Elt F) → (⟨S512x512, .f32⟩ : BufTy).Contents (Elt F) → (⟨S32768x512, .f32⟩ : BufTy).Contents (Elt F)),
    nullary main_cst_0 (constant S_ .f32 0x3D3504F3#32),
    unary main_cst_0 main_v5 (broadcastInDim S32768x512 ![] bcast_S_S32768x512 : (⟨S_, .f32⟩ : BufTy).Contents (Elt F) → (⟨S32768x512, .f32⟩ : BufTy).Contents (Elt F)),
    binary main_v4 main_v5 main_v6 (mulf : (⟨S32768x512, .f32⟩ : BufTy).Contents (Elt F) → (⟨S32768x512, .f32⟩ : BufTy).Contents (Elt F) → (⟨S32768x512, .f32⟩ : BufTy).Contents (Elt F)),
    TRef.unary (.of main_v6) main_call1.v0 Host.negf,
    TRef.unary main_call1.v0 main_call1.v1 Host.exp,
    TRef.nullary main_call1.cst (constant S_ .f32 0x3F800000#32),
    TRef.unary main_call1.cst main_call1.v2 (broadcastInDim S32768x512 ![] bcast_S_S32768x512),
    TRef.binary main_call1.v2 main_call1.v1 main_call1.v3 addf,
    TRef.nullary main_call1.cst_0 (constant S_ .f32 0x3F800000#32),
    TRef.unary main_call1.cst_0 main_call1.v4 (broadcastInDim S32768x512 ![] bcast_S_S32768x512),
    TRef.binary main_call1.v4 main_call1.v3 main_call1.v5 Host.divf,
    TRef.binary (.of main_v6) main_call1.v5 main_call1.v6 mulf,
    binary main_v7 main_arg5 main_v8 ((fun l r => Host.dotGeneral dot_S32768x512_S512x128_S32768x128_1_0_0_1_n_n none l r) : (⟨S32768x512, .f32⟩ : BufTy).Contents (Elt F) → (⟨S512x128, .f32⟩ : BufTy).Contents (Elt F) → (⟨S32768x128, .f32⟩ : BufTy).Contents (Elt F)),
    nullary main_cst_1 (constant S_ .f32 0x3D3504F3#32),
    unary main_cst_1 main_v9 (broadcastInDim S32768x128 ![] bcast_S_S32768x128 : (⟨S_, .f32⟩ : BufTy).Contents (Elt F) → (⟨S32768x128, .f32⟩ : BufTy).Contents (Elt F)),
    binary main_v8 main_v9 main_v10 (mulf : (⟨S32768x128, .f32⟩ : BufTy).Contents (Elt F) → (⟨S32768x128, .f32⟩ : BufTy).Contents (Elt F) → (⟨S32768x128, .f32⟩ : BufTy).Contents (Elt F)),
    reshape main_v10 main_v11 rfl shapeCasts_S32768x128_S32768x32x4,
    binary main_arg0 main_arg6 main_v12 ((fun l r => Host.dotGeneral dot_S32768x256_S256x512_S32768x512_1_0_0_1_n_n none l r) : (⟨S32768x256, .f32⟩ : BufTy).Contents (Elt F) → (⟨S256x512, .f32⟩ : BufTy).Contents (Elt F) → (⟨S32768x512, .f32⟩ : BufTy).Contents (Elt F)),
    nullary main_cst_2 (constant S_ .f32 0x3D800000#32),
    unary main_cst_2 main_v13 (broadcastInDim S32768x512 ![] bcast_S_S32768x512 : (⟨S_, .f32⟩ : BufTy).Contents (Elt F) → (⟨S32768x512, .f32⟩ : BufTy).Contents (Elt F)),
    binary main_v12 main_v13 main_v14 (mulf : (⟨S32768x512, .f32⟩ : BufTy).Contents (Elt F) → (⟨S32768x512, .f32⟩ : BufTy).Contents (Elt F) → (⟨S32768x512, .f32⟩ : BufTy).Contents (Elt F)),
    TRef.unary (.of main_v14) main_call2.v0 Host.negf,
    TRef.unary main_call2.v0 main_call2.v1 Host.exp,
    TRef.nullary main_call2.cst (constant S_ .f32 0x3F800000#32),
    TRef.unary main_call2.cst main_call2.v2 (broadcastInDim S32768x512 ![] bcast_S_S32768x512),
    TRef.binary main_call2.v2 main_call2.v1 main_call2.v3 addf,
    TRef.nullary main_call2.cst_0 (constant S_ .f32 0x3F800000#32),
    TRef.unary main_call2.cst_0 main_call2.v4 (broadcastInDim S32768x512 ![] bcast_S_S32768x512),
    TRef.binary main_call2.v4 main_call2.v3 main_call2.v5 Host.divf,
    TRef.binary (.of main_v14) main_call2.v5 main_call2.v6 mulf,
    binary main_v15 main_arg7 main_v16 ((fun l r => Host.dotGeneral dot_S32768x512_S512x512_S32768x512_1_0_0_1_n_n none l r) : (⟨S32768x512, .f32⟩ : BufTy).Contents (Elt F) → (⟨S512x512, .f32⟩ : BufTy).Contents (Elt F) → (⟨S32768x512, .f32⟩ : BufTy).Contents (Elt F)),
    nullary main_cst_3 (constant S_ .f32 0x3D3504F3#32),
    unary main_cst_3 main_v17 (broadcastInDim S32768x512 ![] bcast_S_S32768x512 : (⟨S_, .f32⟩ : BufTy).Contents (Elt F) → (⟨S32768x512, .f32⟩ : BufTy).Contents (Elt F)),
    binary main_v16 main_v17 main_v18 (mulf : (⟨S32768x512, .f32⟩ : BufTy).Contents (Elt F) → (⟨S32768x512, .f32⟩ : BufTy).Contents (Elt F) → (⟨S32768x512, .f32⟩ : BufTy).Contents (Elt F)),
    TRef.unary (.of main_v18) main_call3.v0 Host.negf,
    TRef.unary main_call3.v0 main_call3.v1 Host.exp,
    TRef.nullary main_call3.cst (constant S_ .f32 0x3F800000#32),
    TRef.unary main_call3.cst main_call3.v2 (broadcastInDim S32768x512 ![] bcast_S_S32768x512),
    TRef.binary main_call3.v2 main_call3.v1 main_call3.v3 addf,
    TRef.nullary main_call3.cst_0 (constant S_ .f32 0x3F800000#32),
    TRef.unary main_call3.cst_0 main_call3.v4 (broadcastInDim S32768x512 ![] bcast_S_S32768x512),
    TRef.binary main_call3.v4 main_call3.v3 main_call3.v5 Host.divf,
    TRef.binary (.of main_v18) main_call3.v5 main_call3.v6 mulf,
    binary main_v19 main_arg8 main_v20 ((fun l r => Host.dotGeneral dot_S32768x512_S512x2_S32768x2_1_0_0_1_n_n none l r) : (⟨S32768x512, .f32⟩ : BufTy).Contents (Elt F) → (⟨S512x2, .f32⟩ : BufTy).Contents (Elt F) → (⟨S32768x2, .f32⟩ : BufTy).Contents (Elt F)),
    nullary main_cst_4 (constant S_ .f32 0x3D3504F3#32),
    unary main_cst_4 main_v21 (broadcastInDim S32768x2 ![] bcast_S_S32768x2 : (⟨S_, .f32⟩ : BufTy).Contents (Elt F) → (⟨S32768x2, .f32⟩ : BufTy).Contents (Elt F)),
    binary main_v20 main_v21 main_v22 (mulf : (⟨S32768x2, .f32⟩ : BufTy).Contents (Elt F) → (⟨S32768x2, .f32⟩ : BufTy).Contents (Elt F) → (⟨S32768x2, .f32⟩ : BufTy).Contents (Elt F)),
    binary main_v11 main_arg1 main_v23 ((fun l r => Host.dotGeneral dot_S32768x32x4_S32768x32x3_S32768x4x3_1_1_2_2_0_0 none l r) : (⟨S32768x32x4, .f32⟩ : BufTy).Contents (Elt F) → (⟨S32768x32x3, .f32⟩ : BufTy).Contents (Elt F) → (⟨S32768x4x3, .f32⟩ : BufTy).Contents (Elt F)),
    nullary main_cst_5 (constant S_ .f32 0x3E3504F3#32),
    unary main_cst_5 main_v24 (broadcastInDim S32768x4x3 ![] bcast_S_S32768x4x3 : (⟨S_, .f32⟩ : BufTy).Contents (Elt F) → (⟨S32768x4x3, .f32⟩ : BufTy).Contents (Elt F)),
    binary main_v23 main_v24 main_v25 (mulf : (⟨S32768x4x3, .f32⟩ : BufTy).Contents (Elt F) → (⟨S32768x4x3, .f32⟩ : BufTy).Contents (Elt F) → (⟨S32768x4x3, .f32⟩ : BufTy).Contents (Elt F)),
    TRef.binary (.of main_v25) (.of main_v25) main_call4.v0 mulf,
    TRef.nullary main_call4.cst (constant S_ .f32 0x00000000#32),
    TRef.binary main_call4.v0 main_call4.cst main_call4.v1 (fun x v => Host.reduceAdd x v reducesTo_S32768x4x3_S32768x4_d2 h_S_),
    TRef.unary main_call4.v1 main_call4.v2 (broadcastInDim S32768x4x1 ![0, 1] bcast_S32768x4_S32768x4x1_0_1),
    TRef.unary main_call4.v2 main_call4.v3 Host.sqrt,
    nullary main_cst_6 (constant S_ .f32 0x2EDBE6FF#32),
    unary main_cst_6 main_v27 (broadcastInDim S32768x4x1 ![] bcast_S_S32768x4x1 : (⟨S_, .f32⟩ : BufTy).Contents (Elt F) → (⟨S32768x4x1, .f32⟩ : BufTy).Contents (Elt F)),
    binary main_v26 main_v27 main_v28 (addf : (⟨S32768x4x1, .f32⟩ : BufTy).Contents (Elt F) → (⟨S32768x4x1, .f32⟩ : BufTy).Contents (Elt F) → (⟨S32768x4x1, .f32⟩ : BufTy).Contents (Elt F)),
    unary main_v28 main_v29 (broadcastInDim S32768x4x3 ![0, 1, 2] bcast_S32768x4x1_S32768x4x3_0_1_2 : (⟨S32768x4x1, .f32⟩ : BufTy).Contents (Elt F) → (⟨S32768x4x3, .f32⟩ : BufTy).Contents (Elt F)),
    binary main_v25 main_v29 main_v30 (Host.divf : (⟨S32768x4x3, .f32⟩ : BufTy).Contents (Elt F) → (⟨S32768x4x3, .f32⟩ : BufTy).Contents (Elt F) → (⟨S32768x4x3, .f32⟩ : BufTy).Contents (Elt F)),
    nullary main_cst_7 (constant S_ .f32 0x00000000#32),
    TRef.binary (.of main_v30) (.of main_v30) main_call5.v0 (cmpf .une),
    TRef.unary (.of main_cst_7) main_call5.v1 id,
    TRef.unary main_call5.v1 main_call5.call0.v0 (broadcastInDim S32768x4x3 ![] bcast_S_S32768x4x3),
    TRef.ternary main_call5.v0 main_call5.call0.v0 (.of main_v30) main_call5.call0.v1 select,
    TRef.nullary main_call5.cst (constant S_ .f32 0x7F800000#32),
    TRef.unary main_call5.cst main_call5.v3 (broadcastInDim S32768x4x3 ![] bcast_S_S32768x4x3),
    TRef.binary main_call5.call0.v1 main_call5.v3 main_call5.v4 (cmpf .oeq),
    TRef.nullary main_call5.cst_0 (constant S_ .f32 0x7F7FFFFF#32),
    TRef.unary main_call5.cst_0 main_call5.call1.v0 (broadcastInDim S32768x4x3 ![] bcast_S_S32768x4x3),
    TRef.ternary main_call5.v4 main_call5.call1.v0 main_call5.call0.v1 main_call5.call1.v1 select,
    TRef.nullary main_call5.cst_1 (constant S_ .f32 0xFF800000#32),
    TRef.unary main_call5.cst_1 main_call5.v6 (broadcastInDim S32768x4x3 ![] bcast_S_S32768x4x3),
    TRef.binary main_call5.call1.v1 main_call5.v6 main_call5.v7 (cmpf .oeq),
    TRef.nullary main_call5.cst_2 (constant S_ .f32 0xFF7FFFFF#32),
    TRef.unary main_call5.cst_2 main_call5.call2.v0 (broadcastInDim S32768x4x3 ![] bcast_S_S32768x4x3),
    TRef.ternary main_call5.v7 main_call5.call2.v0 main_call5.call1.v1 main_call5.call2.v1 select,
    reshape main_arg2 main_v32 rfl shapeCasts_S32768x1_S32768,
    nullary main_c (constantI S_ 32 0#32),
    unary main_c main_v33 (broadcastInDim S32768 ![] bcast_S_S32768 : (⟨S_, .i32⟩ : BufTy).Contents (Elt F) → (⟨S32768, .i32⟩ : BufTy).Contents (Elt F)),
    binary main_v32 main_v33 main_v34 (cmpi .slt : (⟨S32768, .i32⟩ : BufTy).Contents (Elt F) → (⟨S32768, .i32⟩ : BufTy).Contents (Elt F) → (⟨S32768, .i1⟩ : BufTy).Contents (Elt F)),
    nullary main_c_8 (constantI S_ 32 32#32),
    unary main_c_8 main_v35 (broadcastInDim S32768 ![] bcast_S_S32768 : (⟨S_, .i32⟩ : BufTy).Contents (Elt F) → (⟨S32768, .i32⟩ : BufTy).Contents (Elt F)),
    binary main_v32 main_v35 main_v36 (addi : (⟨S32768, .i32⟩ : BufTy).Contents (Elt F) → (⟨S32768, .i32⟩ : BufTy).Contents (Elt F) → (⟨S32768, .i32⟩ : BufTy).Contents (Elt F)),
    ternary main_v34 main_v36 main_v32 main_v37 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    unary main_v37 main_v38 (broadcastInDim S32768x1 ![0] bcast_S32768_S32768x1_0 : (⟨S32768, .i32⟩ : BufTy).Contents (Elt F) → (⟨S32768x1, .i32⟩ : BufTy).Contents (Elt F)),
    binary main_arg9 main_v38 main_v39 ((fun x i => Host.gather gather_S32x4x1_S32768x1_S32768x4x1_12_0_n_n_0_1_141 x i) : (⟨S32x4x1, .f32⟩ : BufTy).Contents (Elt F) → (⟨S32768x1, .i32⟩ : BufTy).Contents (Elt F) → (⟨S32768x4x1, .f32⟩ : BufTy).Contents (Elt F)),
    unary main_v39 main_v40 (broadcastInDim S32768x4x3 ![0, 1, 2] bcast_S32768x4x1_S32768x4x3_0_1_2 : (⟨S32768x4x1, .f32⟩ : BufTy).Contents (Elt F) → (⟨S32768x4x3, .f32⟩ : BufTy).Contents (Elt F)),
    binary main_v31 main_v40 main_v41 (mulf : (⟨S32768x4x3, .f32⟩ : BufTy).Contents (Elt F) → (⟨S32768x4x3, .f32⟩ : BufTy).Contents (Elt F) → (⟨S32768x4x3, .f32⟩ : BufTy).Contents (Elt F)) ]

set_option maxRecDepth 8192 in
/-- @main is that straight line. Sequencing grafts the continuation onto the leaves of a tree of requests, by
    recursion on the tree; a callee's body is itself such a chain ending in a return, so unfolding the callees at
    their calls and the buffer records at their fields, both sides compute to the same chain of single steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches buffers of the TensorCore only. -/
theorem ops_sub : (ops : List (HloOp τ sig (Elt F))).Forall fun op => op.bufs ⊆ tcRefs τ sig :=
  ⟨binary_bufs_sub .., nullary_bufs_sub .., unary_bufs_sub .., binary_bufs_sub .., unary_bufs_sub .., unary_bufs_sub ..,
    nullary_bufs_sub .., unary_bufs_sub .., binary_bufs_sub .., nullary_bufs_sub .., unary_bufs_sub .., binary_bufs_sub ..,
    binary_bufs_sub .., binary_bufs_sub .., nullary_bufs_sub .., unary_bufs_sub .., binary_bufs_sub .., unary_bufs_sub ..,
    unary_bufs_sub .., nullary_bufs_sub .., unary_bufs_sub .., binary_bufs_sub .., nullary_bufs_sub .., unary_bufs_sub ..,
    binary_bufs_sub .., binary_bufs_sub .., binary_bufs_sub .., nullary_bufs_sub .., unary_bufs_sub .., binary_bufs_sub ..,
    reshape_bufs_sub .., binary_bufs_sub .., nullary_bufs_sub .., unary_bufs_sub .., binary_bufs_sub .., unary_bufs_sub ..,
    unary_bufs_sub .., nullary_bufs_sub .., unary_bufs_sub .., binary_bufs_sub .., nullary_bufs_sub .., unary_bufs_sub ..,
    binary_bufs_sub .., binary_bufs_sub .., binary_bufs_sub .., nullary_bufs_sub .., unary_bufs_sub .., binary_bufs_sub ..,
    unary_bufs_sub .., unary_bufs_sub .., nullary_bufs_sub .., unary_bufs_sub .., binary_bufs_sub .., nullary_bufs_sub ..,
    unary_bufs_sub .., binary_bufs_sub .., binary_bufs_sub .., binary_bufs_sub .., nullary_bufs_sub .., unary_bufs_sub ..,
    binary_bufs_sub .., binary_bufs_sub .., nullary_bufs_sub .., unary_bufs_sub .., binary_bufs_sub .., binary_bufs_sub ..,
    nullary_bufs_sub .., binary_bufs_sub .., unary_bufs_sub .., unary_bufs_sub .., nullary_bufs_sub .., unary_bufs_sub ..,
    binary_bufs_sub .., unary_bufs_sub .., binary_bufs_sub .., nullary_bufs_sub .., binary_bufs_sub .., unary_bufs_sub ..,
    unary_bufs_sub .., ternary_bufs_sub .., nullary_bufs_sub .., unary_bufs_sub .., binary_bufs_sub .., nullary_bufs_sub ..,
    unary_bufs_sub .., ternary_bufs_sub .., nullary_bufs_sub .., unary_bufs_sub .., binary_bufs_sub .., nullary_bufs_sub ..,
    unary_bufs_sub .., ternary_bufs_sub .., reshape_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., binary_bufs_sub ..⟩

/-! ## What the two result buffers hold

Each operation rewrites its own result buffer to its function of its operands' contents and leaves every other buffer;
reading the fold back from a result buffer composes these functions along the program's data flow. The composed term
is the stretch-by-stretch transcription: a typed reference's transport of contents is the identity at a literal
reference, a re-shaping's change of element type is the identity at equal element types. The gather and the sum along
an axis are kept folded meanwhile: the equation never looks inside them. -/

attribute [local irreducible] Host.gather Host.reduceAdd in
set_option maxRecDepth 8192 in
/-- The first result is the read-out perceptron of the first argument and the three read-out weights. -/
theorem inv_eq (V : Valuation τ sig (Elt F)) :
    after ops V (main_v22 : DevRef τ sig)
      = invArr (V (main_arg0 : DevRef τ sig)) (V (main_arg6 : DevRef τ sig)) (V (main_arg7 : DevRef τ sig))
          (V (main_arg8 : DevRef τ sig)) := by
  after_results_simp
  rfl

attribute [local irreducible] Host.gather Host.reduceAdd in
set_option maxRecDepth 8192 in
/-- The second result: the latent perceptron contracted with the vector features, each 3-vector over its length,
    infinities replaced, times the bond lengths of the atom's type. -/
theorem eqv_eq (V : Valuation τ sig (Elt F)) :
    after ops V (main_v41 : DevRef τ sig)
      = eqArr (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg9 : DevRef τ sig)) := by
  after_results_simp
  rfl

/-! ## The arguments: no operation writes one -/

/-- The buffers the operations write, in order: one per operation, its result. -/
abbrev written : List (Ref sig .tc) :=
  [ main_v0, main_cst, main_v1, main_v2, main_call0.v0.ref, main_call0.v1.ref, main_call0.cst.ref, main_call0.v2.ref,
    main_call0.v3.ref, main_call0.cst_0.ref, main_call0.v4.ref, main_call0.v5.ref, main_call0.v6.ref, main_v4, main_cst_0, main_v5,
    main_v6, main_call1.v0.ref, main_call1.v1.ref, main_call1.cst.ref, main_call1.v2.ref, main_call1.v3.ref, main_call1.cst_0.ref, main_call1.v4.ref,
    main_call1.v5.ref, main_call1.v6.ref, main_v8, main_cst_1, main_v9, main_v10, main_v11, main_v12,
    main_cst_2, main_v13, main_v14, main_call2.v0.ref, main_call2.v1.ref, main_call2.cst.ref, main_call2.v2.ref, main_call2.v3.ref,
    main_call2.cst_0.ref, main_call2.v4.ref, main_call2.v5.ref, main_call2.v6.ref, main_v16, main_cst_3, main_v17, main_v18,
    main_call3.v0.ref, main_call3.v1.ref, main_call3.cst.ref, main_call3.v2.ref, main_call3.v3.ref, main_call3.cst_0.ref, main_call3.v4.ref, main_call3.v5.ref,
    main_call3.v6.ref, main_v20, main_cst_4, main_v21, main_v22, main_v23, main_cst_5, main_v24,
    main_v25, main_call4.v0.ref, main_call4.cst.ref, main_call4.v1.ref, main_call4.v2.ref, main_call4.v3.ref, main_cst_6, main_v27,
    main_v28, main_v29, main_v30, main_cst_7, main_call5.v0.ref, main_call5.v1.ref, main_call5.call0.v0.ref, main_call5.call0.v1.ref,
    main_call5.cst.ref, main_call5.v3.ref, main_call5.v4.ref, main_call5.cst_0.ref, main_call5.call1.v0.ref, main_call5.call1.v1.ref, main_call5.cst_1.ref, main_call5.v6.ref,
    main_call5.v7.ref, main_call5.cst_2.ref, main_call5.call2.v0.ref, main_call5.call2.v1.ref, main_v32, main_c, main_v33, main_v34,
    main_c_8, main_v35, main_v36, main_v37, main_v38, main_v39, main_v40, main_v41 ]

/-- An operation whose one written buffer is listed writes inside the list. -/
theorem single_write_sub {op : HloOp τ sig (Elt F)} {y : Ref sig .tc} (hw : op.writes = {Proc.devRef .tc y}) (hy : y ∈ written) :
    op.writes ⊆ (written.map (Proc.devRef (τ := τ) .tc)).toFinset := by
  rw [hw, Finset.singleton_subset_iff, List.mem_toFinset]
  exact List.mem_map_of_mem hy

/-- Every operation writes inside the list. -/
theorem writes_sub_written :
    (ops : List (HloOp τ sig (Elt F))).Forall fun op => op.writes ⊆ (written.map (Proc.devRef (τ := τ) .tc)).toFinset :=
  ⟨single_write_sub (y := main_v0) rfl (by decide), single_write_sub (y := main_cst) rfl (by decide), single_write_sub (y := main_v1) rfl (by decide),
    single_write_sub (y := main_v2) rfl (by decide), single_write_sub (y := main_call0.v0.ref) rfl (by decide), single_write_sub (y := main_call0.v1.ref) rfl (by decide),
    single_write_sub (y := main_call0.cst.ref) rfl (by decide), single_write_sub (y := main_call0.v2.ref) rfl (by decide), single_write_sub (y := main_call0.v3.ref) rfl (by decide),
    single_write_sub (y := main_call0.cst_0.ref) rfl (by decide), single_write_sub (y := main_call0.v4.ref) rfl (by decide), single_write_sub (y := main_call0.v5.ref) rfl (by decide),
    single_write_sub (y := main_call0.v6.ref) rfl (by decide), single_write_sub (y := main_v4) rfl (by decide), single_write_sub (y := main_cst_0) rfl (by decide),
    single_write_sub (y := main_v5) rfl (by decide), single_write_sub (y := main_v6) rfl (by decide), single_write_sub (y := main_call1.v0.ref) rfl (by decide),
    single_write_sub (y := main_call1.v1.ref) rfl (by decide), single_write_sub (y := main_call1.cst.ref) rfl (by decide), single_write_sub (y := main_call1.v2.ref) rfl (by decide),
    single_write_sub (y := main_call1.v3.ref) rfl (by decide), single_write_sub (y := main_call1.cst_0.ref) rfl (by decide), single_write_sub (y := main_call1.v4.ref) rfl (by decide),
    single_write_sub (y := main_call1.v5.ref) rfl (by decide), single_write_sub (y := main_call1.v6.ref) rfl (by decide), single_write_sub (y := main_v8) rfl (by decide),
    single_write_sub (y := main_cst_1) rfl (by decide), single_write_sub (y := main_v9) rfl (by decide), single_write_sub (y := main_v10) rfl (by decide),
    single_write_sub (y := main_v11) rfl (by decide), single_write_sub (y := main_v12) rfl (by decide), single_write_sub (y := main_cst_2) rfl (by decide),
    single_write_sub (y := main_v13) rfl (by decide), single_write_sub (y := main_v14) rfl (by decide), single_write_sub (y := main_call2.v0.ref) rfl (by decide),
    single_write_sub (y := main_call2.v1.ref) rfl (by decide), single_write_sub (y := main_call2.cst.ref) rfl (by decide), single_write_sub (y := main_call2.v2.ref) rfl (by decide),
    single_write_sub (y := main_call2.v3.ref) rfl (by decide), single_write_sub (y := main_call2.cst_0.ref) rfl (by decide), single_write_sub (y := main_call2.v4.ref) rfl (by decide),
    single_write_sub (y := main_call2.v5.ref) rfl (by decide), single_write_sub (y := main_call2.v6.ref) rfl (by decide), single_write_sub (y := main_v16) rfl (by decide),
    single_write_sub (y := main_cst_3) rfl (by decide), single_write_sub (y := main_v17) rfl (by decide), single_write_sub (y := main_v18) rfl (by decide),
    single_write_sub (y := main_call3.v0.ref) rfl (by decide), single_write_sub (y := main_call3.v1.ref) rfl (by decide), single_write_sub (y := main_call3.cst.ref) rfl (by decide),
    single_write_sub (y := main_call3.v2.ref) rfl (by decide), single_write_sub (y := main_call3.v3.ref) rfl (by decide), single_write_sub (y := main_call3.cst_0.ref) rfl (by decide),
    single_write_sub (y := main_call3.v4.ref) rfl (by decide), single_write_sub (y := main_call3.v5.ref) rfl (by decide), single_write_sub (y := main_call3.v6.ref) rfl (by decide),
    single_write_sub (y := main_v20) rfl (by decide), single_write_sub (y := main_cst_4) rfl (by decide), single_write_sub (y := main_v21) rfl (by decide),
    single_write_sub (y := main_v22) rfl (by decide), single_write_sub (y := main_v23) rfl (by decide), single_write_sub (y := main_cst_5) rfl (by decide),
    single_write_sub (y := main_v24) rfl (by decide), single_write_sub (y := main_v25) rfl (by decide), single_write_sub (y := main_call4.v0.ref) rfl (by decide),
    single_write_sub (y := main_call4.cst.ref) rfl (by decide), single_write_sub (y := main_call4.v1.ref) rfl (by decide), single_write_sub (y := main_call4.v2.ref) rfl (by decide),
    single_write_sub (y := main_call4.v3.ref) rfl (by decide), single_write_sub (y := main_cst_6) rfl (by decide), single_write_sub (y := main_v27) rfl (by decide),
    single_write_sub (y := main_v28) rfl (by decide), single_write_sub (y := main_v29) rfl (by decide), single_write_sub (y := main_v30) rfl (by decide),
    single_write_sub (y := main_cst_7) rfl (by decide), single_write_sub (y := main_call5.v0.ref) rfl (by decide), single_write_sub (y := main_call5.v1.ref) rfl (by decide),
    single_write_sub (y := main_call5.call0.v0.ref) rfl (by decide), single_write_sub (y := main_call5.call0.v1.ref) rfl (by decide), single_write_sub (y := main_call5.cst.ref) rfl (by decide),
    single_write_sub (y := main_call5.v3.ref) rfl (by decide), single_write_sub (y := main_call5.v4.ref) rfl (by decide), single_write_sub (y := main_call5.cst_0.ref) rfl (by decide),
    single_write_sub (y := main_call5.call1.v0.ref) rfl (by decide), single_write_sub (y := main_call5.call1.v1.ref) rfl (by decide), single_write_sub (y := main_call5.cst_1.ref) rfl (by decide),
    single_write_sub (y := main_call5.v6.ref) rfl (by decide), single_write_sub (y := main_call5.v7.ref) rfl (by decide), single_write_sub (y := main_call5.cst_2.ref) rfl (by decide),
    single_write_sub (y := main_call5.call2.v0.ref) rfl (by decide), single_write_sub (y := main_call5.call2.v1.ref) rfl (by decide), single_write_sub (y := main_v32) rfl (by decide),
    single_write_sub (y := main_c) rfl (by decide), single_write_sub (y := main_v33) rfl (by decide), single_write_sub (y := main_v34) rfl (by decide),
    single_write_sub (y := main_c_8) rfl (by decide), single_write_sub (y := main_v35) rfl (by decide), single_write_sub (y := main_v36) rfl (by decide),
    single_write_sub (y := main_v37) rfl (by decide), single_write_sub (y := main_v38) rfl (by decide), single_write_sub (y := main_v39) rfl (by decide),
    single_write_sub (y := main_v40) rfl (by decide), single_write_sub (y := main_v41) rfl (by decide)⟩

/-- A buffer outside the list holds after the operations what it held before. -/
theorem unwritten_eq (V : Valuation τ sig (Elt F)) {r : Ref sig .tc} (hr : r ∉ written) :
    after ops V (Proc.devRef .tc r) = V (Proc.devRef .tc r) :=
  after_of_writes_sub ops V writes_sub_written hr

/-- On every device, for any float values, from any memory with zero counters: every weakly fair execution of @main
    terminates with each result at its composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v22) = invArr (m ((c.tc : Thread nD τ).loc main_arg0)) (m ((c.tc : Thread nD τ).loc main_arg6)) (m ((c.tc : Thread nD τ).loc main_arg7)) (m ((c.tc : Thread nD τ).loc main_arg8))
      ∧ r.2.mem ((c.tc : Thread nD τ).loc main_v41) = eqArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  exact (θ_run defs _ _).mono (fun _ h c => ⟨(h c main_v22).trans (inv_eq _), (h c main_v41).trans (eqv_eq _),
      (h c main_arg0).trans (unwritten_eq _ (by decide)), (h c main_arg1).trans (unwritten_eq _ (by decide)),
      (h c main_arg2).trans (unwritten_eq _ (by decide)), (h c main_arg3).trans (unwritten_eq _ (by decide)),
      (h c main_arg4).trans (unwritten_eq _ (by decide)), (h c main_arg5).trans (unwritten_eq _ (by decide)),
      (h c main_arg6).trans (unwritten_eq _ (by decide)), (h c main_arg7).trans (unwritten_eq _ (by decide)),
      (h c main_arg8).trans (unwritten_eq _ (by decide)), (h c main_arg9).trans (unwritten_eq _ (by decide))⟩)
    (run_seq scopedRefs_eq scopedSems_eq defs main (fun _ => ops) main_eq (fun _ => ops_sub) m ρ)

end Cert.ReferenceIdeal.RefValue

end
-- ==== Proof.RefValue.lean ====
/-
  The reference's two results read at one element, at the extended reals: the host's matrix products are plain sums over
  the contracted axis, the activation is `silu`, the reshape of the 128 latent outputs to `[u, v]` reads output `4u + v`, the
  length is the square root of the sum of the three squares, a quotient by the length plus a positive constant is never
  infinite so the replacement of infinities changes nothing, and the gather reads the bond lengths of the atom's type when
  the type number is in range.
-/
import proofs.«428606_j73186242724417_3_alg».proof.Proof.RefTerm
import proofs.«428606_j73186242724417_3_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

open scoped BigOperators

namespace Cert.ReferenceIdeal.RefValue

open Cert.ReferenceIdeal Cert.ReferenceIdeal.Gen Idealize.ShloMosaic Idealize.ShloMosaic.ValueIdx

/-! ## Words and elementwise operations at an index -/

/-- The word of `+∞`. -/
theorem top_word : Ideal.ofBits .f32 0x7F800000#32 = ⊤ := by simp [Ideal.ofBits, Ideal.ieee]
/-- The word of `-∞`. -/
theorem bot_word : Ideal.ofBits .f32 0xFF800000#32 = ⊥ := by simp [Ideal.ofBits, Ideal.ieee]

/-- The host's square root at an index is the square root of the element. -/
theorem hostSqrt_apply {s : Shape} {φ : FTy} (y : FVec Ideal s φ) (i : s.Idx) : Host.sqrt y i = Ideal.sqrt (y i) := rfl

/-- An integer comparison at an index compares the elements. -/
theorem cmpi_apply {s : Shape} {w : Nat} (p : CmpIPredicate) (x y : IVec s w) (i : s.Idx) :
    cmpi p x y i = IntOp.cmpi p (x i) (y i) := rfl

/-- A splat integer constant reads its word everywhere. -/
theorem constantI_apply {s : Shape} {w : Nat} (b : BitVec w) (i : s.Idx) : constantI s w b i = b := rfl

/-- A scalar word broadcast to the hidden width reads the word's value everywhere. -/
theorem splat512_apply (w : BitVec 32) (i : S32768x512.Idx) :
    splat512 (F := Ideal) w i = Ideal.ofBits .f32 w := by
  unfold splat512
  rw [broadcastInDim_scalar_apply]
  rfl

/-- The activation at an element is `silu` of the element: the word `0x3F800000` is `1`, and `1 / (1 + e^(-t))` is the
    logistic function by definition. -/
theorem siluArr_apply (x : FVec Ideal S32768x512 .f32) (i : S32768x512.Idx) :
    siluArr (F := Ideal) x i = Cert.Spec.silu (x i) := by
  unfold siluArr Cert.Spec.silu Ideal.logistic
  show x i * Ideal.div (splat512 (F := Ideal) 0x3F800000#32 i)
      (splat512 (F := Ideal) 0x3F800000#32 i + Ideal.exp (-(x i))) = _
  rw [splat512_apply, Ideal.ofBits_one_f32]

/-! ## The four matrix products at an index

For each product the operand indices at result index `(n, j)` and contraction position `k` are `(n, k)` and `(k, j)`;
the sum over the one-axis contraction index is re-indexed by that axis's coordinate. -/

theorem lhsA_0 (j : S32768x512.Idx) (k : dot_S32768x256_S256x512_S32768x512_1_0_0_1_n_n.contr.Idx) :
    (dot_S32768x256_S256x512_S32768x512_1_0_0_1_n_n.lhsIdx j k 0).val = (j 0).val := by
  simp [DotDims.lhsIdx, dot_S32768x256_S256x512_S32768x512_1_0_0_1_n_n]
  rfl

theorem lhsA_1 (j : S32768x512.Idx) (k : dot_S32768x256_S256x512_S32768x512_1_0_0_1_n_n.contr.Idx) :
    (dot_S32768x256_S256x512_S32768x512_1_0_0_1_n_n.lhsIdx j k 1).val = (k ⟨0, by decide⟩).val :=
  DotDims.lhsIdx_val_of_single _ rfl j k

theorem rhsA_0 (j : S32768x512.Idx) (k : dot_S32768x256_S256x512_S32768x512_1_0_0_1_n_n.contr.Idx) :
    (dot_S32768x256_S256x512_S32768x512_1_0_0_1_n_n.rhsIdx j k 0).val = (k ⟨0, by decide⟩).val :=
  DotDims.rhsIdx_val_of_single _ rfl j k

theorem rhsA_1 (j : S32768x512.Idx) (k : dot_S32768x256_S256x512_S32768x512_1_0_0_1_n_n.contr.Idx) :
    (dot_S32768x256_S256x512_S32768x512_1_0_0_1_n_n.rhsIdx j k 1).val = (j 1).val := by
  simp [DotDims.rhsIdx, dot_S32768x256_S256x512_S32768x512_1_0_0_1_n_n]
  rfl

/-- The first layer's product at (n, j): the sum over the 256 features. -/
theorem dotA_apply (l : FVec Ideal S32768x256 .f32) (r : FVec Ideal S256x512 .f32) (n : Fin 32768) (j : Fin 512) :
    Host.dotGeneral (F := Ideal) dot_S32768x256_S256x512_S32768x512_1_0_0_1_n_n none l r (ix2 n j)
      = ∑ k : Fin 256, l (ix2 n k) * r (ix2 k j) := by
  refine (Ideal.dotGeneral_apply _ none .single l r (ix2 n j)).trans ?_
  refine (Equiv.sum_comp (contrEquiv1 dot_S32768x256_S256x512_S32768x512_1_0_0_1_n_n 256 rfl rfl).symm _).symm.trans ?_
  refine Finset.sum_congr rfl fun k _ => ?_
  have hk := contrEquiv1_symm_val dot_S32768x256_S256x512_S32768x512_1_0_0_1_n_n 256 rfl rfl k
  congr 2
  · funext a
    refine Fin.ext ?_
    match a with
    | ⟨0, _⟩ => exact lhsA_0 _ _
    | ⟨1, _⟩ => exact (lhsA_1 _ _).trans hk
  · funext a
    refine Fin.ext ?_
    match a with
    | ⟨0, _⟩ => exact (rhsA_0 _ _).trans hk
    | ⟨1, _⟩ => exact rhsA_1 _ _

theorem lhsB_0 (j : S32768x512.Idx) (k : dot_S32768x512_S512x512_S32768x512_1_0_0_1_n_n.contr.Idx) :
    (dot_S32768x512_S512x512_S32768x512_1_0_0_1_n_n.lhsIdx j k 0).val = (j 0).val := by
  simp [DotDims.lhsIdx, dot_S32768x512_S512x512_S32768x512_1_0_0_1_n_n]
  rfl

theorem lhsB_1 (j : S32768x512.Idx) (k : dot_S32768x512_S512x512_S32768x512_1_0_0_1_n_n.contr.Idx) :
    (dot_S32768x512_S512x512_S32768x512_1_0_0_1_n_n.lhsIdx j k 1).val = (k ⟨0, by decide⟩).val :=
  DotDims.lhsIdx_val_of_single _ rfl j k

theorem rhsB_0 (j : S32768x512.Idx) (k : dot_S32768x512_S512x512_S32768x512_1_0_0_1_n_n.contr.Idx) :
    (dot_S32768x512_S512x512_S32768x512_1_0_0_1_n_n.rhsIdx j k 0).val = (k ⟨0, by decide⟩).val :=
  DotDims.rhsIdx_val_of_single _ rfl j k

theorem rhsB_1 (j : S32768x512.Idx) (k : dot_S32768x512_S512x512_S32768x512_1_0_0_1_n_n.contr.Idx) :
    (dot_S32768x512_S512x512_S32768x512_1_0_0_1_n_n.rhsIdx j k 1).val = (j 1).val := by
  simp [DotDims.rhsIdx, dot_S32768x512_S512x512_S32768x512_1_0_0_1_n_n]
  rfl

/-- The second layer's product at (n, j): the sum over the 512 hidden units. -/
theorem dotB_apply (l : FVec Ideal S32768x512 .f32) (r : FVec Ideal S512x512 .f32) (n : Fin 32768) (j : Fin 512) :
    Host.dotGeneral (F := Ideal) dot_S32768x512_S512x512_S32768x512_1_0_0_1_n_n none l r (ix2 n j)
      = ∑ k : Fin 512, l (ix2 n k) * r (ix2 k j) := by
  refine (Ideal.dotGeneral_apply _ none .single l r (ix2 n j)).trans ?_
  refine (Equiv.sum_comp (contrEquiv1 dot_S32768x512_S512x512_S32768x512_1_0_0_1_n_n 512 rfl rfl).symm _).symm.trans ?_
  refine Finset.sum_congr rfl fun k _ => ?_
  have hk := contrEquiv1_symm_val dot_S32768x512_S512x512_S32768x512_1_0_0_1_n_n 512 rfl rfl k
  congr 2
  · funext a
    refine Fin.ext ?_
    match a with
    | ⟨0, _⟩ => exact lhsB_0 _ _
    | ⟨1, _⟩ => exact (lhsB_1 _ _).trans hk
  · funext a
    refine Fin.ext ?_
    match a with
    | ⟨0, _⟩ => exact (rhsB_0 _ _).trans hk
    | ⟨1, _⟩ => exact rhsB_1 _ _

theorem lhsC_0 (j : S32768x128.Idx) (k : dot_S32768x512_S512x128_S32768x128_1_0_0_1_n_n.contr.Idx) :
    (dot_S32768x512_S512x128_S32768x128_1_0_0_1_n_n.lhsIdx j k 0).val = (j 0).val := by
  simp [DotDims.lhsIdx, dot_S32768x512_S512x128_S32768x128_1_0_0_1_n_n]
  rfl

theorem lhsC_1 (j : S32768x128.Idx) (k : dot_S32768x512_S512x128_S32768x128_1_0_0_1_n_n.contr.Idx) :
    (dot_S32768x512_S512x128_S32768x128_1_0_0_1_n_n.lhsIdx j k 1).val = (k ⟨0, by decide⟩).val :=
  DotDims.lhsIdx_val_of_single _ rfl j k

theorem rhsC_0 (j : S32768x128.Idx) (k : dot_S32768x512_S512x128_S32768x128_1_0_0_1_n_n.contr.Idx) :
    (dot_S32768x512_S512x128_S32768x128_1_0_0_1_n_n.rhsIdx j k 0).val = (k ⟨0, by decide⟩).val :=
  DotDims.rhsIdx_val_of_single _ rfl j k

theorem rhsC_1 (j : S32768x128.Idx) (k : dot_S32768x512_S512x128_S32768x128_1_0_0_1_n_n.contr.Idx) :
    (dot_S32768x512_S512x128_S32768x128_1_0_0_1_n_n.rhsIdx j k 1).val = (j 1).val := by
  simp [DotDims.rhsIdx, dot_S32768x512_S512x128_S32768x128_1_0_0_1_n_n]
  rfl

/-- The latent last layer's product at (n, j): the sum over the 512 hidden units. -/
theorem dotC_apply (l : FVec Ideal S32768x512 .f32) (r : FVec Ideal S512x128 .f32) (n : Fin 32768) (j : Fin 128) :
    Host.dotGeneral (F := Ideal) dot_S32768x512_S512x128_S32768x128_1_0_0_1_n_n none l r (ix2 n j)
      = ∑ k : Fin 512, l (ix2 n k) * r (ix2 k j) := by
  refine (Ideal.dotGeneral_apply _ none .single l r (ix2 n j)).trans ?_
  refine (Equiv.sum_comp (contrEquiv1 dot_S32768x512_S512x128_S32768x128_1_0_0_1_n_n 512 rfl rfl).symm _).symm.trans ?_
  refine Finset.sum_congr rfl fun k _ => ?_
  have hk := contrEquiv1_symm_val dot_S32768x512_S512x128_S32768x128_1_0_0_1_n_n 512 rfl rfl k
  congr 2
  · funext a
    refine Fin.ext ?_
    match a with
    | ⟨0, _⟩ => exact lhsC_0 _ _
    | ⟨1, _⟩ => exact (lhsC_1 _ _).trans hk
  · funext a
    refine Fin.ext ?_
    match a with
    | ⟨0, _⟩ => exact (rhsC_0 _ _).trans hk
    | ⟨1, _⟩ => exact rhsC_1 _ _

theorem lhsD_0 (j : S32768x2.Idx) (k : dot_S32768x512_S512x2_S32768x2_1_0_0_1_n_n.contr.Idx) :
    (dot_S32768x512_S512x2_S32768x2_1_0_0_1_n_n.lhsIdx j k 0).val = (j 0).val := by
  simp [DotDims.lhsIdx, dot_S32768x512_S512x2_S32768x2_1_0_0_1_n_n]
  rfl

theorem lhsD_1 (j : S32768x2.Idx) (k : dot_S32768x512_S512x2_S32768x2_1_0_0_1_n_n.contr.Idx) :
    (dot_S32768x512_S512x2_S32768x2_1_0_0_1_n_n.lhsIdx j k 1).val = (k ⟨0, by decide⟩).val :=
  DotDims.lhsIdx_val_of_single _ rfl j k

theorem rhsD_0 (j : S32768x2.Idx) (k : dot_S32768x512_S512x2_S32768x2_1_0_0_1_n_n.contr.Idx) :
    (dot_S32768x512_S512x2_S32768x2_1_0_0_1_n_n.rhsIdx j k 0).val = (k ⟨0, by decide⟩).val :=
  DotDims.rhsIdx_val_of_single _ rfl j k

theorem rhsD_1 (j : S32768x2.Idx) (k : dot_S32768x512_S512x2_S32768x2_1_0_0_1_n_n.contr.Idx) :
    (dot_S32768x512_S512x2_S32768x2_1_0_0_1_n_n.rhsIdx j k 1).val = (j 1).val := by
  simp [DotDims.rhsIdx, dot_S32768x512_S512x2_S32768x2_1_0_0_1_n_n]
  rfl

/-- The read-out last layer's product at (n, j): the sum over the 512 hidden units. -/
theorem dotD_apply (l : FVec Ideal S32768x512 .f32) (r : FVec Ideal S512x2 .f32) (n : Fin 32768) (j : Fin 2) :
    Host.dotGeneral (F := Ideal) dot_S32768x512_S512x2_S32768x2_1_0_0_1_n_n none l r (ix2 n j)
      = ∑ k : Fin 512, l (ix2 n k) * r (ix2 k j) := by
  refine (Ideal.dotGeneral_apply _ none .single l r (ix2 n j)).trans ?_
  refine (Equiv.sum_comp (contrEquiv1 dot_S32768x512_S512x2_S32768x2_1_0_0_1_n_n 512 rfl rfl).symm _).symm.trans ?_
  refine Finset.sum_congr rfl fun k _ => ?_
  have hk := contrEquiv1_symm_val dot_S32768x512_S512x2_S32768x2_1_0_0_1_n_n 512 rfl rfl k
  congr 2
  · funext a
    refine Fin.ext ?_
    match a with
    | ⟨0, _⟩ => exact lhsD_0 _ _
    | ⟨1, _⟩ => exact (lhsD_1 _ _).trans hk
  · funext a
    refine Fin.ext ?_
    match a with
    | ⟨0, _⟩ => exact (rhsD_0 _ _).trans hk
    | ⟨1, _⟩ => exact rhsD_1 _ _

/-! ## The perceptron's layers at an index -/

/-- The first hidden layer at (n, k). -/
theorem layer1_apply (a0 : FVec Ideal S32768x256 .f32) (w1 : FVec Ideal S256x512 .f32) (n : Fin 32768) (k : Fin 512) :
    siluArr (F := Ideal) (mulf (Host.dotGeneral dot_S32768x256_S256x512_S32768x512_1_0_0_1_n_n none a0 w1)
        (splat512 0x3D800000#32)) (ix2 n k)
      = Cert.Spec.silu (Cert.Spec.lin Cert.Spec.c16 (fun k' : Fin 256 => a0 (ix2 n k')) (fun k' j => w1 (ix2 k' j)) k) := by
  rw [siluArr_apply, mulf_apply, splat512_apply, dotA_apply]
  rfl

/-- The two hidden layers at (n, k): `silu` of the second layer's pre-activation. -/
theorem hiddenArr_apply (a0 : FVec Ideal S32768x256 .f32) (w1 : FVec Ideal S256x512 .f32) (w2 : FVec Ideal S512x512 .f32)
    (n : Fin 32768) (k : Fin 512) :
    hiddenArr (F := Ideal) a0 w1 w2 (ix2 n k)
      = Cert.Spec.silu (Cert.Spec.hidden (fun k' : Fin 256 => a0 (ix2 n k')) (fun k' j => w1 (ix2 k' j))
          (fun k' j => w2 (ix2 k' j)) k) := by
  unfold hiddenArr
  rw [siluArr_apply, mulf_apply, splat512_apply, dotB_apply]
  simp only [layer1_apply]
  rfl

/-- The latent perceptron's output `j` of atom `n`. -/
theorem latentArr_apply (a0 : FVec Ideal S32768x256 .f32) (a3 : FVec Ideal S256x512 .f32) (a4 : FVec Ideal S512x512 .f32)
    (a5 : FVec Ideal S512x128 .f32) (n : Fin 32768) (j : Fin 128) :
    latentArr (F := Ideal) a0 a3 a4 a5 (ix2 n j)
      = Cert.Spec.mlp (fun k : Fin 256 => a0 (ix2 n k)) (fun k j => a3 (ix2 k j)) (fun k j => a4 (ix2 k j))
          (fun k j => a5 (ix2 k j)) j := by
  unfold latentArr
  rw [mulf_apply, broadcastInDim_scalar_apply, constant_apply, dotC_apply]
  simp only [hiddenArr_apply]
  rfl

/-- The first result at atom `n`, component `j`. -/
theorem invArr_apply (a0 : FVec Ideal S32768x256 .f32) (a6 : FVec Ideal S256x512 .f32) (a7 : FVec Ideal S512x512 .f32)
    (a8 : FVec Ideal S512x2 .f32) (n : Fin 32768) (j : Fin 2) :
    invArr (F := Ideal) a0 a6 a7 a8 (ix2 n j) = Cert.Spec.invOut a0 a6 a7 a8 n j := by
  unfold invArr
  rw [mulf_apply, broadcastInDim_scalar_apply, constant_apply, dotD_apply]
  simp only [hiddenArr_apply]
  rfl

/-! ## The contraction with the vector features -/

theorem lhsE_0 (j : S32768x4x3.Idx) (k : dot_S32768x32x4_S32768x32x3_S32768x4x3_1_1_2_2_0_0.contr.Idx) :
    (dot_S32768x32x4_S32768x32x3_S32768x4x3_1_1_2_2_0_0.lhsIdx j k 0).val = (j 0).val := by
  simp [DotDims.lhsIdx, dot_S32768x32x4_S32768x32x3_S32768x4x3_1_1_2_2_0_0]
  rfl

theorem lhsE_1 (j : S32768x4x3.Idx) (k : dot_S32768x32x4_S32768x32x3_S32768x4x3_1_1_2_2_0_0.contr.Idx) :
    (dot_S32768x32x4_S32768x32x3_S32768x4x3_1_1_2_2_0_0.lhsIdx j k 1).val = (k ⟨0, by decide⟩).val :=
  DotDims.lhsIdx_val_of_single _ rfl j k

theorem lhsE_2 (j : S32768x4x3.Idx) (k : dot_S32768x32x4_S32768x32x3_S32768x4x3_1_1_2_2_0_0.contr.Idx) :
    (dot_S32768x32x4_S32768x32x3_S32768x4x3_1_1_2_2_0_0.lhsIdx j k 2).val = (j 1).val := by
  simp [DotDims.lhsIdx, dot_S32768x32x4_S32768x32x3_S32768x4x3_1_1_2_2_0_0]
  rfl

theorem rhsE_0 (j : S32768x4x3.Idx) (k : dot_S32768x32x4_S32768x32x3_S32768x4x3_1_1_2_2_0_0.contr.Idx) :
    (dot_S32768x32x4_S32768x32x3_S32768x4x3_1_1_2_2_0_0.rhsIdx j k 0).val = (j 0).val := by
  simp [DotDims.rhsIdx, dot_S32768x32x4_S32768x32x3_S32768x4x3_1_1_2_2_0_0]
  rfl

theorem rhsE_1 (j : S32768x4x3.Idx) (k : dot_S32768x32x4_S32768x32x3_S32768x4x3_1_1_2_2_0_0.contr.Idx) :
    (dot_S32768x32x4_S32768x32x3_S32768x4x3_1_1_2_2_0_0.rhsIdx j k 1).val = (k ⟨0, by decide⟩).val :=
  DotDims.rhsIdx_val_of_single _ rfl j k

theorem rhsE_2 (j : S32768x4x3.Idx) (k : dot_S32768x32x4_S32768x32x3_S32768x4x3_1_1_2_2_0_0.contr.Idx) :
    (dot_S32768x32x4_S32768x32x3_S32768x4x3_1_1_2_2_0_0.rhsIdx j k 2).val = (j 2).val := by
  simp [DotDims.rhsIdx, dot_S32768x32x4_S32768x32x3_S32768x4x3_1_1_2_2_0_0]
  rfl

/-- The per-atom contraction at (n, v, c): the sum over the 32 input vectors, the atom axis carried along. -/
theorem dotE_apply (l : FVec Ideal S32768x32x4 .f32) (r : FVec Ideal S32768x32x3 .f32) (n : Fin 32768) (v : Fin 4) (c : Fin 3) :
    Host.dotGeneral (F := Ideal) dot_S32768x32x4_S32768x32x3_S32768x4x3_1_1_2_2_0_0 none l r (ix3 n v c)
      = ∑ u : Fin 32, l (ix3 n u v) * r (ix3 n u c) := by
  refine (Ideal.dotGeneral_apply _ none .single l r (ix3 n v c)).trans ?_
  refine (Equiv.sum_comp (contrEquiv1 dot_S32768x32x4_S32768x32x3_S32768x4x3_1_1_2_2_0_0 32 rfl rfl).symm _).symm.trans ?_
  refine Finset.sum_congr rfl fun k _ => ?_
  have hk := contrEquiv1_symm_val dot_S32768x32x4_S32768x32x3_S32768x4x3_1_1_2_2_0_0 32 rfl rfl k
  congr 2
  · funext a
    refine Fin.ext ?_
    match a with
    | ⟨0, _⟩ => exact lhsE_0 _ _
    | ⟨1, _⟩ => exact (lhsE_1 _ _).trans hk
    | ⟨2, _⟩ => exact lhsE_2 _ _
  · funext a
    refine Fin.ext ?_
    match a with
    | ⟨0, _⟩ => exact rhsE_0 _ _
    | ⟨1, _⟩ => exact (rhsE_1 _ _).trans hk
    | ⟨2, _⟩ => exact rhsE_2 _ _

/-- The 128 latent outputs read as `[u, v]`: entry (u, v) is output `4u + v`, the two having one row-major position. -/
theorem reshape_apply (lat : FVec Ideal S32768x128 .f32) (n : Fin 32768) (u : Fin 32) (v : Fin 4) :
    shapeCast S32768x32x4 lat shapeCasts_S32768x128_S32768x32x4 (ix3 n u v)
      = lat (ix2 n (⟨u.val * 4 + v.val, by omega⟩ : Fin 128)) := by
  refine shapeCast_apply lat _ (ix3 n u v) (ix2 n (⟨u.val * 4 + v.val, by omega⟩ : Fin 128)) ?_
  rw [Shape.rowMajor_val_two, Shape.rowMajor_val_three]
  show n.val * 128 + (u.val * 4 + v.val) = (n.val * 32 + u.val) * 4 + v.val
  omega

/-- The contraction of the latent outputs with the vector features at (n, v, c), scaled. -/
theorem mixArr_apply (lat : FVec Ideal S32768x128 .f32) (a1 : FVec Ideal S32768x32x3 .f32) (n : Fin 32768) (v : Fin 4)
    (c : Fin 3) :
    mixArr (F := Ideal) lat a1 (ix3 n v c)
      = (∑ u : Fin 32, lat (ix2 n (⟨u.val * 4 + v.val, by omega⟩ : Fin 128)) * a1 (ix3 n u c))
          * Ideal.ofBits .f32 0x3E3504F3#32 := by
  unfold mixArr
  rw [mulf_apply, broadcastInDim_scalar_apply, constant_apply, dotE_apply]
  simp only [reshape_apply]

/-! ## The division by the length -/

section Layout
variable {α : Type}

/-- A `[atom, v, 1]` array laid along the three components reads, at (n, v, c), its entry (n, v, 0). -/
theorem bcast413_apply (y : S32768x4x1.Idx → α) (n : Fin 32768) (v : Fin 4) (c : Fin 3) :
    broadcastInDim S32768x4x3 ![0, 1, 2] bcast_S32768x4x1_S32768x4x3_0_1_2 y (ix3 n v c) = y (ix3 n v (0 : Fin 1)) :=
  broadcastInDim_apply _ _ y (ix3 n v c) (ix3 n v (0 : Fin 1))
    (fun a => match a with | ⟨0, _⟩ => rfl | ⟨1, _⟩ => rfl | ⟨2, _⟩ => rfl)

/-- A `[atom, v]` array given a trailing unit axis reads, at (n, v, 0), its entry (n, v). -/
theorem bcast41_apply (y : S32768x4.Idx → α) (n : Fin 32768) (v : Fin 4) :
    broadcastInDim S32768x4x1 ![0, 1] bcast_S32768x4_S32768x4x1_0_1 y (ix3 n v (0 : Fin 1)) = y (ix2 n v) :=
  broadcastInDim_apply _ _ y (ix3 n v (0 : Fin 1)) (ix2 n v)
    (fun a => match a with | ⟨0, _⟩ => rfl | ⟨1, _⟩ => rfl)

end Layout

/-- The sum of a 3-vector's squares: the host's sum over the last axis from the zero word is `0` plus the three terms. -/
theorem sumsq_apply (x : FVec Ideal S32768x4x3 .f32) (n : Fin 32768) (v : Fin 4) :
    Host.reduceAdd (F := Ideal) (mulf x x) (constant S_ .f32 0x00000000#32) reducesTo_S32768x4x3_S32768x4_d2 h_S_ (ix2 n v)
      = x (ix3 n v 0) * x (ix3 n v 0) + x (ix3 n v 1) * x (ix3 n v 1) + x (ix3 n v 2) * x (ix3 n v 2) := by
  have hR : Shape.Reduces S32768x4x3 [2] S32768x4 := by decide
  have e : ∀ k : Fin 3, hR.lift (ix2 n v) k = ix3 n v k := fun k => by
    funext a
    refine Fin.ext ?_
    match a with
    | ⟨0, _⟩ => rfl
    | ⟨1, _⟩ => rfl
    | ⟨2, _⟩ => rfl
  rw [hostReduceAdd_apply, Ideal.hostReduceAdd_single _ hR, constant_apply, Ideal.ofBits_zero_f32, zero_add]
  show ∑ k : Fin 3, (mulf x x) (hR.lift (ix2 n v) k) = _
  rw [Fin.sum_univ_three, e, e, e]
  rfl

/-- Each 3-vector over its length plus the small constant, at one component. -/
theorem unitArr_apply (x : FVec Ideal S32768x4x3 .f32) (n : Fin 32768) (v : Fin 4) (c : Fin 3) :
    unitArr (F := Ideal) x (ix3 n v c) = Cert.Spec.unit3 (fun c' : Fin 3 => x (ix3 n v c')) c := by
  unfold unitArr Cert.Spec.unit3 Cert.Spec.cEps
  rw [hostDivf_apply, bcast413_apply, addf_apply, broadcastInDim_scalar_apply, constant_apply, hostSqrt_apply,
    bcast41_apply, sumsq_apply]

/-! ## The replacement of infinities -/

/-- Where the mask's bit is `0` the array's own entry is kept. -/
theorem whereArr_of_zero (m : IVec S32768x4x3 1) (s : FVec Ideal S_ .f32) (x : FVec Ideal S32768x4x3 .f32)
    (i : S32768x4x3.Idx) (h : m i = 0#1) : whereArr (F := Ideal) m s x i = x i := by
  unfold whereArr
  rw [select_apply, h, select_zero]

/-- No extended real is unequal to itself, so the first replacement changes nothing. -/
theorem where_une (x : FVec Ideal S32768x4x3 .f32) (s : FVec Ideal S_ .f32) (i : S32768x4x3.Idx) :
    whereArr (F := Ideal) (cmpf .une x x) s x i = x i := by
  refine whereArr_of_zero _ s x i ?_
  rw [cmpf_apply, Ideal.cmpf_def]
  simp [Ideal.cmp]

/-- An entry that is not the tested word's value is kept by a replacement of that value. -/
theorem where_oeq (y : FVec Ideal S32768x4x3 .f32) (w s : BitVec 32) (i : S32768x4x3.Idx) {a : EReal} (e : y i = a)
    (h : a ≠ Ideal.ofBits .f32 w) :
    whereArr (F := Ideal) (cmpf .oeq y (broadcastInDim S32768x4x3 ![] bcast_S_S32768x4x3 (constant S_ .f32 w)))
      (constant S_ .f32 s) y i = a := by
  refine (whereArr_of_zero _ _ y i ?_).trans e
  rw [cmpf_apply, Ideal.cmpf_def, broadcastInDim_scalar_apply, constant_apply, e]
  simp [Ideal.cmp, h]

/-- An entry that is neither infinity passes the three replacements unchanged. -/
theorem cleanArr_apply (x : FVec Ideal S32768x4x3 .f32) (i : S32768x4x3.Idx) (ht : x i ≠ ⊤) (hb : x i ≠ ⊥) :
    cleanArr (F := Ideal) x i = x i := by
  simp only [cleanArr]
  exact where_oeq _ _ _ i (where_oeq _ _ _ i (where_une x _ i) (by rw [top_word]; exact ht)) (by rw [bot_word]; exact hb)

/-! ## The bond lengths of the atom's type -/

/-- A word below 32 is not negative: the signed test against zero is `0`. -/
theorem slt_zero_of_small (a : BitVec 32) (h : a.toNat < 32) : IntOp.cmpi .slt a 0#32 = 0#1 := by
  have hm : a.msb = false := BitVec.msb_eq_false_iff_two_mul_lt.mpr (by omega)
  have hi : a.toInt = (a.toNat : Int) := BitVec.toInt_eq_toNat_of_msb hm
  have : a.slt 0#32 = false := by
    simp only [BitVec.slt, hi, decide_eq_false_iff_not, not_lt]
    show (0#32 : BitVec 32).toInt ≤ _
    simp
  simp [IntOp.cmpi, this]

/-- A word below 32 read signed and clamped to `[0, 31]` is its own number. -/
theorem clamp_of_small (a : BitVec 32) (h : a.toNat < 32) : min a.toInt.toNat (32 - 1) = a.toNat := by
  have hm : a.msb = false := BitVec.msb_eq_false_iff_two_mul_lt.mpr (by omega)
  have hi : a.toInt = (a.toNat : Int) := BitVec.toInt_eq_toNat_of_msb hm
  rw [hi, Int.toNat_natCast]
  omega

/-- The type vector as a column again: entry (n, 0) is entry `n`. -/
theorem tycol_apply (ty : IVec S32768 32) (n : Fin 32768) :
    broadcastInDim S32768x1 ![0] bcast_S32768_S32768x1_0 ty (ix2 n (0 : Fin 1)) = ty (ix1 n) :=
  broadcastInDim_apply _ _ ty (ix2 n (0 : Fin 1)) (ix1 n) (fun a => match a with | ⟨0, _⟩ => rfl)

/-- The type column read as a vector: entry `n` is entry (n, 0). -/
theorem tyvec_apply (a2 : IVec S32768x1 32) (n : Fin 32768) :
    shapeCast S32768 a2 shapeCasts_S32768x1_S32768 (ix1 n) = a2 (ix2 n (0 : Fin 1)) := by
  refine shapeCast_apply a2 _ (ix1 n) (ix2 n (0 : Fin 1)) ?_
  rw [Shape.rowMajor_val_two, Shape.rowMajor_val_one]
  show n.val * 1 + 0 = n.val
  omega

/-- The gathered table row: the start index read signed and clamped. -/
theorem gatherIdx_0 (idx : IVec S32768x1 32) (n : Fin 32768) (v : Fin 4) :
    (gather_S32x4x1_S32768x1_S32768x4x1_12_0_n_n_0_1_141.operandIdx (ix3 n v (0 : Fin 1)) idx 0).val
      = min (idx (ix2 n (0 : Fin 1))).toInt.toNat (32 - 1) := by
  show gather_S32x4x1_S32768x1_S32768x4x1_12_0_n_n_0_1_141.start (ix3 n v (0 : Fin 1)) idx 0
      + gather_S32x4x1_S32768x1_S32768x4x1_12_0_n_n_0_1_141.batchCoord (ix3 n v (0 : Fin 1)) 0
      + gather_S32x4x1_S32768x1_S32768x4x1_12_0_n_n_0_1_141.offCoord (ix3 n v (0 : Fin 1)) 0 = _
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  unfold GatherDims.start
  rw [dif_pos (show (0 : Fin 3) ∈ gather_S32x4x1_S32768x1_S32768x4x1_12_0_n_n_0_1_141.startIndexMap from
    List.mem_singleton.mpr rfl)]
  have hsi : gather_S32x4x1_S32768x1_S32768x4x1_12_0_n_n_0_1_141.siIdx (ix3 n v (0 : Fin 1))
      ⟨List.idxOf (0 : Fin 3) gather_S32x4x1_S32768x1_S32768x4x1_12_0_n_n_0_1_141.startIndexMap,
        List.idxOf_lt_length_iff.2 (List.mem_singleton.mpr rfl)⟩ = ix2 n (0 : Fin 1) := by
    funext b
    refine Fin.ext ?_
    match b with
    | ⟨0, _⟩ => rfl
    | ⟨1, _⟩ => rfl
  rw [hsi]
  rfl

/-- The gathered table column: the result's own second coordinate. -/
theorem gatherIdx_1 (idx : IVec S32768x1 32) (n : Fin 32768) (v : Fin 4) :
    (gather_S32x4x1_S32768x1_S32768x4x1_12_0_n_n_0_1_141.operandIdx (ix3 n v (0 : Fin 1)) idx 1).val = v.val := by
  show gather_S32x4x1_S32768x1_S32768x4x1_12_0_n_n_0_1_141.start (ix3 n v (0 : Fin 1)) idx 1
      + gather_S32x4x1_S32768x1_S32768x4x1_12_0_n_n_0_1_141.batchCoord (ix3 n v (0 : Fin 1)) 1
      + gather_S32x4x1_S32768x1_S32768x4x1_12_0_n_n_0_1_141.offCoord (ix3 n v (0 : Fin 1)) 1 = _
  rw [GatherDims.batchCoord_eq_zero _ _ _ List.not_mem_nil, Nat.add_zero]
  unfold GatherDims.start
  rw [dif_neg (show ¬ (1 : Fin 3) ∈ gather_S32x4x1_S32768x1_S32768x4x1_12_0_n_n_0_1_141.startIndexMap by decide),
    Nat.zero_add]
  rfl

/-- The gathered table's unit axis. -/
theorem gatherIdx_2 (idx : IVec S32768x1 32) (n : Fin 32768) (v : Fin 4) :
    (gather_S32x4x1_S32768x1_S32768x4x1_12_0_n_n_0_1_141.operandIdx (ix3 n v (0 : Fin 1)) idx 2).val = 0 := by
  show gather_S32x4x1_S32768x1_S32768x4x1_12_0_n_n_0_1_141.start (ix3 n v (0 : Fin 1)) idx 2
      + gather_S32x4x1_S32768x1_S32768x4x1_12_0_n_n_0_1_141.batchCoord (ix3 n v (0 : Fin 1)) 2
      + gather_S32x4x1_S32768x1_S32768x4x1_12_0_n_n_0_1_141.offCoord (ix3 n v (0 : Fin 1)) 2 = _
  rw [GatherDims.batchCoord_eq_zero _ _ _ List.not_mem_nil, Nat.add_zero]
  unfold GatherDims.start
  rw [dif_neg (show ¬ (2 : Fin 3) ∈ gather_S32x4x1_S32768x1_S32768x4x1_12_0_n_n_0_1_141.startIndexMap by decide),
    Nat.zero_add]
  rfl

/-- The gather at (n, v, 0) reads the table at row `t`, column `v`, whenever the start index of atom `n`, read signed and
    clamped to `[0, 31]`, is `t`. -/
theorem gather_apply (a9 : FVec Ideal S32x4x1 .f32) (idx : IVec S32768x1 32) (n : Fin 32768) (v : Fin 4) (t : Fin 32)
    (ht : min (idx (ix2 n (0 : Fin 1))).toInt.toNat (32 - 1) = t.val) :
    Host.gather gather_S32x4x1_S32768x1_S32768x4x1_12_0_n_n_0_1_141 a9 idx (ix3 n v (0 : Fin 1))
      = a9 (ix3 t v (0 : Fin 1)) := by
  unfold Host.gather
  refine congrArg a9 (funext fun a => Fin.ext ?_)
  match a with
  | ⟨0, _⟩ => exact (gatherIdx_0 idx n v).trans ht
  | ⟨1, _⟩ => exact gatherIdx_1 idx n v
  | ⟨2, _⟩ => exact gatherIdx_2 idx n v

/-- For a type number below 32 the wrap of negative numbers leaves the word as it is. -/
theorem wrap_apply (a2 : IVec S32768x1 32) (n : Fin 32768) (hty : (a2 (ix2 n (0 : Fin 1))).toNat < 32) :
    broadcastInDim S32768x1 ![0] bcast_S32768_S32768x1_0
      (select (cmpi .slt (shapeCast S32768 a2 shapeCasts_S32768x1_S32768)
          (broadcastInDim S32768 ![] bcast_S_S32768 (constantI S_ 32 0#32)))
        (addi (shapeCast S32768 a2 shapeCasts_S32768x1_S32768)
          (broadcastInDim S32768 ![] bcast_S_S32768 (constantI S_ 32 32#32)))
        (shapeCast S32768 a2 shapeCasts_S32768x1_S32768)) (ix2 n (0 : Fin 1))
      = a2 (ix2 n (0 : Fin 1)) := by
  rw [tycol_apply, select_apply, cmpi_apply, broadcastInDim_scalar_apply, constantI_apply, tyvec_apply,
    slt_zero_of_small _ hty, select_zero]

/-- The bond lengths of atom `n`'s type, for a type number below 32. -/
theorem bondArr_apply (a2 : IVec S32768x1 32) (a9 : FVec Ideal S32x4x1 .f32) (n : Fin 32768)
    (hty : (a2 (ix2 n (0 : Fin 1))).toNat < 32) (v : Fin 4) :
    bondArr (F := Ideal) a2 a9 (ix3 n v (0 : Fin 1)) = a9 (ix3 (Cert.Spec.tyOf (a2 (ix2 n (0 : Fin 1)))) v (0 : Fin 1)) := by
  simp only [bondArr]
  refine gather_apply a9 _ n v (Cert.Spec.tyOf (a2 (ix2 n (0 : Fin 1)))) ?_
  rw [wrap_apply a2 n hty, clamp_of_small _ hty]
  exact (Nat.mod_eq_of_lt hty).symm

/-! ## The second result -/

/-- The second result at atom `n`, vector `v`, component `c`, for an atom whose type number is below 32. -/
theorem eqArr_apply (a0 : FVec Ideal S32768x256 .f32) (a1 : FVec Ideal S32768x32x3 .f32) (a2 : IVec S32768x1 32)
    (a3 : FVec Ideal S256x512 .f32) (a4 : FVec Ideal S512x512 .f32) (a5 : FVec Ideal S512x128 .f32)
    (a9 : FVec Ideal S32x4x1 .f32) (n : Fin 32768) (hty : (a2 (ix2 n (0 : Fin 1))).toNat < 32) (v : Fin 4) (c : Fin 3) :
    eqArr (F := Ideal) a0 a1 a2 a3 a4 a5 a9 (ix3 n v c) = Cert.Spec.eqOut a0 a1 a2 a3 a4 a5 a9 n v c := by
  have hu := unitArr_apply (mixArr (F := Ideal) (latentArr a0 a3 a4 a5) a1) n v c
  have ht : unitArr (F := Ideal) (mixArr (latentArr a0 a3 a4 a5) a1) (ix3 n v c) ≠ ⊤ := by
    rw [hu]; exact Cert.Spec.unit3_ne_top _ _
  have hb : unitArr (F := Ideal) (mixArr (latentArr a0 a3 a4 a5) a1) (ix3 n v c) ≠ ⊥ := by
    rw [hu]; exact Cert.Spec.unit3_ne_bot _ _
  unfold eqArr
  rw [mulf_apply, bcast413_apply, bondArr_apply a2 a9 n hty v, cleanArr_apply _ _ ht hb, hu]
  unfold Cert.Spec.eqOut
  refine congrArg (fun r : Fin 3 → EReal => Cert.Spec.unit3 r c * a9 (ix3 (Cert.Spec.tyOf (a2 (ix2 n (0 : Fin 1)))) v (0 : Fin 1)))
    (funext fun c' => ?_)
  rw [mixArr_apply]
  simp only [latentArr_apply]
  rfl

end Cert.ReferenceIdeal.RefValue

end
-- ==== Proof.PreDecode.lean ====
/-
  The precondition read at one atom. Its last two conjuncts say that every type number is at least `0` and below `32` as a
  signed word; a word in `[0, 32)` signed is below `32` unsigned.
-/
import proofs.«428606_j73186242724417_3_alg».proof.Proof.Gen.Pre_finite_inputs
import Idealize.ShloMosaic.Lib.ReduceAll
import Idealize.ShloMosaic.Lib.ValueIdx

noncomputable section

namespace Cert.Pre_finite_inputs.Decode

open Cert.Pre_finite_inputs Cert.Pre_finite_inputs.Gen Idealize.ShloMosaic Idealize.ShloMosaic.ValueIdx

instance : Subsingleton S_.Idx := ⟨fun a b => funext fun d => d.elim0⟩

theorem ofBool_eq_one (b : Bool) : BitVec.ofBool b = 1#1 ↔ b = true := by cases b <;> decide
theorem and1 : ∀ (a b : BitVec 1), IntOp.andi a b = 1#1 ↔ a = 1#1 ∧ b = 1#1 := by decide

/-- A word in `[0, 32)` signed is below `32` unsigned. -/
theorem toNat_lt32 (w : BitVec 32) (h0 : IntOp.cmpi .sge w (0#32) = 1#1) (h1 : IntOp.cmpi .slt w (32#32) = 1#1) :
    w.toNat < 32 := by
  unfold IntOp.cmpi at h0 h1
  rw [ofBool_eq_one] at h0 h1
  simp only [BitVec.slt, BitVec.sle, decide_eq_true_eq] at h0 h1
  have h32 := w.isLt
  unfold BitVec.toInt at h0 h1
  split at h1 <;> simp at h0 h1 <;> omega

variable {F : FTy → Type} [FloatOps F]

/-- Under the precondition every atom's type number is below 32. -/
theorem type_lt (a0 : FVec F S32768x256 .f32) (a1 : FVec F S32768x32x3 .f32) (a2 : IVec S32768x1 32)
    (a3 : FVec F S256x512 .f32) (a4 : FVec F S512x512 .f32) (a5 : FVec F S512x128 .f32) (a6 : FVec F S256x512 .f32)
    (a7 : FVec F S512x512 .f32) (a8 : FVec F S512x2 .f32) (a9 : FVec F S32x4x1 .f32)
    (h : fn (F := F) a0 a1 a2 a3 a4 a5 a6 a7 a8 a9 = fun _ => 1#1) (n : Fin 32768) :
    (a2 (ix2 n (0 : Fin 1))).toNat < 32 := by
  have e := congrFun h ix0
  unfold fn at e; dsimp only at e
  unfold fn_part1 at e; dsimp only at e
  unfold fn_part2 at e; dsimp only at e
  unfold fn_part3 at e; dsimp only at e
  have e1 : IntOp.andi _ _ = 1#1 := e
  obtain ⟨e2, hlt⟩ := (and1 _ _).mp e1
  have e3 : IntOp.andi _ _ = 1#1 := e2
  obtain ⟨-, hge⟩ := (and1 _ _).mp e3
  have g0 := Host.reduce_andi_all _ _ _ _ ix0 hge (ix2 n (0 : Fin 1))
  have g1 := Host.reduce_andi_all _ _ _ _ ix0 hlt (ix2 n (0 : Fin 1))
  exact toNat_lt32 _ g0 g1

end Cert.Pre_finite_inputs.Decode

end
-- ==== Proof.lean ====
/-
  The certificate of the atom network: a per-atom perceptron over the scalar features gives the invariant result, and a
  second perceptron gives per-atom weights that contract the atom's vector features, each resulting 3-vector divided by its
  length plus a small constant and scaled by the bond length of the atom's type.

  The kernel works on sixteen blocks of 2048 atoms; the matrix unit's operands are the same weights in a shorter float
  format (the same extended reals), the last latent layer's columns permuted so that the contraction reads contiguous
  columns, the read-out's last layer and the bond lengths transposed, the bond length picked by an indicator sum over the
  32 types. The reference computes the same per-atom functions with whole-array matrix products, then replaces infinite
  entries (there are none: a component over its vector's length plus a positive constant is finite) and gathers the bond
  lengths by type. Both end at the specification's `invOut` and `eqOut` of the argument arrays, for type numbers in
  `[0, 32)`, which the precondition states.
-/
import proofs.«428606_j73186242724417_3_alg».proof.Defs
import proofs.«428606_j73186242724417_3_alg».proof.Proof.Gen.Kernel
import proofs.«428606_j73186242724417_3_alg».proof.Proof.Gen.Kernel.Frame
import proofs.«428606_j73186242724417_3_alg».proof.Proof.Gen.KernelIdeal
import proofs.«428606_j73186242724417_3_alg».proof.Proof.Gen.KernelIdeal.Frame
import proofs.«428606_j73186242724417_3_alg».proof.Proof.Gen.ReferenceIdeal
import proofs.«428606_j73186242724417_3_alg».proof.Proof.Gen.Pre_finite_inputs
import proofs.«428606_j73186242724417_3_alg».proof.Proof.KBlocks
import proofs.«428606_j73186242724417_3_alg».proof.Proof.RefRun
import proofs.«428606_j73186242724417_3_alg».proof.Proof.RefValue
import proofs.«428606_j73186242724417_3_alg».proof.Proof.PreDecode
import Idealize.ShloMosaic.Adequacy
import Idealize.ShloMosaic.Init

noncomputable section

namespace Cert.Proof

open Idealize.ShloMosaic Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with the two results dropped. -/
theorem frame_referenceIdeal : Cert.frame_ReferenceIdeal := fun m ρ _ =>
  (θ_run Cert.ReferenceIdeal.defs _ _).mono (fun _ h c => (h c).2.2) (Cert.ReferenceIdeal.RefValue.run (F := Ideal) m ρ)

/-- The idealization rewrote no operation. -/
theorem preserves : Cert.preserves_Kernel_KernelIdeal := trivial

/-- The precondition gives every atom a type number below 32. -/
theorem types_in_range (m : (ℓ : Loc Cert.KernelIdeal.nD Cert.KernelIdeal.τ Cert.KernelIdeal.sig) → Buf (Elt Ideal) ℓ)
    (h : Cert.Pre_KernelIdeal m) : Cert.KernelIdeal.Blocks.TypesInRange m :=
  fun c n => Cert.Pre_finite_inputs.Decode.type_lt _ _ _ _ _ _ _ _ _ _ (h c) n

/-- Both programs end at the specification's two functions of the (agreeing) argument arrays. -/
theorem algebraic : Cert.algebraic_KernelIdeal_ReferenceIdeal := by
  intro m ρ m' ρ' hpre hagree
  have hty := types_in_range m hpre
  refine ⟨fun c => Cert.KernelIdeal.Blocks.inv m c, fun c => Cert.KernelIdeal.Blocks.eqv m c,
    Cert.KernelIdeal.Blocks.run m ρ hty, ?_⟩
  refine (θ_run Cert.ReferenceIdeal.defs _ _).mono (fun _ h c => ⟨(h c).1.trans ?_, (h c).2.1.trans ?_, (h c).2.2⟩)
    (Cert.ReferenceIdeal.RefValue.run (F := Ideal) m' ρ')
  · obtain ⟨h0, h1, h2, h3, h4, h5, h6, h7, h8, h9⟩ := hagree c
    rw [h0, h6, h7, h8]
    funext i
    obtain ⟨n, j, rfl⟩ : ∃ (n : Fin 32768) (j : Fin 2), i = ix2 n j := ⟨i 0, i 1, eq_ix2 i⟩
    exact Cert.ReferenceIdeal.RefValue.invArr_apply _ _ _ _ n j
  · obtain ⟨h0, h1, h2, h3, h4, h5, h6, h7, h8, h9⟩ := hagree c
    rw [h0, h1, h2, h3, h4, h5, h9]
    funext i
    obtain ⟨n, v, cc, rfl⟩ : ∃ (n : Fin 32768) (v : Fin 4) (cc : Fin 3), i = ix3 n v cc := ⟨i 0, i 1, i 2, eq_ix3 i⟩
    exact Cert.ReferenceIdeal.RefValue.eqArr_apply _ _ _ _ _ _ _ n (hty c n) v cc

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
